-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)) (v6 : (c : Dev Cert.KernelIdeal.nD) → Buf (Elt Ideal) ((c.tc : Thread Cert.KernelIdeal.nD Cert.KernelIdeal.τ).loc Cert.KernelIdeal.main_v0_6)) (v7 : (c : Dev Cert.KernelIdeal.nD) → Buf (Elt Ideal) ((c.tc : Thread Cert.KernelIdeal.nD Cert.KernelIdeal.τ).loc Cert.KernelIdeal.main_v0_7)) (v8 : (c : Dev Cert.KernelIdeal.nD) → Buf (Elt Ideal) ((c.tc : Thread Cert.KernelIdeal.nD Cert.KernelIdeal.τ).loc Cert.KernelIdeal.main_arg9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_v0_6) = v6 c
          ∧ r.2.mem ((c.tc : Thread Cert.KernelIdeal.nD Cert.KernelIdeal.τ).loc Cert.KernelIdeal.main_v0_7) = v7 c
          ∧ r.2.mem ((c.tc : Thread Cert.KernelIdeal.nD Cert.KernelIdeal.τ).loc Cert.KernelIdeal.main_arg9) = v8 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_v9) = v1 c
          ∧ r.2.mem ((c.tc : Thread Cert.ReferenceIdeal.nD Cert.ReferenceIdeal.τ).loc Cert.ReferenceIdeal.main_v10) = v2 c
          ∧ r.2.mem ((c.tc : Thread Cert.ReferenceIdeal.nD Cert.ReferenceIdeal.τ).loc Cert.ReferenceIdeal.main_v52) = v3 c
          ∧ r.2.mem ((c.tc : Thread Cert.ReferenceIdeal.nD Cert.ReferenceIdeal.τ).loc Cert.ReferenceIdeal.main_v46) = v4 c
          ∧ r.2.mem ((c.tc : Thread Cert.ReferenceIdeal.nD Cert.ReferenceIdeal.τ).loc Cert.ReferenceIdeal.main_v51) = v5 c
          ∧ r.2.mem ((c.tc : Thread Cert.ReferenceIdeal.nD Cert.ReferenceIdeal.τ).loc Cert.ReferenceIdeal.main_v37) = v6 c
          ∧ r.2.mem ((c.tc : Thread Cert.ReferenceIdeal.nD Cert.ReferenceIdeal.τ).loc Cert.ReferenceIdeal.main_v42) = v7 c
          ∧ r.2.mem ((c.tc : Thread Cert.ReferenceIdeal.nD Cert.ReferenceIdeal.τ).loc Cert.ReferenceIdeal.main_arg9) = v8 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x512 : Shape := ⟨2, ![1024, 512]⟩
abbrev S512 : Shape := ⟨1, ![512]⟩
abbrev S512x64 : Shape := ⟨2, ![512, 64]⟩
abbrev S64 : Shape := ⟨1, ![64]⟩
abbrev S64x1024 : Shape := ⟨2, ![64, 1024]⟩
abbrev S1024 : Shape := ⟨1, ![1024]⟩
abbrev S1088x50 : Shape := ⟨2, ![1088, 50]⟩
abbrev S50 : Shape := ⟨1, ![50]⟩
abbrev S16x64 : Shape := ⟨2, ![16, 64]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_
  bcast_S_S512x64 : S_.BroadcastsInDim S512x64 (![] : Fin 0 → Fin S512x64.rank)
  reducesTo_S512x64_S_d0_1 : S512x64.ReducesTo [0, 1] S_
  bcast_S_S64 : S_.BroadcastsInDim S64 (![] : Fin 0 → Fin S64.rank)
  reducesTo_S64_S_d0 : S64.ReducesTo [0] S_
  bcast_S_S64x1024 : S_.BroadcastsInDim S64x1024 (![] : Fin 0 → Fin S64x1024.rank)
  reducesTo_S64x1024_S_d0_1 : S64x1024.ReducesTo [0, 1] S_
  bcast_S_S1024 : S_.BroadcastsInDim S1024 (![] : Fin 0 → Fin S1024.rank)
  reducesTo_S1024_S_d0 : S1024.ReducesTo [0] S_
  bcast_S_S1088x50 : S_.BroadcastsInDim S1088x50 (![] : Fin 0 → Fin S1088x50.rank)
  reducesTo_S1088x50_S_d0_1 : S1088x50.ReducesTo [0, 1] S_
  bcast_S_S50 : S_.BroadcastsInDim S50 (![] : Fin 0 → Fin S50.rank)
  reducesTo_S50_S_d0 : S50.ReducesTo [0] S_
  bcast_S_S16x64 : S_.BroadcastsInDim S16x64 (![] : Fin 0 → Fin S16x64.rank)
  reducesTo_S16x64_S_d0_1 : S16x64.ReducesTo [0, 1] S_

variable [Facts]

def fn_part2 {F : FTy → Type} [FloatOps F] (main_arg7 : FVec F S1088x50 .f32) (main_arg8 : FVec F S50 .f32) (main_arg9 : FVec F S16x64 .f32) (main_v33 : IVec S_ 1) : IVec S_ 1 :=
  let main_v34 : FVec F S1088x50 .f32 := Host.absf main_arg7
  let main_cst_12 : FVec F S_ .f32 := constant S_ .f32 0x7F800000#32
  let main_v35 : FVec F S1088x50 .f32 := broadcastInDim S1088x50 ![] bcast_S_S1088x50 main_cst_12
  let main_v36 : IVec S1088x50 1 := cmpf .olt main_v34 main_v35
  let main_c_13 : IVec S_ 1 := constantI S_ 1 1#1
  let main_v37 : IVec S_ 1 := (fun x v => Host.reduce IntOp.andi x v reducesTo_S1088x50_S_d0_1 h_S_) main_v36 main_c_13
  let main_v38 : IVec S_ 1 := andi main_v33 main_v37
  let main_v39 : FVec F S50 .f32 := Host.absf main_arg8
  let main_cst_14 : FVec F S_ .f32 := constant S_ .f32 0x7F800000#32
  let main_v40 : FVec F S50 .f32 := broadcastInDim S50 ![] bcast_S_S50 main_cst_14
  let main_v41 : IVec S50 1 := cmpf .olt main_v39 main_v40
  let main_c_15 : IVec S_ 1 := constantI S_ 1 1#1
  let main_v42 : IVec S_ 1 := (fun x v => Host.reduce IntOp.andi x v reducesTo_S50_S_d0 h_S_) main_v41 main_c_15
  let main_v43 : IVec S_ 1 := andi main_v38 main_v42
  let main_v44 : FVec F S16x64 .f32 := Host.absf main_arg9
  let main_cst_16 : FVec F S_ .f32 := constant S_ .f32 0x7F800000#32
  let main_v45 : FVec F S16x64 .f32 := broadcastInDim S16x64 ![] bcast_S_S16x64 main_cst_16
  let main_v46 : IVec S16x64 1 := cmpf .olt main_v44 main_v45
  let main_c_17 : IVec S_ 1 := constantI S_ 1 1#1
  let main_v47 : IVec S_ 1 := (fun x v => Host.reduce IntOp.andi x v reducesTo_S16x64_S_d0_1 h_S_) main_v46 main_c_17
  let main_v48 : IVec S_ 1 := andi main_v43 main_v47
  main_v48

def fn_part1 {F : FTy → Type} [FloatOps F] (main_arg4 : FVec F S64 .f32) (main_arg5 : FVec F S64x1024 .f32) (main_arg6 : FVec F S1024 .f32) (main_arg7 : FVec F S1088x50 .f32) (main_arg8 : FVec F S50 .f32) (main_arg9 : FVec F S16x64 .f32) (main_v13 : IVec S_ 1) (main_v16 : IVec S512x64 1) : IVec S_ 1 :=
  let main_c_5 : IVec S_ 1 := constantI S_ 1 1#1
  let main_v17 : IVec S_ 1 := (fun x v => Host.reduce IntOp.andi x v reducesTo_S512x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x1024 .f32 := Host.absf main_arg5
  let main_cst_8 : FVec F S_ .f32 := constant S_ .f32 0x7F800000#32
  let main_v25 : FVec F S64x1024 .f32 := broadcastInDim S64x1024 ![] bcast_S_S64x1024 main_cst_8
  let main_v26 : IVec S64x1024 1 := cmpf .olt main_v24 main_v25
  let main_c_9 : IVec S_ 1 := constantI S_ 1 1#1
  let main_v27 : IVec S_ 1 := (fun x v => Host.reduce IntOp.andi x v reducesTo_S64x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_v33

def fn {F : FTy → Type} [FloatOps F] (main_arg0 : FVec F S8192x1024 .f32) (main_arg1 : FVec F S1024x512 .f32) (main_arg2 : FVec F S512 .f32) (main_arg3 : FVec F S512x64 .f32) (main_arg4 : FVec F S64 .f32) (main_arg5 : FVec F S64x1024 .f32) (main_arg6 : FVec F S1024 .f32) (main_arg7 : FVec F S1088x50 .f32) (main_arg8 : FVec F S50 .f32) (main_arg9 : FVec F S16x64 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024x512 .f32 := Host.absf main_arg1
  let main_cst_0 : FVec F S_ .f32 := constant S_ .f32 0x7F800000#32
  let main_v5 : FVec F S1024x512 .f32 := broadcastInDim S1024x512 ![] bcast_S_S1024x512 main_cst_0
  let main_v6 : IVec S1024x512 1 := cmpf .olt main_v4 main_v5
  let main_c_1 : IVec S_ 1 := constantI S_ 1 1#1
  let main_v7 : IVec S_ 1 := (fun x v => Host.reduce IntOp.andi x v reducesTo_S1024x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x64 .f32 := Host.absf main_arg3
  let main_cst_4 : FVec F S_ .f32 := constant S_ .f32 0x7F800000#32
  let main_v15 : FVec F S512x64 .f32 := broadcastInDim S512x64 ![] bcast_S_S512x64 main_cst_4
  let main_v16 : IVec S512x64 1 := cmpf .olt main_v14 main_v15
  fn_part1 (F := F) main_arg4 main_arg5 main_arg6 main_arg7 main_arg8 main_arg9 main_v13 main_v16
-- ==== Kernel.lean ====
abbrev S8192x1024 : Shape := ⟨2, ![8192, 1024]⟩
abbrev S1024x512 : Shape := ⟨2, ![1024, 512]⟩
abbrev S512 : Shape := ⟨1, ![512]⟩
abbrev S512x64 : Shape := ⟨2, ![512, 64]⟩
abbrev S64 : Shape := ⟨1, ![64]⟩
abbrev S64x1024 : Shape := ⟨2, ![64, 1024]⟩
abbrev S1024 : Shape := ⟨1, ![1024]⟩
abbrev S1088x50 : Shape := ⟨2, ![1088, 50]⟩
abbrev S50 : Shape := ⟨1, ![50]⟩
abbrev S16x64 : Shape := ⟨2, ![16, 64]⟩
abbrev S1x512 : Shape := ⟨2, ![1, 512]⟩
abbrev S1x64 : Shape := ⟨2, ![1, 64]⟩
abbrev S1x1024 : Shape := ⟨2, ![1, 1024]⟩
abbrev S1x50 : Shape := ⟨2, ![1, 50]⟩
abbrev S8192x64 : Shape := ⟨2, ![8192, 64]⟩
abbrev S8192x16 : Shape := ⟨2, ![8192, 16]⟩
abbrev S8192x50 : Shape := ⟨2, ![8192, 50]⟩
abbrev S8192x1 : Shape := ⟨2, ![8192, 1]⟩
abbrev S8192 : Shape := ⟨1, ![8192]⟩
abbrev S512x1024 : Shape := ⟨2, ![512, 1024]⟩
abbrev S512x16 : Shape := ⟨2, ![512, 16]⟩
abbrev S512x50 : Shape := ⟨2, ![512, 50]⟩
abbrev S512x1 : Shape := ⟨2, ![512, 1]⟩
abbrev S512x512 : Shape := ⟨2, ![512, 512]⟩
abbrev S16 : Shape := ⟨1, ![16]⟩
abbrev S1x16 : Shape := ⟨2, ![1, 16]⟩
abbrev S64x50 : Shape := ⟨2, ![64, 50]⟩
abbrev S1024x50 : Shape := ⟨2, ![1024, 50]⟩

abbrev nBuf : Space → Nat
  | .hbm => 24
  | .vmem => 27
  | .smem => 0
  | _ => 0

abbrev bufTy : (tb : Table) → Fin (tcTables nBuf tb) → BufTy
  | .hbm, ⟨0, _⟩ => ⟨S8192x1024, .f32⟩
  | .hbm, ⟨1, _⟩ => ⟨S1024x512, .f32⟩
  | .hbm, ⟨2, _⟩ => ⟨S512, .f32⟩
  | .hbm, ⟨3, _⟩ => ⟨S512x64, .f32⟩
  | .hbm, ⟨4, _⟩ => ⟨S64, .f32⟩
  | .hbm, ⟨5, _⟩ => ⟨S64x1024, .f32⟩
  | .hbm, ⟨6, _⟩ => ⟨S1024, .f32⟩
  | .hbm, ⟨7, _⟩ => ⟨S1088x50, .f32⟩
  | .hbm, ⟨8, _⟩ => ⟨S50, .f32⟩
  | .hbm, ⟨9, _⟩ => ⟨S16x64, .f32⟩
  | .hbm, ⟨10, _⟩ => ⟨S1x512, .f32⟩
  | .hbm, ⟨11, _⟩ => ⟨S1x64, .f32⟩
  | .hbm, ⟨12, _⟩ => ⟨S1x1024, .f32⟩
  | .hbm, ⟨13, _⟩ => ⟨S1x50, .f32⟩
  | .hbm, ⟨14, _⟩ => ⟨S8192x64, .f32⟩
  | .hbm, ⟨15, _⟩ => ⟨S8192x16, .f32⟩
  | .hbm, ⟨16, _⟩ => ⟨S8192x50, .f32⟩
  | .hbm, ⟨17, _⟩ => ⟨S8192x1024, .f32⟩
  | .hbm, ⟨18, _⟩ => ⟨S8192x1, .f32⟩
  | .hbm, ⟨19, _⟩ => ⟨S8192x64, .f32⟩
  | .hbm, ⟨20, _⟩ => ⟨S8192x64, .f32⟩
  | .hbm, ⟨21, _⟩ => ⟨S8192x1, .f32⟩
  | .hbm, ⟨22, _⟩ => ⟨S8192, .f32⟩
  | .hbm, ⟨23, _⟩ => ⟨S8192, .f32⟩
  | .local _ .vmem, ⟨0, _⟩ => ⟨S512x1024, .f32⟩
  | .local _ .vmem, ⟨1, _⟩ => ⟨S512x1024, .f32⟩
  | .local _ .vmem, ⟨2, _⟩ => ⟨S1024x512, .f32⟩
  | .local _ .vmem, ⟨3, _⟩ => ⟨S1x512, .f32⟩
  | .local _ .vmem, ⟨4, _⟩ => ⟨S512x64, .f32⟩
  | .local _ .vmem, ⟨5, _⟩ => ⟨S1x64, .f32⟩
  | .local _ .vmem, ⟨6, _⟩ => ⟨S64x1024, .f32⟩
  | .local _ .vmem, ⟨7, _⟩ => ⟨S1x1024, .f32⟩
  | .local _ .vmem, ⟨8, _⟩ => ⟨S1088x50, .f32⟩
  | .local _ .vmem, ⟨9, _⟩ => ⟨S1x50, .f32⟩
  | .local _ .vmem, ⟨10, _⟩ => ⟨S16x64, .f32⟩
  | .local _ .vmem, ⟨11, _⟩ => ⟨S512x64, .f32⟩
  | .local _ .vmem, ⟨12, _⟩ => ⟨S512x64, .f32⟩
  | .local _ .vmem, ⟨13, _⟩ => ⟨S512x16, .f32⟩
  | .local _ .vmem, ⟨14, _⟩ => ⟨S512x16, .f32⟩
  | .local _ .vmem, ⟨15, _⟩ => ⟨S512x50, .f32⟩
  | .local _ .vmem, ⟨16, _⟩ => ⟨S512x50, .f32⟩
  | .local _ .vmem, ⟨17, _⟩ => ⟨S512x1024, .f32⟩
  | .local _ .vmem, ⟨18, _⟩ => ⟨S512x1024, .f32⟩
  | .local _ .vmem, ⟨19, _⟩ => ⟨S512x1, .f32⟩
  | .local _ .vmem, ⟨20, _⟩ => ⟨S512x1, .f32⟩
  | .local _ .vmem, ⟨21, _⟩ => ⟨S512x64, .f32⟩
  | .local _ .vmem, ⟨22, _⟩ => ⟨S512x64, .f32⟩
  | .local _ .vmem, ⟨23, _⟩ => ⟨S512x64, .f32⟩
  | .local _ .vmem, ⟨24, _⟩ => ⟨S512x64, .f32⟩
  | .local _ .vmem, ⟨25, _⟩ => ⟨S512x1, .f32⟩
  | .local _ .vmem, ⟨26, _⟩ => ⟨S512x1, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_v0_0 : Ref sig .tc := ⟨.hbm, 14, rfl⟩
abbrev main_v0_6 : Ref sig .tc := ⟨.hbm, 15, rfl⟩
abbrev main_v0_7 : Ref sig .tc := ⟨.hbm, 16, rfl⟩
abbrev main_v0_4 : Ref sig .tc := ⟨.hbm, 17, rfl⟩
abbrev main_call0_v4_4 : Ref sig .tc := ⟨.hbm, 18, rfl⟩
abbrev main_v0_1 : Ref sig .tc := ⟨.hbm, 19, rfl⟩
abbrev main_v0_2 : Ref sig .tc := ⟨.hbm, 20, rfl⟩
abbrev main_call0_v4_7 : Ref sig .tc := ⟨.hbm, 21, rfl⟩
abbrev main_v0_3 : Ref sig .tc := ⟨.hbm, 22, rfl⟩
abbrev main_v0_5 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1088x50 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x50 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S16x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x16 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x50 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x64 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x64 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x1 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

class Facts₀ : Prop where
  bcast_S512_S1x512_1 : S512.BroadcastsInDim S1x512 (![1] : Fin 1 → Fin S1x512.rank)
  bcast_S64_S1x64_1 : S64.BroadcastsInDim S1x64 (![1] : Fin 1 → Fin S1x64.rank)
  bcast_S1024_S1x1024_1 : S1024.BroadcastsInDim S1x1024 (![1] : Fin 1 → Fin S1x1024.rank)
  bcast_S50_S1x50_1 : S50.BroadcastsInDim S1x50 (![1] : Fin 1 → Fin S1x50.rank)
  shapeCasts_S8192x1_S8192 : S8192x1.ShapeCasts S8192
  inb_S512x1024_S512x1024_0_0 : ∀ a, (![0, 0] : Fin 2 → Nat) a + S512x1024.size a ≤ S512x1024.size a
  h_S512x1024 : 0 < S512x1024.numel
  inb_S1024x512_S1024x512_0_0 : ∀ a, (![0, 0] : Fin 2 → Nat) a + S1024x512.size a ≤ S1024x512.size a
  h_S1024x512 : 0 < S1024x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S512x64_S512x64_0_0 : ∀ a, (![0, 0] : Fin 2 → Nat) a + S512x64.size a ≤ S512x64.size a
  h_S512x64 : 0 < S512x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S512x64 : S1x64.Broadcasts S512x64
  inb_S16x64_S16x64_0_0 : ∀ a, (![0, 0] : Fin 2 → Nat) a + S16x64.size a ≤ S16x64.size a
  h_S16x64 : 0 < S16x64.numel
  reduces_S512x64_S512 : S512x64.Reduces [1] S512
  shapeCasts_S512_S512x1 : S512.ShapeCasts S512x1
  reduces_S16x64_S16 : S16x64.Reduces [1] S16
  shapeCasts_S16_S1x16 : S16.ShapeCasts S1x16
  broadcasts_S512x1_S512x16 : S512x1.Broadcasts S512x16
  broadcasts_S1x16_S512x16 : S1x16.Broadcasts S512x16
  reduces_S512x16_S512 : S512x16.Reduces [1] S512
  inb_S512x16_S512x16_0_0 : ∀ a, (![0, 0] : Fin 2 → Nat) a + S512x16.size a ≤ S512x16.size a
  h_S512x16 : 0 < S512x16.numel
  inb_S1088x50_S1088x50_0_0 : ∀ a, (![0, 0] : Fin 2 → Nat) a + S1088x50.size a ≤ S1088x50.size a
  h_S1088x50 : 0 < S1088x50.numel
  slices_S1088x50_o0_0_S64x50 : S1088x50.Slices ![0, 0] S64x50
  slices_S1088x50_o64_0_S1024x50 : S1088x50.Slices ![64, 0] S1024x50
  inb_S1x50_S1x50_0_0 : ∀ a, (![0, 0] : Fin 2 → Nat) a + S1x50.size a ≤ S1x50.size a
  h_S1x50 : 0 < S1x50.numel
  shapeCasts_S1x50_S1x50 : S1x50.ShapeCasts S1x50
  broadcasts_S1x50_S512x50 : S1x50.Broadcasts S512x50
  inb_S512x50_S512x50_0_0 : ∀ a, (![0, 0] : Fin 2 → Nat) a + S512x50.size a ≤ S512x50.size a
  h_S512x50 : 0 < S512x50.numel
  inb_S64x1024_S64x1024_0_0 : ∀ a, (![0, 0] : Fin 2 → Nat) a + S64x1024.size a ≤ S64x1024.size a
  h_S64x1024 : 0 < S64x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  reduces_S512x1024_S512 : S512x1024.Reduces [1] S512
  inb_S512x1_S512x1_0_0 : ∀ a, (![0, 0] : Fin 2 → Nat) a + S512x1.size a ≤ S512x1.size a
  h_S512x1 : 0 < S512x1.numel
  dot_S512x1024_S1024x512_S512x512_1_0_0_1_n_n_wf : DotDims.WF S512x1024 S1024x512 S512x512 [1] [0] [0] [1] [] []
  dot_S512x512_S512x64_S512x64_1_0_0_1_n_n_wf : DotDims.WF S512x512 S512x64 S512x64 [1] [0] [0] [1] [] []
  dot_S512x64_S16x64_S512x16_1_1_0_0_n_n_wf : DotDims.WF S512x64 S16x64 S512x16 [1] [1] [0] [0] [] []
  dot_S512x64_S64x50_S512x50_1_0_0_1_n_n_wf : DotDims.WF S512x64 S64x50 S512x50 [1] [0] [0] [1] [] []
  dot_S512x1024_S1024x50_S512x50_1_0_0_1_n_n_wf : DotDims.WF S512x1024 S1024x50 S512x50 [1] [0] [0] [1] [] []
  dot_S512x64_S64x1024_S512x1024_1_0_0_1_n_n_wf : DotDims.WF S512x64 S64x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S1024x512.size a
  hwx0_1 : ∀ i : grid0.Coords, EltTy.bits .f32 = 32 ∨ (Rect.block (s := S1024x512) S1024x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x64.size a ≤ S512x64.size a
  hwx0_3 : ∀ i : grid0.Coords, EltTy.bits .f32 = 32 ∨ (Rect.block (s := S512x64) S512x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x1024.size a ≤ S64x1024.size a
  hwx0_5 : ∀ i : grid0.Coords, EltTy.bits .f32 = 32 ∨ (Rect.block (s := S64x1024) S64x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1088x50.size a ≤ S1088x50.size a
  hwx0_7 : ∀ i : grid0.Coords, EltTy.bits .f32 = 32 ∨ (Rect.block (s := S1088x50) S1088x50.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x50.size a ≤ S1x50.size a
  hwx0_8 : ∀ i : grid0.Coords, EltTy.bits .f32 = 32 ∨ (Rect.block (s := S1x50) S1x50.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S16x64.size a ≤ S16x64.size a
  hwx0_9 : ∀ i : grid0.Coords, EltTy.bits .f32 = 32 ∨ (Rect.block (s := S16x64) S16x64.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S512x64.size a ≤ S8192x64.size a
  hwx0_10 : ∀ i : grid0.Coords, EltTy.bits .f32 = 32 ∨ (Rect.block (s := S8192x64) S512x64.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S512x16.size a ≤ S8192x16.size a
  hwx0_11 : ∀ i : grid0.Coords, EltTy.bits .f32 = 32 ∨ (Rect.block (s := S8192x16) S512x16.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S512x50.size a ≤ S8192x50.size a
  hwx0_12 : ∀ i : grid0.Coords, EltTy.bits .f32 = 32 ∨ (Rect.block (s := S8192x50) S512x50.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S512x1024.size a ≤ S8192x1024.size a
  hwx0_13 : ∀ i : grid0.Coords, EltTy.bits .f32 = 32 ∨ (Rect.block (s := S8192x1024) S512x1024.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S512x1.size a ≤ S8192x1.size a
  hwx0_14 : ∀ i : grid0.Coords, EltTy.bits .f32 = 32 ∨ (Rect.block (s := S8192x1) S512x1.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S512x64.size a ≤ S8192x64.size a
  hwx0_15 : ∀ i : grid0.Coords, EltTy.bits .f32 = 32 ∨ (Rect.block (s := S8192x64) S512x64.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S512x64.size a ≤ S8192x64.size a
  hwx0_16 : ∀ i : grid0.Coords, EltTy.bits .f32 = 32 ∨ (Rect.block (s := S8192x64) S512x64.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S512x1.size a ≤ S8192x1.size a
  hwx0_17 : ∀ i : grid0.Coords, EltTy.bits .f32 = 32 ∨ (Rect.block (s := S8192x1) S512x1.size (cc0_transform_17 i) (hinb0_17 i)).WholeWords (EltTy.packing .f32)

variable [Facts₀]

def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf
def dot_S512x512_S512x64_S512x64_1_0_0_1_n_n : DotDims S512x512 S512x64 S512x64 where
  lhsContracting := [1]
  rhsContracting := [0]
  lhsNonContracting := [0]
  rhsNonContracting := [1]
  lhsBatch := []
  rhsBatch := []
  wf := dot_S512x512_S512x64_S512x64_1_0_0_1_n_n_wf
def dot_S512x64_S16x64_S512x16_1_1_0_0_n_n : DotDims S512x64 S16x64 S512x16 where
  lhsContracting := [1]
  rhsContracting := [1]
  lhsNonContracting := [0]
  rhsNonContracting := [0]
  lhsBatch := []
  rhsBatch := []
  wf := dot_S512x64_S16x64_S512x16_1_1_0_0_n_n_wf
def dot_S512x64_S64x50_S512x50_1_0_0_1_n_n : DotDims S512x64 S64x50 S512x50 where
  lhsContracting := [1]
  rhsContracting := [0]
  lhsNonContracting := [0]
  rhsNonContracting := [1]
  lhsBatch := []
  rhsBatch := []
  wf := dot_S512x64_S64x50_S512x50_1_0_0_1_n_n_wf
def dot_S512x1024_S1024x50_S512x50_1_0_0_1_n_n : DotDims S512x1024 S1024x50 S512x50 where
  lhsContracting := [1]
  rhsContracting := [0]
  lhsNonContracting := [0]
  rhsNonContracting := [1]
  lhsBatch := []
  rhsBatch := []
  wf := dot_S512x1024_S1024x50_S512x50_1_0_0_1_n_n_wf
def dot_S512x64_S64x1024_S512x1024_1_0_0_1_n_n : DotDims S512x64 S64x1024 S512x1024 where
  lhsContracting := [1]
  rhsContracting := [0]
  lhsNonContracting := [0]
  rhsNonContracting := [1]
  lhsBatch := []
  rhsBatch := []
  wf := dot_S512x64_S64x1024_S512x1024_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v1) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v2) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S1088x50.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_call0_v3) S1x50.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S16x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v0_0) S512x64.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v0_6) S512x16.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v0_7) S512x50.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v0_4) S512x1024.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_call0_v4_4) S512x1.size cc0_transform_14 reads0_14 true false 2 stage0_14 sem0_14
    hrank0 hreads0_14 hinb0_14 nbuf0_14 (Memref.isWhole_whole _) hwx0_14 hstage0_14

abbrev win0_15 : Pipeline.Window sig grid0 :=
  Pipeline.Window.ofSpec (Memref.whole main_v0_1) S512x64.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v0_2) S512x64.size cc0_transform_16 reads0_16 true false 2 stage0_16 sem0_16
    hrank0 hreads0_16 hinb0_16 nbuf0_16 (Memref.isWhole_whole _) hwx0_16 hstage0_16

abbrev win0_17 : Pipeline.Window sig grid0 :=
  Pipeline.Window.ofSpec (Memref.whole main_call0_v4_7) S512x1.size cc0_transform_17 reads0_17 true false 2 stage0_17 sem0_17
    hrank0 hreads0_17 hinb0_17 nbuf0_17 (Memref.isWhole_whole _) hwx0_17 hstage0_17

abbrev win0 : Fin 18 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | ⟨_ + 18, h⟩ => absurd h (Nat.not_lt.2 (Nat.le_add_left _ _))
abbrev spec0 : Fin 18 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S1024x512 : Shape := ⟨2, ![1024, 512]⟩
abbrev S512 : Shape := ⟨1, ![512]⟩
abbrev S512x64 : Shape := ⟨2, ![512, 64]⟩
abbrev S64 : Shape := ⟨1, ![64]⟩
abbrev S64x1024 : Shape := ⟨2, ![64, 1024]⟩
abbrev S1024 : Shape := ⟨1, ![1024]⟩
abbrev S1088x50 : Shape := ⟨2, ![1088, 50]⟩
abbrev S50 : Shape := ⟨1, ![50]⟩
abbrev S16x64 : Shape := ⟨2, ![16, 64]⟩
abbrev S8192x512 : Shape := ⟨2, ![8192, 512]⟩
abbrev S1x512 : Shape := ⟨2, ![1, 512]⟩
abbrev S_ : Shape := ⟨0, ![]⟩
abbrev S8192x64 : Shape := ⟨2, ![8192, 64]⟩
abbrev S1x64 : Shape := ⟨2, ![1, 64]⟩
abbrev S8192x1x64 : Shape := ⟨3, ![8192, 1, 64]⟩
abbrev S1x16x64 : Shape := ⟨3, ![1, 16, 64]⟩
abbrev S8192x16x64 : Shape := ⟨3, ![8192, 16, 64]⟩
abbrev S8192x16 : Shape := ⟨2, ![8192, 16]⟩
abbrev S8192 : Shape := ⟨1, ![8192]⟩
abbrev S8192x1 : Shape := ⟨2, ![8192, 1]⟩
abbrev S8192x1088 : Shape := ⟨2, ![8192, 1088]⟩
abbrev S8192x50 : Shape := ⟨2, ![8192, 50]⟩
abbrev S1x50 : Shape := ⟨2, ![1, 50]⟩
abbrev S1x1024 : Shape := ⟨2, ![1, 1024]⟩

abbrev nBuf : Space → Nat
  | .hbm => 77
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x512, .f32⟩
  | .hbm, ⟨2, _⟩ => ⟨S512, .f32⟩
  | .hbm, ⟨3, _⟩ => ⟨S512x64, .f32⟩
  | .hbm, ⟨4, _⟩ => ⟨S64, .f32⟩
  | .hbm, ⟨5, _⟩ => ⟨S64x1024, .f32⟩
  | .hbm, ⟨6, _⟩ => ⟨S1024, .f32⟩
  | .hbm, ⟨7, _⟩ => ⟨S1088x50, .f32⟩
  | .hbm, ⟨8, _⟩ => ⟨S50, .f32⟩
  | .hbm, ⟨9, _⟩ => ⟨S16x64, .f32⟩
  | .hbm, ⟨10, _⟩ => ⟨S8192x512, .f32⟩
  | .hbm, ⟨11, _⟩ => ⟨S1x512, .f32⟩
  | .hbm, ⟨12, _⟩ => ⟨S8192x512, .f32⟩
  | .hbm, ⟨13, _⟩ => ⟨S8192x512, .f32⟩
  | .hbm, ⟨14, _⟩ => ⟨S_, .f32⟩
  | .hbm, ⟨15, _⟩ => ⟨S8192x512, .f32⟩
  | .hbm, ⟨16, _⟩ => ⟨S8192x512, .f32⟩
  | .hbm, ⟨17, _⟩ => ⟨S8192x64, .f32⟩
  | .hbm, ⟨18, _⟩ => ⟨S1x64, .f32⟩
  | .hbm, ⟨19, _⟩ => ⟨S8192x64, .f32⟩
  | .hbm, ⟨20, _⟩ => ⟨S8192x64, .f32⟩
  | .hbm, ⟨21, _⟩ => ⟨S_, .f32⟩
  | .hbm, ⟨22, _⟩ => ⟨S8192x64, .f32⟩
  | .hbm, ⟨23, _⟩ => ⟨S_, .f32⟩
  | .hbm, ⟨24, _⟩ => ⟨S8192x64, .f32⟩
  | .hbm, ⟨25, _⟩ => ⟨S8192x1x64, .f32⟩
  | .hbm, ⟨26, _⟩ => ⟨S1x16x64, .f32⟩
  | .hbm, ⟨27, _⟩ => ⟨S8192x16x64, .f32⟩
  | .hbm, ⟨28, _⟩ => ⟨S8192x16x64, .f32⟩
  | .hbm, ⟨29, _⟩ => ⟨S8192x16x64, .f32⟩
  | .hbm, ⟨30, _⟩ => ⟨S8192x16x64, .f32⟩
  | .hbm, ⟨31, _⟩ => ⟨S_, .f32⟩
  | .hbm, ⟨32, _⟩ => ⟨S8192x16, .f32⟩
  | .hbm, ⟨33, _⟩ => ⟨S_, .f32⟩
  | .hbm, ⟨34, _⟩ => ⟨S8192x16, .f32⟩
  | .hbm, ⟨35, _⟩ => ⟨S8192x16, .f32⟩
  | .hbm, ⟨36, _⟩ => ⟨S8192x16, .f32⟩
  | .hbm, ⟨37, _⟩ => ⟨S_, .f32⟩
  | .hbm, ⟨38, _⟩ => ⟨S8192x16, .f32⟩
  | .hbm, ⟨39, _⟩ => ⟨S8192x16, .f32⟩
  | .hbm, ⟨40, _⟩ => ⟨S_, .f32⟩
  | .hbm, ⟨41, _⟩ => ⟨S8192, .f32⟩
  | .hbm, ⟨42, _⟩ => ⟨S8192x1, .f32⟩
  | .hbm, ⟨43, _⟩ => ⟨S8192x16, .f32⟩
  | .hbm, ⟨44, _⟩ => ⟨S8192x16, .f32⟩
  | .hbm, ⟨45, _⟩ => ⟨S_, .f32⟩
  | .hbm, ⟨46, _⟩ => ⟨S8192, .f32⟩
  | .hbm, ⟨47, _⟩ => ⟨S_, .f32⟩
  | .hbm, ⟨48, _⟩ => ⟨S8192, .f32⟩
  | .hbm, ⟨49, _⟩ => ⟨S8192, .f32⟩
  | .hbm, ⟨50, _⟩ => ⟨S8192x1, .f32⟩
  | .hbm, ⟨51, _⟩ => ⟨S8192x16, .f32⟩
  | .hbm, ⟨52, _⟩ => ⟨S8192x16, .f32⟩
  | .hbm, ⟨53, _⟩ => ⟨S8192x16, .f32⟩
  | .hbm, ⟨54, _⟩ => ⟨S_, .f32⟩
  | .hbm, ⟨55, _⟩ => ⟨S8192, .f32⟩
  | .hbm, ⟨56, _⟩ => ⟨S8192x1, .f32⟩
  | .hbm, ⟨57, _⟩ => ⟨S8192x16, .f32⟩
  | .hbm, ⟨58, _⟩ => ⟨S8192x16, .f32⟩
  | .hbm, ⟨59, _⟩ => ⟨S8192x1088, .f32⟩
  | .hbm, ⟨60, _⟩ => ⟨S8192x50, .f32⟩
  | .hbm, ⟨61, _⟩ => ⟨S1x50, .f32⟩
  | .hbm, ⟨62, _⟩ => ⟨S8192x50, .f32⟩
  | .hbm, ⟨63, _⟩ => ⟨S8192x50, .f32⟩
  | .hbm, ⟨64, _⟩ => ⟨S8192x1024, .f32⟩
  | .hbm, ⟨65, _⟩ => ⟨S1x1024, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S_, .f32⟩
  | .hbm, ⟨71, _⟩ => ⟨S8192, .f32⟩
  | .hbm, ⟨72, _⟩ => ⟨S_, .f32⟩
  | .hbm, ⟨73, _⟩ => ⟨S8192, .f32⟩
  | .hbm, ⟨74, _⟩ => ⟨S8192, .f32⟩
  | .hbm, ⟨75, _⟩ => ⟨S_, .f32⟩
  | .hbm, ⟨76, _⟩ => ⟨S8192, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call0_cst : Ref sig .tc := ⟨.hbm, 14, rfl⟩
abbrev main_call0_v0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst : Ref sig .tc := ⟨.hbm, 21, rfl⟩
abbrev main_v9 : Ref sig .tc := ⟨.hbm, 22, rfl⟩
abbrev main_cst_0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_1 : Ref sig .tc := ⟨.hbm, 31, rfl⟩
abbrev main_v17 : Ref sig .tc := ⟨.hbm, 32, rfl⟩
abbrev main_cst_2 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_3 : Ref sig .tc := ⟨.hbm, 37, rfl⟩
abbrev main_v21 : Ref sig .tc := ⟨.hbm, 38, rfl⟩
abbrev main_v22 : Ref sig .tc := ⟨.hbm, 39, rfl⟩
abbrev main_cst_4 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_5 : Ref sig .tc := ⟨.hbm, 45, rfl⟩
abbrev main_v27 : Ref sig .tc := ⟨.hbm, 46, rfl⟩
abbrev main_cst_6 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_7 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_8 : Ref sig .tc := ⟨.hbm, 70, rfl⟩
abbrev main_v49 : Ref sig .tc := ⟨.hbm, 71, rfl⟩
abbrev main_cst_9 : Ref sig .tc := ⟨.hbm, 72, rfl⟩
abbrev main_v50 : Ref sig .tc := ⟨.hbm, 73, rfl⟩
abbrev main_v51 : Ref sig .tc := ⟨.hbm, 74, rfl⟩
abbrev main_cst_10 : Ref sig .tc := ⟨.hbm, 75, rfl⟩
abbrev main_v52 : Ref sig .tc := ⟨.hbm, 76, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  bcast_S_S8192x512 : S_.BroadcastsInDim S8192x512 (![] : Fin 0 → Fin S8192x512.rank)
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  bcast_S_S8192x64 : S_.BroadcastsInDim S8192x64 (![] : Fin 0 → Fin S8192x64.rank)
  bcast_S8192x64_S8192x1x64_0_2 : S8192x64.BroadcastsInDim S8192x1x64 (![0, 2] : Fin 2 → Fin S8192x1x64.rank)
  bcast_S16x64_S1x16x64_1_2 : S16x64.BroadcastsInDim S1x16x64 (![1, 2] : Fin 2 → Fin S1x16x64.rank)
  bcast_S8192x1x64_S8192x16x64_0_1_2 : S8192x1x64.BroadcastsInDim S8192x16x64 (![0, 1, 2] : Fin 3 → Fin S8192x16x64.rank)
  bcast_S1x16x64_S8192x16x64_0_1_2 : S1x16x64.BroadcastsInDim S8192x16x64 (![0, 1, 2] : Fin 3 → Fin S8192x16x64.rank)
  reducesTo_S8192x16x64_S8192x16_d2 : S8192x16x64.ReducesTo [2] S8192x16
  h_S_ : 0 < S_.numel
  bcast_S_S8192x16 : S_.BroadcastsInDim S8192x16 (![] : Fin 0 → Fin S8192x16.rank)
  reducesTo_S8192x16_S8192_d1 : S8192x16.ReducesTo [1] S8192
  bcast_S8192_S8192x1_0 : S8192.BroadcastsInDim S8192x1 (![0] : Fin 1 → Fin S8192x1.rank)
  bcast_S8192x1_S8192x16_0_1 : S8192x1.BroadcastsInDim S8192x16 (![0, 1] : Fin 2 → Fin S8192x16.rank)
  bcast_S_S8192 : S_.BroadcastsInDim S8192 (![] : Fin 0 → Fin S8192.rank)
  concatenates_S8192x64_S8192x1024_S8192x1088_d1 : Shape.Concatenates [S8192x64, S8192x1024] S8192x1088 1
  bcast_S50_S1x50_1 : S50.BroadcastsInDim S1x50 (![1] : Fin 1 → Fin S1x50.rank)
  bcast_S1x50_S8192x50_0_1 : S1x50.BroadcastsInDim S8192x50 (![0, 1] : Fin 2 → Fin S8192x50.rank)
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  reducesTo_S8192x1024_S8192_d1 : S8192x1024.ReducesTo [1] S8192
  dot_S8192x1024_S1024x512_S8192x512_1_0_0_1_n_n_wf : DotDims.WF S8192x1024 S1024x512 S8192x512 [1] [0] [0] [1] [] []
  dot_S8192x512_S512x64_S8192x64_1_0_0_1_n_n_wf : DotDims.WF S8192x512 S512x64 S8192x64 [1] [0] [0] [1] [] []
  dot_S8192x1088_S1088x50_S8192x50_1_0_0_1_n_n_wf : DotDims.WF S8192x1088 S1088x50 S8192x50 [1] [0] [0] [1] [] []
  dot_S8192x64_S64x1024_S8192x1024_1_0_0_1_n_n_wf : DotDims.WF S8192x64 S64x1024 S8192x1024 [1] [0] [0] [1] [] []

variable [Facts₀]

def dot_S8192x1024_S1024x512_S8192x512_1_0_0_1_n_n : DotDims S8192x1024 S1024x512 S8192x512 where
  lhsContracting := [1]
  rhsContracting := [0]
  lhsNonContracting := [0]
  rhsNonContracting := [1]
  lhsBatch := []
  rhsBatch := []
  wf := dot_S8192x1024_S1024x512_S8192x512_1_0_0_1_n_n_wf
def dot_S8192x512_S512x64_S8192x64_1_0_0_1_n_n : DotDims S8192x512 S512x64 S8192x64 where
  lhsContracting := [1]
  rhsContracting := [0]
  lhsNonContracting := [0]
  rhsNonContracting := [1]
  lhsBatch := []
  rhsBatch := []
  wf := dot_S8192x512_S512x64_S8192x64_1_0_0_1_n_n_wf
def dot_S8192x1088_S1088x50_S8192x50_1_0_0_1_n_n : DotDims S8192x1088 S1088x50 S8192x50 where
  lhsContracting := [1]
  rhsContracting := [0]
  lhsNonContracting := [0]
  rhsNonContracting := [1]
  lhsBatch := []
  rhsBatch := []
  wf := dot_S8192x1088_S1088x50_S8192x50_1_0_0_1_n_n_wf
def dot_S8192x64_S64x1024_S8192x1024_1_0_0_1_n_n : DotDims S8192x64 S64x1024 S8192x1024 where
  lhsContracting := [1]
  rhsContracting := [0]
  lhsNonContracting := [0]
  rhsNonContracting := [1]
  lhsBatch := []
  rhsBatch := []
  wf := dot_S8192x64_S64x1024_S8192x1024_1_0_0_1_n_n_wf

class Facts : Prop extends Facts₀ where

variable [Facts]
-- ==== Proof.Spec.lean ====
/-
  The mathematics both programs compute, one input row at a time, on the extended reals.

  One row `xr` of the data matrix is encoded as `z = relu(xr·W1 + b1)·W2 + b2` (`enc`), decoded as `z·Wd + bd` (`dec`),
  scored by a linear head on the concatenation `[z, xr]` (`survR`; `survK` is the same sum split at the joint), and
  assigned to 16 centres by a soft-max of `-log(1 + ‖z - c‖²)`. The squared distance appears in two forms: the plain sum of
  squared differences (`dist2R`) and the expansion `‖z‖² - 2 z·c + ‖c‖²` clipped at zero (`dist2K`). The soft-max appears in
  two forms as well: with the row maximum subtracted once (`smaxK`) and with it subtracted a second time from the already
  shifted row (`smaxR`, whose second maximum is zero). The mean squared reconstruction error is the sum of squares times
  `2⁻¹⁰` (`recK`) or divided by `1024` (`recR`).

  The array-level functions at the end read whole argument arrays row by row.
-/
import Idealize.ShloMosaic.PureOps.Ideal
import Idealize.ShloMosaic.Lib.ValueIdx

noncomputable section

open scoped BigOperators

namespace Cert.Spec

open Idealize.ShloMosaic Idealize.ShloMosaic.ValueIdx

/-- A rank-2 array of extended reals over literal extents. -/
abbrev Arr2 (a b : Nat) : Type := (⟨2, ![a, b]⟩ : Shape).Idx → EReal
/-- A rank-1 array of extended reals over a literal extent. -/
abbrev Arr1 (a : Nat) : Type := (⟨1, ![a]⟩ : Shape).Idx → EReal

/-- Row `r` of a matrix. -/
def row {a b : Nat} (X : Arr2 a b) (r : Fin a) : Fin b → EReal := fun i => X (ix2 r i)
/-- A matrix by its two coordinates. -/
def mat {a b : Nat} (W : Arr2 a b) : Fin a → Fin b → EReal := fun i k => W (ix2 i k)
/-- A vector by its coordinate. -/
def vec {a : Nat} (v : Arr1 a) : Fin a → EReal := fun k => v (ix1 k)
/-- The one row of a one-row matrix. -/
def vecRow {n : Nat} (v : Arr2 1 n) : Fin n → EReal := fun k => v (ix2 (0 : Fin 1) k)

/-! ## The float literals the two programs share, as the extended reals their words denote -/

/-- The word of `2.0`. -/
abbrev two : EReal := Ideal.ofBits .f32 0x40000000#32
/-- The word of `1.0`. -/
abbrev one : EReal := Ideal.ofBits .f32 0x3F800000#32
/-- The word of `-1.0`. -/
abbrev negOne : EReal := Ideal.ofBits .f32 0xBF800000#32
/-- The word of `-∞`. -/
abbrev negInf : EReal := Ideal.ofBits .f32 0xFF800000#32
/-- The word of `2⁻¹⁰ = 1/1024`. -/
abbrev invCols : EReal := Ideal.ofBits .f32 0x3A800000#32
/-- The word of `1024.0`. -/
abbrev nCols : EReal := Ideal.ofBits .f32 0x44800000#32

/-! ## One row -/

/-- Hidden unit `k`: `relu(xr·W1 + b1)`. -/
def hid (xr : Fin 1024 → EReal) (W1 : Fin 1024 → Fin 512 → EReal) (b1 : Fin 512 → EReal) (k : Fin 512) : EReal :=
  max ((∑ i : Fin 1024, xr i * W1 i k) + b1 k) 0

/-- The encoding's coordinate `j`: `hid·W2 + b2`. -/
def enc (xr : Fin 1024 → EReal) (W1 : Fin 1024 → Fin 512 → EReal) (b1 : Fin 512 → EReal)
    (W2 : Fin 512 → Fin 64 → EReal) (b2 : Fin 64 → EReal) (j : Fin 64) : EReal :=
  (∑ k : Fin 512, hid xr W1 b1 k * W2 k j) + b2 j

/-- The decoding's coordinate `d`: `z·Wd + bd`. -/
def dec (z : Fin 64 → EReal) (Wd : Fin 64 → Fin 1024 → EReal) (bd : Fin 1024 → EReal) (d : Fin 1024) : EReal :=
  (∑ k : Fin 64, z k * Wd k d) + bd d

/-- The squared reconstruction error of a row. -/
def sqErr (xh xr : Fin 1024 → EReal) : EReal := ∑ d : Fin 1024, (xh d - xr d) * (xh d - xr d)

/-- Its mean as a product with `2⁻¹⁰`. -/
def recK (xh xr : Fin 1024 → EReal) : EReal := sqErr xh xr * invCols
/-- Its mean as a quotient by `1024`. -/
def recR (xh xr : Fin 1024 → EReal) : EReal := Ideal.div (sqErr xh xr) nCols

/-- The linear head on `[z, xr]`, the sum split at the joint: rows `0 … 63` of the weights meet `z`, rows `64 … 1087` meet `xr`. -/
def survK (z : Fin 64 → EReal) (xr : Fin 1024 → EReal) (Ws : Fin 1088 → Fin 50 → EReal) (bs : Fin 50 → EReal)
    (t : Fin 50) : EReal :=
  ((∑ k : Fin 64, z k * Ws ⟨k.val, by omega⟩ t) + (∑ i : Fin 1024, xr i * Ws ⟨64 + i.val, by omega⟩ t)) + bs t

/-- The concatenation `[z, xr]`. -/
def cat (z : Fin 64 → EReal) (xr : Fin 1024 → EReal) (k : Fin 1088) : EReal :=
  if h : k.val < 64 then z ⟨k.val, h⟩ else xr ⟨k.val - 64, by omega⟩

/-- The linear head on `[z, xr]`, one sum over the concatenation. -/
def survR (z : Fin 64 → EReal) (xr : Fin 1024 → EReal) (Ws : Fin 1088 → Fin 50 → EReal) (bs : Fin 50 → EReal)
    (t : Fin 50) : EReal :=
  (∑ k : Fin 1088, cat z xr k * Ws k t) + bs t

/-- Squared distance to centre `a`, expanded and clipped at zero. -/
def dist2K (z : Fin 64 → EReal) (C : Fin 16 → Fin 64 → EReal) (a : Fin 16) : EReal :=
  max (((∑ k : Fin 64, z k * z k) - two * (∑ k : Fin 64, z k * C a k)) + (∑ k : Fin 64, C a k * C a k)) 0

/-- Squared distance to centre `a`, the sum of squared differences. -/
def dist2R (z : Fin 64 → EReal) (C : Fin 16 → Fin 64 → EReal) (a : Fin 16) : EReal :=
  ∑ k : Fin 64, (z k - C a k) * (z k - C a k)

/-- The Student-t logit of a squared distance: `-log(1 + d/1)`. -/
def logit (d : EReal) : EReal := negOne * Ideal.log1p (Ideal.div d one)

/-- The maximum of a row of 16, folded from `-∞`. -/
def rowMax (l : Fin 16 → EReal) : EReal := (Finset.univ : Finset (Fin 16)).fold max negInf l

/-- Soft-max with the row maximum subtracted once. -/
def smaxK (l : Fin 16 → EReal) (a : Fin 16) : EReal :=
  Ideal.div (Ideal.exp (l a - rowMax l)) (∑ b : Fin 16, Ideal.exp (l b - rowMax l))

/-- Soft-max of the shifted row `l - max l`, which subtracts that row's own maximum (joined with `-∞`) again. -/
def smaxR (l : Fin 16 → EReal) (a : Fin 16) : EReal :=
  Ideal.div (Ideal.exp ((l a - rowMax l) - max negInf (rowMax fun b => l b - rowMax l)))
    (∑ b : Fin 16, Ideal.exp ((l b - rowMax l) - max negInf (rowMax fun b => l b - rowMax l)))

/-- The soft assignment, from the expanded distance and the once-shifted soft-max. -/
def qK (z : Fin 64 → EReal) (C : Fin 16 → Fin 64 → EReal) (a : Fin 16) : EReal :=
  smaxK (fun b => logit (dist2K z C b)) a
/-- The soft assignment, from the plain distance and the twice-shifted soft-max. -/
def qR (z : Fin 64 → EReal) (C : Fin 16 → Fin 64 → EReal) (a : Fin 16) : EReal :=
  smaxR (fun b => logit (dist2R z C b)) a

/-! ## Whole arrays, row by row -/

section Arrays

variable (X : Arr2 8192 1024) (W1 : Arr2 1024 512) (b1 : Arr1 512) (W2 : Arr2 512 64) (b2 : Arr1 64)
  (Wd : Arr2 64 1024) (bd : Arr1 1024) (Ws : Arr2 1088 50) (bs : Arr1 50) (C : Arr2 16 64)

/-- The encoding of row `r` of `X`. -/
def zRow (r : Fin 8192) : Fin 64 → EReal := enc (row X r) (mat W1) (vec b1) (mat W2) (vec b2)
/-- The decoding of row `r`'s encoding. -/
def xhatRow (r : Fin 8192) : Fin 1024 → EReal := dec (zRow X W1 b1 W2 b2 r) (mat Wd) (vec bd)

def zArr : Arr2 8192 64 := fun i => zRow X W1 b1 W2 b2 (i 0) (i 1)
def xhatArr : Arr2 8192 1024 := fun i => xhatRow X W1 b1 W2 b2 Wd bd (i 0) (i 1)
def qArrK : Arr2 8192 16 := fun i => qK (zRow X W1 b1 W2 b2 (i 0)) (mat C) (i 1)
def qArrR : Arr2 8192 16 := fun i => qR (zRow X W1 b1 W2 b2 (i 0)) (mat C) (i 1)
def survArrK : Arr2 8192 50 := fun i => survK (zRow X W1 b1 W2 b2 (i 0)) (row X (i 0)) (mat Ws) (vec bs) (i 1)
def survArrR : Arr2 8192 50 := fun i => survR (zRow X W1 b1 W2 b2 (i 0)) (row X (i 0)) (mat Ws) (vec bs) (i 1)
def recArrK : Arr1 8192 := fun i => recK (xhatRow X W1 b1 W2 b2 Wd bd (i 0)) (row X (i 0))
def recArrR : Arr1 8192 := fun i => recR (xhatRow X W1 b1 W2 b2 Wd bd (i 0)) (row X (i 0))

end Arrays

/-- An all-zero matrix. -/
def zeros2 (a b : Nat) : Arr2 a b := fun _ => 0
/-- An all-zero vector. -/
def zeros1 (a : Nat) : Arr1 a := fun _ => 0

/-- Every entry of an array is a real number. -/
def Real2 {a b : Nat} (X : Arr2 a b) : Prop := ∀ i, ∃ r : ℝ, X i = (r : EReal)
def Real1 {a : Nat} (v : Arr1 a) : Prop := ∀ i, ∃ r : ℝ, v i = (r : EReal)

end Cert.Spec

end
-- ==== Proof.Consts.lean ====
/-
  The extended reals the float words of this certificate denote: `2`, `1`, `-1`, `-∞`, `2⁻¹⁰` and `1024`.
-/
import proofs.«136008_g16879221473979_cont_7to1_943_9_alg».proof.Proof.Spec
import Idealize.ShloMosaic.PureOps.Ideal.Laws

noncomputable section

namespace Cert.Spec

open Idealize.ShloMosaic

theorem two_eq : two = ((2 : ℝ) : EReal) := by
  simp [two, Ideal.ofBits, Ideal.ieee, -EReal.coe_mul]; norm_num
theorem one_eq : one = ((1 : ℝ) : EReal) := by
  simp [one, Ideal.ofBits, Ideal.ieee, -EReal.coe_mul]; norm_num
theorem negOne_eq : negOne = ((-1 : ℝ) : EReal) := by
  simp [negOne, Ideal.ofBits, Ideal.ieee, -EReal.coe_mul]; norm_num
theorem negInf_eq : negInf = ⊥ := by
  simp [negInf, Ideal.ofBits, Ideal.ieee]
theorem invCols_eq : invCols = ((1 / 1024 : ℝ) : EReal) := by
  simp [invCols, Ideal.ofBits, Ideal.ieee, -EReal.coe_mul]; norm_num
theorem nCols_eq : nCols = ((1024 : ℝ) : EReal) := by
  simp [nCols, Ideal.ofBits, Ideal.ieee, -EReal.coe_mul]; norm_num

end Cert.Spec

end
-- ==== Proof.SpecLawsDist.lean ====
/-
  Laws of the row functions that hold of real entries: the encoding of a real row by real weights is real; the expanded
  squared distance ‖z‖² - 2 z·c + ‖c‖², clipped at zero, is the sum of squared differences (distributivity, which needs
  finite entries, and a sum of squares is not negative); and two that hold of any extended reals: a sum over the 1088
  joined coordinates splits at the joint into the sums over the first 64 and the last 1024, and a product with 2⁻¹⁰ is the
  quotient by 1024.
-/
import proofs.«136008_g16879221473979_cont_7to1_943_9_alg».proof.Proof.Spec
import proofs.«136008_g16879221473979_cont_7to1_943_9_alg».proof.Proof.Consts
import Mathlib.Data.EReal.Basic
import Mathlib.Data.EReal.Operations
import Mathlib.Analysis.SpecialFunctions.Log.Basic
import Mathlib.Analysis.SpecialFunctions.Exp
import Mathlib.Algebra.BigOperators.Fin
import Mathlib.Tactic.Ring
import Mathlib.Tactic.Linarith

noncomputable section

open scoped BigOperators

namespace Cert.Spec

open Idealize.ShloMosaic

/-- The coercion of a finite sum of reals is the sum of the coercions. -/
theorem coe_sum {n : Nat} (f : Fin n → ℝ) : ((∑ k : Fin n, f k : ℝ) : EReal) = ∑ k : Fin n, (f k : EReal) := by
  induction n with
  | zero => simp
  | succ n ih => rw [Fin.sum_univ_castSucc, Fin.sum_univ_castSucc, EReal.coe_add, ih]

/-- The coercion commutes with the binary maximum (it is monotone). -/
theorem coe_max' (x y : ℝ) : ((max x y : ℝ) : EReal) = max (x : EReal) (y : EReal) := by
  rcases le_total x y with h | h
  · rw [max_eq_right h, max_eq_right (EReal.coe_le_coe_iff.2 h)]
  · rw [max_eq_left h, max_eq_left (EReal.coe_le_coe_iff.2 h)]

/-- A finite sum of reals is a real. -/
theorem sum_real {n : Nat} {f : Fin n → EReal} (hf : ∀ k, ∃ r : ℝ, f k = (r : EReal)) :
    ∃ r : ℝ, (∑ k : Fin n, f k) = (r : EReal) := by
  choose g hg using hf
  exact ⟨∑ k, g k, by rw [coe_sum]; exact Finset.sum_congr rfl fun k _ => hg k⟩

theorem enc_real {xr : Fin 1024 → EReal} {W1 : Fin 1024 → Fin 512 → EReal} {b1 : Fin 512 → EReal}
    {W2 : Fin 512 → Fin 64 → EReal} {b2 : Fin 64 → EReal}
    (hx : ∀ i, ∃ r : ℝ, xr i = (r : EReal)) (hW1 : ∀ i k, ∃ r : ℝ, W1 i k = (r : EReal))
    (hb1 : ∀ k, ∃ r : ℝ, b1 k = (r : EReal)) (hW2 : ∀ k j, ∃ r : ℝ, W2 k j = (r : EReal))
    (hb2 : ∀ j, ∃ r : ℝ, b2 j = (r : EReal)) (j : Fin 64) :
    ∃ r : ℝ, enc xr W1 b1 W2 b2 j = (r : EReal) := by
  -- each hidden unit is the maximum of a real and zero
  have hh : ∀ k, ∃ r : ℝ, hid xr W1 b1 k = (r : EReal) := by
    intro k
    obtain ⟨s, hs⟩ := sum_real (f := fun i => xr i * W1 i k) (fun i => by
      obtain ⟨a, ha⟩ := hx i
      obtain ⟨b, hb⟩ := hW1 i k
      exact ⟨a * b, by rw [ha, hb, EReal.coe_mul]⟩)
    obtain ⟨c, hc⟩ := hb1 k
    refine ⟨max (s + c) 0, ?_⟩
    unfold hid
    rw [hs, hc, coe_max', EReal.coe_add, EReal.coe_zero]
  obtain ⟨s, hs⟩ := sum_real (f := fun k => hid xr W1 b1 k * W2 k j) (fun k => by
    obtain ⟨a, ha⟩ := hh k
    obtain ⟨b, hb⟩ := hW2 k j
    exact ⟨a * b, by rw [ha, hb, EReal.coe_mul]⟩)
  obtain ⟨c, hc⟩ := hb2 j
  refine ⟨s + c, ?_⟩
  unfold enc
  rw [hs, hc, EReal.coe_add]

theorem dist2R_real_nonneg {z : Fin 64 → EReal} {C : Fin 16 → Fin 64 → EReal}
    (hz : ∀ k, ∃ r : ℝ, z k = (r : EReal)) (hC : ∀ a k, ∃ r : ℝ, C a k = (r : EReal)) (a : Fin 16) :
    ∃ r : ℝ, 0 ≤ r ∧ dist2R z C a = (r : EReal) := by
  choose zr hzr using hz
  choose cr hcr using hC
  refine ⟨∑ k : Fin 64, (zr k - cr a k) * (zr k - cr a k),
    Finset.sum_nonneg fun k _ => mul_self_nonneg _, ?_⟩
  unfold dist2R
  rw [coe_sum]
  refine Finset.sum_congr rfl fun k _ => ?_
  rw [hzr k, hcr a k, EReal.coe_mul, EReal.coe_sub]

theorem dist2K_eq_dist2R {z : Fin 64 → EReal} {C : Fin 16 → Fin 64 → EReal}
    (hz : ∀ k, ∃ r : ℝ, z k = (r : EReal)) (hC : ∀ a k, ∃ r : ℝ, C a k = (r : EReal)) (a : Fin 16) :
    dist2K z C a = dist2R z C a := by
  obtain ⟨d, hd0, hd⟩ := dist2R_real_nonneg hz hC a
  choose zr hzr using hz
  choose cr hcr using hC
  -- the three sums of the expansion, as coercions of real sums
  have h1 : (∑ k : Fin 64, z k * z k) = ((∑ k : Fin 64, zr k * zr k : ℝ) : EReal) := by
    rw [coe_sum]; exact Finset.sum_congr rfl fun k _ => by rw [hzr k, EReal.coe_mul]
  have h2 : (∑ k : Fin 64, z k * C a k) = ((∑ k : Fin 64, zr k * cr a k : ℝ) : EReal) := by
    rw [coe_sum]; exact Finset.sum_congr rfl fun k _ => by rw [hzr k, hcr a k, EReal.coe_mul]
  have h3 : (∑ k : Fin 64, C a k * C a k) = ((∑ k : Fin 64, cr a k * cr a k : ℝ) : EReal) := by
    rw [coe_sum]; exact Finset.sum_congr rfl fun k _ => by rw [hcr a k, EReal.coe_mul]
  have h4 : dist2R z C a = ((∑ k : Fin 64, (zr k - cr a k) * (zr k - cr a k) : ℝ) : EReal) := by
    unfold dist2R
    rw [coe_sum]
    exact Finset.sum_congr rfl fun k _ => by rw [hzr k, hcr a k, EReal.coe_mul, EReal.coe_sub]
  -- the real identity: Σ(z-c)² = Σz² - 2Σzc + Σc²
  have hreal : (∑ k : Fin 64, zr k * zr k) - 2 * (∑ k : Fin 64, zr k * cr a k) + (∑ k : Fin 64, cr a k * cr a k)
      = ∑ k : Fin 64, (zr k - cr a k) * (zr k - cr a k) := by
    rw [Finset.mul_sum, ← Finset.sum_sub_distrib, ← Finset.sum_add_distrib]
    exact Finset.sum_congr rfl fun k _ => by ring
  have hd' : d = ∑ k : Fin 64, (zr k - cr a k) * (zr k - cr a k) := by
    have := hd.symm.trans h4
    exact EReal.coe_eq_coe_iff.1 this
  unfold dist2K
  rw [h1, h2, h3, two_eq, ← EReal.coe_mul, ← EReal.coe_sub, ← EReal.coe_add, hreal, h4, ← hd']
  exact max_eq_left (EReal.coe_nonneg.2 hd0)

theorem survK_eq_survR (z : Fin 64 → EReal) (xr : Fin 1024 → EReal) (Ws : Fin 1088 → Fin 50 → EReal)
    (bs : Fin 50 → EReal) (t : Fin 50) : survK z xr Ws bs t = survR z xr Ws bs t := by
  unfold survK survR
  congr 1
  -- the sum over the 1088 joined coordinates, split at 64
  have hsplit : (∑ k : Fin 1088, cat z xr k * Ws k t)
      = (∑ k : Fin 64, cat z xr (Fin.castAdd 1024 k) * Ws (Fin.castAdd 1024 k) t)
        + (∑ i : Fin 1024, cat z xr (Fin.natAdd 64 i) * Ws (Fin.natAdd 64 i) t) :=
    Fin.sum_univ_add (a := 64) (b := 1024) (fun k => cat z xr k * Ws k t)
  rw [hsplit]
  refine congrArg₂ (· + ·) ?_ ?_
  · refine Finset.sum_congr rfl fun k _ => ?_
    have hk : (Fin.castAdd 1024 k : Fin (64 + 1024)).val < 64 := k.isLt
    unfold cat
    rw [dif_pos hk]
    rfl
  · refine Finset.sum_congr rfl fun i _ => ?_
    have hi : ¬ (Fin.natAdd 64 i : Fin (64 + 1024)).val < 64 := by
      simp [Fin.natAdd]
    unfold cat
    rw [dif_neg hi]
    congr 2
    apply Fin.ext
    simp [Fin.natAdd]

theorem recK_eq_recR (xh xr : Fin 1024 → EReal) : recK xh xr = recR xh xr := by
  unfold recK recR
  rw [invCols_eq, nCols_eq, Ideal.div_coe (by norm_num : (1024 : ℝ) ≠ 0)]

end Cert.Spec

end
-- ==== Proof.SpecLawsSoftmax.lean ====
/-
  The soft-max of a real row is unchanged by a second shift: the maximum of a row of 16 reals folded from -∞ is one of
  its entries, so the shifted row l - max l has entries at most zero with one equal to zero; its own maximum, joined with
  -∞, is zero, and subtracting zero changes nothing. And the logit -log(1 + d/1) of a real d ≥ 0 is real.
-/
import proofs.«136008_g16879221473979_cont_7to1_943_9_alg».proof.Proof.Spec
import proofs.«136008_g16879221473979_cont_7to1_943_9_alg».proof.Proof.Consts
import Mathlib.Data.EReal.Basic
import Mathlib.Data.EReal.Operations
import Mathlib.Analysis.SpecialFunctions.Log.Basic
import Mathlib.Analysis.SpecialFunctions.Exp
import Mathlib.Algebra.BigOperators.Fin
import Mathlib.Tactic.Ring
import Mathlib.Tactic.Linarith

noncomputable section

open scoped BigOperators

namespace Cert.Spec

open Idealize.ShloMosaic

/-- The logit of a nonnegative real squared distance is real: `d / 1` is the real `r · (1/1)`, the argument
    `1 + r · (1/1)` of the logarithm is positive, so the logarithm is the real logarithm, and `-1` times a real is real. -/
theorem logit_real {d : EReal} (hd : ∃ r : ℝ, 0 ≤ r ∧ d = (r : EReal)) : ∃ r : ℝ, logit d = (r : EReal) := by
  obtain ⟨r, hr, rfl⟩ := hd
  refine ⟨-1 * Real.log (1 + r * (1 / 1)), ?_⟩
  have hpos : ¬ (1 + r * (1 / 1) ≤ 0) := by
    have : 0 ≤ r * (1 / 1) := by simpa using hr
    linarith
  unfold logit Ideal.log1p
  rw [one_eq, negOne_eq, Ideal.div_coe one_ne_zero, ← EReal.coe_mul, ← EReal.coe_one, ← EReal.coe_add,
    Ideal.log_coe, if_neg hpos, ← EReal.coe_mul]

/-- The fold-maximum of a row from `-∞` is below a bound exactly when every entry is. -/
theorem rowMax_le_iff (l : Fin 16 → EReal) (c : EReal) : rowMax l ≤ c ↔ ∀ b, l b ≤ c := by
  unfold rowMax
  rw [Finset.fold_max_le, negInf_eq]
  exact ⟨fun h b => h.2 b (Finset.mem_univ b), fun h => ⟨bot_le, fun b _ => h b⟩⟩

/-- The fold-maximum of a row from `-∞` is strictly below a bound above `-∞` exactly when every entry is. -/
theorem rowMax_lt_iff (l : Fin 16 → EReal) {c : EReal} (hc : ⊥ < c) : rowMax l < c ↔ ∀ b, l b < c := by
  unfold rowMax
  rw [Finset.fold_max_lt, negInf_eq]
  exact ⟨fun h b => h.2 b (Finset.mem_univ b), fun h => ⟨hc, fun b _ => h b⟩⟩

/-- Every entry of a row is at most the row's maximum. -/
theorem le_rowMax (l : Fin 16 → EReal) (b : Fin 16) : l b ≤ rowMax l :=
  (rowMax_le_iff l (rowMax l)).1 le_rfl b

/-- The maximum of a row of reals is a real. -/
theorem rowMax_real {l : Fin 16 → EReal} (hl : ∀ b, ∃ r : ℝ, l b = (r : EReal)) : ∃ m : ℝ, rowMax l = (m : EReal) := by
  have htop : rowMax l ≠ ⊤ := by
    refine ne_of_lt ((rowMax_lt_iff l bot_lt_top).2 fun b => ?_)
    obtain ⟨r, hr⟩ := hl b
    rw [hr]; exact EReal.coe_lt_top r
  have hbot : rowMax l ≠ ⊥ := by
    obtain ⟨r, hr⟩ := hl 0
    exact ne_of_gt (lt_of_lt_of_le (by rw [hr]; exact EReal.bot_lt_coe r) (le_rowMax l 0))
  exact ⟨(rowMax l).toReal, (EReal.coe_toReal htop hbot).symm⟩

/-- The row of reals shifted by its own maximum has maximum zero: every shifted entry is at most zero, and were all of
    them negative, every entry would lie strictly below the maximum, and so would the maximum itself. -/
theorem rowMax_shift {l : Fin 16 → EReal} (hl : ∀ b, ∃ r : ℝ, l b = (r : EReal)) :
    rowMax (fun b => l b - rowMax l) = 0 := by
  choose lr hlr using hl
  obtain ⟨m, hm⟩ := rowMax_real (l := l) fun b => ⟨lr b, hlr b⟩
  have hsh : ∀ b, l b - rowMax l = ((lr b - m : ℝ) : EReal) := fun b => by rw [hm, hlr b, EReal.coe_sub]
  apply le_antisymm
  · refine (rowMax_le_iff _ 0).2 fun b => ?_
    have hb : l b ≤ rowMax l := le_rowMax l b
    rw [hm, hlr b, EReal.coe_le_coe_iff] at hb
    show l b - rowMax l ≤ 0
    rw [hsh b, ← EReal.coe_zero, EReal.coe_le_coe_iff]
    linarith
  · refine not_lt.1 fun hneg => ?_
    have hall : ∀ b, l b < rowMax l := fun b => by
      have hb : l b - rowMax l < 0 := (rowMax_lt_iff _ (by rw [← EReal.coe_zero]; exact EReal.bot_lt_coe 0)).1 hneg b
      rw [hsh b, ← EReal.coe_zero, EReal.coe_lt_coe_iff] at hb
      rw [hm, hlr b, EReal.coe_lt_coe_iff]
      linarith
    have hbot : (⊥ : EReal) < rowMax l := by rw [hm]; exact EReal.bot_lt_coe m
    exact lt_irrefl _ ((rowMax_lt_iff l hbot).2 hall)

/-- The two soft-max forms agree on a row of reals: the second shift subtracts `max (-∞) 0 = 0`. -/
theorem smaxK_eq_smaxR {l : Fin 16 → EReal} (hl : ∀ b, ∃ r : ℝ, l b = (r : EReal)) (a : Fin 16) :
    smaxK l a = smaxR l a := by
  have h0 : max negInf (rowMax fun b => l b - rowMax l) = 0 := by
    rw [rowMax_shift hl, negInf_eq]; exact max_eq_right bot_le
  unfold smaxK smaxR
  rw [h0]
  simp only [sub_zero]

end Cert.Spec

end
-- ==== Proof.SpecLaws.lean ====
/-
  The two forms of each row function agree, row by row and hence array by array: the soft assignment under real entries
  (the expanded distance is the plain one, its logit is real, and the second shift of the soft-max is by zero), the linear
  head and the mean squared error always.
-/
import proofs.«136008_g16879221473979_cont_7to1_943_9_alg».proof.Proof.SpecLawsDist
import proofs.«136008_g16879221473979_cont_7to1_943_9_alg».proof.Proof.SpecLawsSoftmax

noncomputable section

open scoped BigOperators

namespace Cert.Spec

open Idealize.ShloMosaic

/-- The soft assignment of a real row to real centres: both forms. -/
theorem qK_eq_qR {z : Fin 64 → EReal} {C : Fin 16 → Fin 64 → EReal}
    (hz : ∀ k, ∃ r : ℝ, z k = (r : EReal)) (hC : ∀ a k, ∃ r : ℝ, C a k = (r : EReal)) (a : Fin 16) :
    qK z C a = qR z C a := by
  unfold qK qR
  have e : (fun b => logit (dist2K z C b)) = fun b => logit (dist2R z C b) :=
    funext fun b => by rw [dist2K_eq_dist2R hz hC b]
  rw [e]
  exact smaxK_eq_smaxR (fun b => logit_real (dist2R_real_nonneg hz hC b)) a

section Arrays

variable {X : Arr2 8192 1024} {W1 : Arr2 1024 512} {b1 : Arr1 512} {W2 : Arr2 512 64} {b2 : Arr1 64}
  (Wd : Arr2 64 1024) (bd : Arr1 1024) (Ws : Arr2 1088 50) (bs : Arr1 50) {C : Arr2 16 64}

/-- The encoding of a real row by real weights is real. -/
theorem zRow_real (hX : Real2 X) (hW1 : Real2 W1) (hb1 : Real1 b1) (hW2 : Real2 W2) (hb2 : Real1 b2)
    (r : Fin 8192) (j : Fin 64) : ∃ s : ℝ, zRow X W1 b1 W2 b2 r j = (s : EReal) :=
  enc_real (fun i => hX _) (fun i k => hW1 _) (fun k => hb1 _) (fun k j => hW2 _) (fun j => hb2 _) j

theorem qArrK_eq_qArrR (hX : Real2 X) (hW1 : Real2 W1) (hb1 : Real1 b1) (hW2 : Real2 W2) (hb2 : Real1 b2)
    (hC : Real2 C) : qArrK X W1 b1 W2 b2 C = qArrR X W1 b1 W2 b2 C :=
  funext fun i => qK_eq_qR (fun k => zRow_real hX hW1 hb1 hW2 hb2 (i 0) k) (fun a k => hC _) (i 1)

theorem survArrK_eq_survArrR (X : Arr2 8192 1024) (W1 : Arr2 1024 512) (b1 : Arr1 512) (W2 : Arr2 512 64) (b2 : Arr1 64) :
    survArrK X W1 b1 W2 b2 Ws bs = survArrR X W1 b1 W2 b2 Ws bs :=
  funext fun _ => survK_eq_survR _ _ _ _ _

theorem recArrK_eq_recArrR (X : Arr2 8192 1024) (W1 : Arr2 1024 512) (b1 : Arr1 512) (W2 : Arr2 512 64) (b2 : Arr1 64) :
    recArrK X W1 b1 W2 b2 Wd bd = recArrR X W1 b1 W2 b2 Wd bd :=
  funext fun _ => recK_eq_recR _ _

end Arrays

end Cert.Spec

end
-- ==== Proof.Finite.lean ====
/-
  The precondition read back: every entry of every argument array is a real number. The printed predicate is a
  conjunction of ten `jnp.all(|a| < +∞)`; a conjunction of one-bit words is 1 only if each is, an all-reduce by `and` is 1
  only if every element is, and an extended real whose absolute value `max a (-a)` is below `+∞` is neither infinity.
-/
import proofs.«136008_g16879221473979_cont_7to1_943_9_alg».proof.Pre_finite_inputs
import proofs.«136008_g16879221473979_cont_7to1_943_9_alg».proof.Proof.Spec
import Idealize.ShloMosaic.Lib.ReduceAll
import Idealize.ShloMosaic.Lib.Affine
import Idealize.ShloMosaic.Lib.ValueIdx

noncomputable section

namespace Cert.Finite

open Idealize.ShloMosaic Idealize.ShloMosaic.ValueIdx Cert.Pre_finite_inputs Cert.Spec

instance : Subsingleton S_.Idx := ⟨fun a b => funext fun d => d.elim0⟩

/-- The word of `+∞`. -/
theorem posInf_eq : Ideal.ofBits .f32 0x7F800000#32 = ⊤ := by simp [Ideal.ofBits, Ideal.ieee]

/-- An extended real whose absolute value is below `+∞` is a real. -/
theorem real_of_abs_lt (x : EReal)
    (h : Ideal.cmp .olt (max x (-x)) (Ideal.ofBits .f32 0x7F800000#32) = 1#1) : ∃ r : ℝ, x = (r : EReal) := by
  rw [posInf_eq] at h
  induction x using EReal.rec with
  | bot => simp [Ideal.cmp] at h
  | coe r => exact ⟨r, rfl⟩
  | top => simp [Ideal.cmp] at h

/-- One `jnp.all(|a| < +∞)` that is 1 makes every entry of `a` real. -/
theorem all_real {S : Shape} {axes : List (Fin S.rank)} (x : FVec Ideal S .f32)
    (hb : S_.BroadcastsInDim S (![] : Fin 0 → Fin S.rank)) (hr : S.ReducesTo axes S_) (hu : 0 < S_.numel)
    (h : Host.reduce IntOp.andi (cmpf .olt (Host.absf x) (broadcastInDim S ![] hb (constant S_ .f32 0x7F800000#32)))
      (constantI S_ 1 1#1) hr hu ix0 = 1#1) (i : S.Idx) : ∃ r : ℝ, x i = (r : EReal) :=
  real_of_abs_lt (x i) (Host.reduce_andi_all _ _ hr hu ix0 h i)

variable [Facts]

/-- The precondition makes every argument array real. -/
theorem real_of_pre (a0 : FVec Ideal S8192x1024 .f32) (a1 : FVec Ideal S1024x512 .f32) (a2 : FVec Ideal S512 .f32)
    (a3 : FVec Ideal S512x64 .f32) (a4 : FVec Ideal S64 .f32) (a5 : FVec Ideal S64x1024 .f32) (a6 : FVec Ideal S1024 .f32)
    (a7 : FVec Ideal S1088x50 .f32) (a8 : FVec Ideal S50 .f32) (a9 : FVec Ideal S16x64 .f32)
    (h : fn (F := Ideal) a0 a1 a2 a3 a4 a5 a6 a7 a8 a9 = fun _ => 1#1) :
    Real2 a0 ∧ Real2 a1 ∧ Real1 a2 ∧ Real2 a3 ∧ Real1 a4 ∧ Real2 a5 ∧ Real1 a6 ∧ Real2 a7 ∧ Real1 a8 ∧ Real2 a9 := by
  have h0 := congrFun h ix0
  dsimp only [fn, fn_part1, fn_part2] at h0
  obtain ⟨h0, h9⟩ := IntOp.andi_eq_one.1 h0
  obtain ⟨h0, h8⟩ := IntOp.andi_eq_one.1 h0
  obtain ⟨h0, h7⟩ := IntOp.andi_eq_one.1 h0
  obtain ⟨h0, h6⟩ := IntOp.andi_eq_one.1 h0
  obtain ⟨h0, h5⟩ := IntOp.andi_eq_one.1 h0
  obtain ⟨h0, h4⟩ := IntOp.andi_eq_one.1 h0
  obtain ⟨h0, h3⟩ := IntOp.andi_eq_one.1 h0
  obtain ⟨h0, h2⟩ := IntOp.andi_eq_one.1 h0
  obtain ⟨h0, h1⟩ := IntOp.andi_eq_one.1 h0
  exact ⟨all_real a0 _ _ _ h0, all_real a1 _ _ _ h1, all_real a2 _ _ _ h2, all_real a3 _ _ _ h3, all_real a4 _ _ _ h4,
    all_real a5 _ _ _ h5, all_real a6 _ _ _ h6, all_real a7 _ _ _ h7, all_real a8 _ _ _ h8, all_real a9 _ _ _ h9⟩

end Cert.Finite

end
-- ==== Proof.KPay5.lean ====
/-
  The encoder's value at one entry of a block of 512 rows: entry (p, j) of the first stored payload is coordinate j of
  the encoding of the block's row p — two matrix products into zero accumulators read as sums over the contracted
  axis, the one-row biases broadcast down the rows, and the relu as a maximum with zero. Also the payloads that are
  constants: the three zero blocks and the splat of 2⁻¹⁰, and the product of two one-column blocks.
-/
import proofs.«136008_g16879221473979_cont_7to1_943_9_alg».proof.Proof.Gen.KernelIdeal.Skeleton
import proofs.«136008_g16879221473979_cont_7to1_943_9_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Blocks

open Idealize.ShloMosaic Idealize.ShloMosaic.ValueIdx Cert.KernelIdeal Cert.KernelIdeal.Gen Cert.Spec

/-! ## The first product: 512 rows of 1024 against 1024 × 512 -/

/-- The left operand's row coordinate is the result's row. -/
theorem fst_lhs_0 (i : S512x512.Idx) (q : dot_S512x1024_S1024x512_S512x512_1_0_0_1_n_n.contr.Idx) :
    (dot_S512x1024_S1024x512_S512x512_1_0_0_1_n_n.lhsIdx i q 0).val = (i 0).val := by
  unfold DotDims.lhsIdx
  rw [dif_neg (show ¬(0 : Fin S512x1024.rank) ∈ dot_S512x1024_S1024x512_S512x512_1_0_0_1_n_n.lhsBatch by decide), dif_pos (show (0 : Fin S512x1024.rank) ∈ dot_S512x1024_S1024x512_S512x512_1_0_0_1_n_n.lhsNonContracting by decide)]
  rfl
/-- The left operand's column coordinate is the contracted index. -/
theorem fst_lhs_1 (i : S512x512.Idx) (q : dot_S512x1024_S1024x512_S512x512_1_0_0_1_n_n.contr.Idx) :
    (dot_S512x1024_S1024x512_S512x512_1_0_0_1_n_n.lhsIdx i q 1).val = (q ⟨0, by decide⟩).val :=
  dot_S512x1024_S1024x512_S512x512_1_0_0_1_n_n.lhsIdx_val_of_single rfl i q
/-- The right operand's row coordinate is the contracted index. -/
theorem fst_rhs_0 (i : S512x512.Idx) (q : dot_S512x1024_S1024x512_S512x512_1_0_0_1_n_n.contr.Idx) :
    (dot_S512x1024_S1024x512_S512x512_1_0_0_1_n_n.rhsIdx i q 0).val = (q ⟨0, by decide⟩).val :=
  dot_S512x1024_S1024x512_S512x512_1_0_0_1_n_n.rhsIdx_val_of_single rfl i q
/-- The right operand's column coordinate is the result's column. -/
theorem fst_rhs_1 (i : S512x512.Idx) (q : dot_S512x1024_S1024x512_S512x512_1_0_0_1_n_n.contr.Idx) :
    (dot_S512x1024_S1024x512_S512x512_1_0_0_1_n_n.rhsIdx i q 1).val = (i 1).val := by
  unfold DotDims.rhsIdx
  rw [dif_neg (show ¬(1 : Fin S1024x512.rank) ∈ dot_S512x1024_S1024x512_S512x512_1_0_0_1_n_n.rhsBatch by decide), dif_pos (show (1 : Fin S1024x512.rank) ∈ dot_S512x1024_S1024x512_S512x512_1_0_0_1_n_n.rhsNonContracting by decide)]
  rfl

/-- Entry (p, k) of the first product into a zero accumulator is the sum over the 1024 columns of row p of the left
    factor against column k of the right. -/
theorem fst_apply (v0 : FVec Ideal S512x1024 .f32) (v1 : FVec Ideal S1024x512 .f32) (p : Fin 512) (k : Fin 512) :
    matmul dot_S512x1024_S1024x512_S512x512_1_0_0_1_n_n none v0 v1 (constant (F := Ideal) S512x512 .f32 0x00000000#32) (ix2 p k)
      = ∑ i : Fin 1024, v0 (ix2 p i) * v1 (ix2 i k) := by
  refine (Ideal.matmul_constant_zero_apply dot_S512x1024_S1024x512_S512x512_1_0_0_1_n_n none v0 v1 (ix2 p k)).trans ?_
  rw [← Equiv.sum_comp (contrEquiv1 dot_S512x1024_S1024x512_S512x512_1_0_0_1_n_n 1024 rfl rfl).symm]
  refine Finset.sum_congr rfl fun i _ => ?_
  have hi := contrEquiv1_symm_val dot_S512x1024_S1024x512_S512x512_1_0_0_1_n_n 1024 rfl rfl i
  have el : dot_S512x1024_S1024x512_S512x512_1_0_0_1_n_n.lhsIdx (ix2 p k) ((contrEquiv1 dot_S512x1024_S1024x512_S512x512_1_0_0_1_n_n 1024 rfl rfl).symm i) = ix2 p i := funext fun a => Fin.ext (by
    match a with
    | ⟨0, _⟩ => exact fst_lhs_0 _ _
    | ⟨1, _⟩ => exact (fst_lhs_1 _ _).trans hi)
  have er : dot_S512x1024_S1024x512_S512x512_1_0_0_1_n_n.rhsIdx (ix2 p k) ((contrEquiv1 dot_S512x1024_S1024x512_S512x512_1_0_0_1_n_n 1024 rfl rfl).symm i) = ix2 i k := funext fun a => Fin.ext (by
    match a with
    | ⟨0, _⟩ => exact (fst_rhs_0 _ _).trans hi
    | ⟨1, _⟩ => exact fst_rhs_1 _ _)
  rw [el, er]

/-! ## The second product: 512 rows of 512 against 512 × 64 -/

/-- The left operand's row coordinate is the result's row. -/
theorem snd_lhs_0 (i : S512x64.Idx) (q : dot_S512x512_S512x64_S512x64_1_0_0_1_n_n.contr.Idx) :
    (dot_S512x512_S512x64_S512x64_1_0_0_1_n_n.lhsIdx i q 0).val = (i 0).val := by
  unfold DotDims.lhsIdx
  rw [dif_neg (show ¬(0 : Fin S512x512.rank) ∈ dot_S512x512_S512x64_S512x64_1_0_0_1_n_n.lhsBatch by decide), dif_pos (show (0 : Fin S512x512.rank) ∈ dot_S512x512_S512x64_S512x64_1_0_0_1_n_n.lhsNonContracting by decide)]
  rfl
/-- The left operand's column coordinate is the contracted index. -/
theorem snd_lhs_1 (i : S512x64.Idx) (q : dot_S512x512_S512x64_S512x64_1_0_0_1_n_n.contr.Idx) :
    (dot_S512x512_S512x64_S512x64_1_0_0_1_n_n.lhsIdx i q 1).val = (q ⟨0, by decide⟩).val :=
  dot_S512x512_S512x64_S512x64_1_0_0_1_n_n.lhsIdx_val_of_single rfl i q
/-- The right operand's row coordinate is the contracted index. -/
theorem snd_rhs_0 (i : S512x64.Idx) (q : dot_S512x512_S512x64_S512x64_1_0_0_1_n_n.contr.Idx) :
    (dot_S512x512_S512x64_S512x64_1_0_0_1_n_n.rhsIdx i q 0).val = (q ⟨0, by decide⟩).val :=
  dot_S512x512_S512x64_S512x64_1_0_0_1_n_n.rhsIdx_val_of_single rfl i q
/-- The right operand's column coordinate is the result's column. -/
theorem snd_rhs_1 (i : S512x64.Idx) (q : dot_S512x512_S512x64_S512x64_1_0_0_1_n_n.contr.Idx) :
    (dot_S512x512_S512x64_S512x64_1_0_0_1_n_n.rhsIdx i q 1).val = (i 1).val := by
  unfold DotDims.rhsIdx
  rw [dif_neg (show ¬(1 : Fin S512x64.rank) ∈ dot_S512x512_S512x64_S512x64_1_0_0_1_n_n.rhsBatch by decide), dif_pos (show (1 : Fin S512x64.rank) ∈ dot_S512x512_S512x64_S512x64_1_0_0_1_n_n.rhsNonContracting by decide)]
  rfl

/-- Entry (p, j) of the second product into a zero accumulator is the sum over the 512 hidden units of row p of the
    left factor against column j of the right. -/
theorem snd_apply (h : FVec Ideal S512x512 .f32) (v9 : FVec Ideal S512x64 .f32) (p : Fin 512) (j : Fin 64) :
    matmul dot_S512x512_S512x64_S512x64_1_0_0_1_n_n none h v9 (constant (F := Ideal) S512x64 .f32 0x00000000#32) (ix2 p j)
      = ∑ k : Fin 512, h (ix2 p k) * v9 (ix2 k j) := by
  refine (Ideal.matmul_constant_zero_apply dot_S512x512_S512x64_S512x64_1_0_0_1_n_n none h v9 (ix2 p j)).trans ?_
  rw [← Equiv.sum_comp (contrEquiv1 dot_S512x512_S512x64_S512x64_1_0_0_1_n_n 512 rfl rfl).symm]
  refine Finset.sum_congr rfl fun k _ => ?_
  have hk := contrEquiv1_symm_val dot_S512x512_S512x64_S512x64_1_0_0_1_n_n 512 rfl rfl k
  have el : dot_S512x512_S512x64_S512x64_1_0_0_1_n_n.lhsIdx (ix2 p j) ((contrEquiv1 dot_S512x512_S512x64_S512x64_1_0_0_1_n_n 512 rfl rfl).symm k) = ix2 p k := funext fun a => Fin.ext (by
    match a with
    | ⟨0, _⟩ => exact snd_lhs_0 _ _
    | ⟨1, _⟩ => exact (snd_lhs_1 _ _).trans hk)
  have er : dot_S512x512_S512x64_S512x64_1_0_0_1_n_n.rhsIdx (ix2 p j) ((contrEquiv1 dot_S512x512_S512x64_S512x64_1_0_0_1_n_n 512 rfl rfl).symm k) = ix2 k j := funext fun a => Fin.ext (by
    match a with
    | ⟨0, _⟩ => exact (snd_rhs_0 _ _).trans hk
    | ⟨1, _⟩ => exact snd_rhs_1 _ _)
  rw [el, er]

/-! ## The hidden layer and the encoding at one entry -/

/-- The hidden block: the first product plus the first bias's one row broadcast down the rows, joined with the zero splat. -/
def hidBlk (v0 : FVec Ideal S512x1024 .f32) (v1 : FVec Ideal S1024x512 .f32) (v3 : FVec Ideal S1x512 .f32) :
    FVec Ideal S512x512 .f32 :=
  maximumf
    (addf (matmul dot_S512x1024_S1024x512_S512x512_1_0_0_1_n_n none v0 v1 (constant (F := Ideal) S512x512 .f32 0x00000000#32))
      (broadcastTo S512x512 (shapeCast S1x512 v3 Facts₀.shapeCasts_S1x512_S1x512) Facts₀.broadcasts_S1x512_S512x512))
    (broadcast S512x512 (Scalar.ofBits (F := Ideal) .f32 0x00000000#32))

/-- Entry (p, k) of the hidden block is hidden unit k of row p. -/
theorem hid_blk (v0 : FVec Ideal S512x1024 .f32) (v1 : FVec Ideal S1024x512 .f32) (v3 : FVec Ideal S1x512 .f32)
    (p : Fin 512) (k : Fin 512) :
    hidBlk v0 v1 v3 (ix2 p k) = hid (row v0 p) (mat v1) (vecRow v3) k := by
  unfold hidBlk hid row mat vecRow
  rw [maximumf_apply, addf_apply, broadcast_apply, fst_apply, shapeCast_self,
    broadcastTo_1b_ab_apply v3 Facts₀.broadcasts_S1x512_S512x512 p k]
  exact congrArg (max _) Ideal.ofBits_zero_f32

/-- Entry (p, j) of the encoder payload is coordinate j of the encoding of row p. -/
theorem pay5_apply (v0 : Vec Ideal S512x1024 .f32) (v1 : Vec Ideal S1024x512 .f32) (v3 : Vec Ideal S1x512 .f32)
    (v9 : Vec Ideal S512x64 .f32) (v11 : Vec Ideal S1x64 .f32) (p : Fin 512) (j : Fin 64) :
    k0_pay5 (F := Ideal) v0 v1 v3 v9 v11 (ix2 p j)
      = enc (row v0 p) (mat v1) (vecRow v3) (mat v9) (vecRow v11) j := by
  unfold k0_pay5
  show addf (matmul dot_S512x512_S512x64_S512x64_1_0_0_1_n_n none (hidBlk v0 v1 v3) v9 (constant (F := Ideal) S512x64 .f32 0x00000000#32))
      (broadcastTo S512x64 (shapeCast S1x64 v11 Facts₀.shapeCasts_S1x64_S1x64) Facts₀.broadcasts_S1x64_S512x64) (ix2 p j) = _
  rw [addf_apply, snd_apply, shapeCast_self, broadcastTo_1b_ab_apply v11 Facts₀.broadcasts_S1x64_S512x64 p j]
  unfold enc
  refine congrArg₂ (· + ·) (Finset.sum_congr rfl fun k _ => ?_) rfl
  rw [hid_blk]
  rfl

/-- The product of two one-column blocks, entry by entry. -/
theorem pay1_apply (v68 v69 : FVec Ideal S512x1 .f32) (i : S512x1.Idx) :
    k0_pay1 (F := Ideal) v68 v69 i = v68 i * v69 i := rfl

/-- The splat of the word of 2⁻¹⁰. -/
theorem pay11_apply (i : S512x1.Idx) : k0_pay11 (F := Ideal) i = invCols := rfl

/-- The zero blocks. -/
theorem pay2_apply (i : S512x64.Idx) : k0_pay2 (F := Ideal) i = 0 := Ideal.ofBits_zero_f32
theorem pay3_apply (i : S512x64.Idx) : k0_pay3 (F := Ideal) i = 0 := Ideal.ofBits_zero_f32
theorem pay4_apply (i : S512x1.Idx) : k0_pay4 (F := Ideal) i = 0 := Ideal.ofBits_zero_f32

end Cert.KernelIdeal.Blocks

end
-- ==== Proof.KPayQ.lean ====
/-
  The soft-assignment payloads at one entry of a block: the logarithm's argument is the expanded squared distance
  between the block's encoded row p and centre a (a matrix product against the transposed centres, two row sums of
  squares, broadcasts along rows and columns, a clip at zero, a quotient by one), and the stored quotient is the soft-max
  of minus that logarithm along the row (a row maximum from -∞, an exponential, a row sum, a quotient).
-/
import proofs.«136008_g16879221473979_cont_7to1_943_9_alg».proof.Proof.Gen.KernelIdeal.Skeleton
import proofs.«136008_g16879221473979_cont_7to1_943_9_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Blocks

open Idealize.ShloMosaic Idealize.ShloMosaic.ValueIdx Cert.KernelIdeal Cert.KernelIdeal.Gen Cert.Spec

/-- A vector cast to a one-column matrix reads, at (i, u), the vector at i. -/
theorem q_shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A one-column matrix broadcast along its rows reads, at (p, c), the column at p. -/
theorem q_broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The lane sum of a 512×64 block at row p is the sum over the row's 64 entries. -/
theorem q_rowSum64 (w : FVec Ideal S512x64 .f32) (p : Fin 512) :
    multiReduction (F := Ideal) .add [1] S512 w 0x00000000#32 Facts₀.reduces_S512x64_S512 (.inl rfl) rfl (ix1 p)
      = ∑ k : Fin 64, w (ix2 p k) := by
  refine (Ideal.multiReduction_add_single w 0x00000000#32 Facts₀.reduces_S512x64_S512 (.inl rfl) rfl (ix1 p)).trans ?_
  show ∑ k : Fin 64, w (Facts₀.reduces_S512x64_S512.lift (ix1 p) k) = _
  refine Finset.sum_congr rfl fun k _ => congrArg w (funext fun d => Fin.ext ?_)
  match d with
  | ⟨0, _⟩ => rfl
  | ⟨1, _⟩ => rfl

/-- The lane sum of the 16×64 centres at centre a is the sum over that centre's 64 entries. -/
theorem q_centreSum64 (w : FVec Ideal S16x64 .f32) (a : Fin 16) :
    multiReduction (F := Ideal) .add [1] S16 w 0x00000000#32 Facts₀.reduces_S16x64_S16 (.inl rfl) rfl (ix1 a)
      = ∑ k : Fin 64, w (ix2 a k) := by
  refine (Ideal.multiReduction_add_single w 0x00000000#32 Facts₀.reduces_S16x64_S16 (.inl rfl) rfl (ix1 a)).trans ?_
  show ∑ k : Fin 64, w (Facts₀.reduces_S16x64_S16.lift (ix1 a) k) = _
  refine Finset.sum_congr rfl fun k _ => congrArg w (funext fun d => Fin.ext ?_)
  match d with
  | ⟨0, _⟩ => rfl
  | ⟨1, _⟩ => rfl

/-- The lane sum of a 512×16 block at row p is the sum over the row's 16 entries. -/
theorem q_rowSum16 (w : FVec Ideal S512x16 .f32) (p : Fin 512) :
    multiReduction (F := Ideal) .add [1] S512 w 0x00000000#32 Facts₀.reduces_S512x16_S512 (.inl rfl) rfl (ix1 p)
      = ∑ b : Fin 16, w (ix2 p b) := by
  refine (Ideal.multiReduction_add_single w 0x00000000#32 Facts₀.reduces_S512x16_S512 (.inl rfl) rfl (ix1 p)).trans ?_
  show ∑ b : Fin 16, w (Facts₀.reduces_S512x16_S512.lift (ix1 p) b) = _
  refine Finset.sum_congr rfl fun b _ => congrArg w (funext fun d => Fin.ext ?_)
  match d with
  | ⟨0, _⟩ => rfl
  | ⟨1, _⟩ => rfl

/-- The lane maximum of a 512×16 block at row p, folded from -∞, is the row's maximum. -/
theorem q_rowMax16 (w : FVec Ideal S512x16 .f32) (p : Fin 512) :
    multiReduction (F := Ideal) .maximumf [1] S512 w 0xFF800000#32 Facts₀.reduces_S512x16_S512 (.inl rfl) rfl (ix1 p)
      = rowMax fun b => w (ix2 p b) := by
  refine (Ideal.multiReduction_maximumf_single w 0xFF800000#32 Facts₀.reduces_S512x16_S512 (.inl rfl) rfl (ix1 p)).trans ?_
  have e : (w ∘ Facts₀.reduces_S512x16_S512.lift (ix1 p) : Fin 16 → EReal) = fun b => w (ix2 p b) :=
    funext fun b => congrArg w (funext fun d => Fin.ext (by
      match d with
      | ⟨0, _⟩ => rfl
      | ⟨1, _⟩ => rfl))
  unfold rowMax
  exact congrArg (fun f : Fin 16 → EReal => (Finset.univ : Finset (Fin 16)).fold max negInf f) e

/-! The product against the transposed centres contracts axis 1 of both operands: entry (p, a) pairs row p of the left
    operand with row a of the right. -/

theorem q_lhs_0 (i : S512x16.Idx) (q : dot_S512x64_S16x64_S512x16_1_1_0_0_n_n.contr.Idx) :
    (dot_S512x64_S16x64_S512x16_1_1_0_0_n_n.lhsIdx i q 0).val = (i 0).val := by
  unfold DotDims.lhsIdx
  rw [dif_neg (show ¬(0 : Fin S512x64.rank) ∈ dot_S512x64_S16x64_S512x16_1_1_0_0_n_n.lhsBatch by decide), dif_pos (show (0 : Fin S512x64.rank) ∈ dot_S512x64_S16x64_S512x16_1_1_0_0_n_n.lhsNonContracting by decide)]
  rfl
theorem q_lhs_1 (i : S512x16.Idx) (q : dot_S512x64_S16x64_S512x16_1_1_0_0_n_n.contr.Idx) :
    (dot_S512x64_S16x64_S512x16_1_1_0_0_n_n.lhsIdx i q 1).val = (q ⟨0, by decide⟩).val :=
  dot_S512x64_S16x64_S512x16_1_1_0_0_n_n.lhsIdx_val_of_single rfl i q
theorem q_rhs_0 (i : S512x16.Idx) (q : dot_S512x64_S16x64_S512x16_1_1_0_0_n_n.contr.Idx) :
    (dot_S512x64_S16x64_S512x16_1_1_0_0_n_n.rhsIdx i q 0).val = (i 1).val := by
  unfold DotDims.rhsIdx
  rw [dif_neg (show ¬(0 : Fin S16x64.rank) ∈ dot_S512x64_S16x64_S512x16_1_1_0_0_n_n.rhsBatch by decide), dif_pos (show (0 : Fin S16x64.rank) ∈ dot_S512x64_S16x64_S512x16_1_1_0_0_n_n.rhsNonContracting by decide)]
  rfl
theorem q_rhs_1 (i : S512x16.Idx) (q : dot_S512x64_S16x64_S512x16_1_1_0_0_n_n.contr.Idx) :
    (dot_S512x64_S16x64_S512x16_1_1_0_0_n_n.rhsIdx i q 1).val = (q ⟨0, by decide⟩).val :=
  dot_S512x64_S16x64_S512x16_1_1_0_0_n_n.rhsIdx_val_of_single rfl i q

/-- Entry (p, a) of the product into the zero block: the inner product of row p with centre a. -/
theorem q_matmul_apply (z : FVec Ideal S512x64 .f32) (c : FVec Ideal S16x64 .f32) (p : Fin 512) (a : Fin 16) :
    matmul dot_S512x64_S16x64_S512x16_1_1_0_0_n_n none z c (constant (F := Ideal) S512x16 .f32 0x00000000#32) (ix2 p a)
      = ∑ k : Fin 64, z (ix2 p k) * c (ix2 a k) := by
  simp only [matmul]
  rw [Ideal.matmul_constant_zero_apply, ← Equiv.sum_comp (contrEquiv1 dot_S512x64_S16x64_S512x16_1_1_0_0_n_n 64 rfl rfl).symm]
  refine Finset.sum_congr rfl fun k _ => ?_
  have hk := contrEquiv1_symm_val dot_S512x64_S16x64_S512x16_1_1_0_0_n_n 64 rfl rfl k
  have el : dot_S512x64_S16x64_S512x16_1_1_0_0_n_n.lhsIdx (ix2 p a) ((contrEquiv1 dot_S512x64_S16x64_S512x16_1_1_0_0_n_n 64 rfl rfl).symm k) = ix2 p k := funext fun d => Fin.ext (by
    match d with
    | ⟨0, _⟩ => exact q_lhs_0 _ _
    | ⟨1, _⟩ => exact (q_lhs_1 _ _).trans hk)
  have er : dot_S512x64_S16x64_S512x16_1_1_0_0_n_n.rhsIdx (ix2 p a) ((contrEquiv1 dot_S512x64_S16x64_S512x16_1_1_0_0_n_n 64 rfl rfl).symm k) = ix2 a k := funext fun d => Fin.ext (by
    match d with
    | ⟨0, _⟩ => exact q_rhs_0 _ _
    | ⟨1, _⟩ => exact (q_rhs_1 _ _).trans hk)
  rw [el, er]

/-- A length-512 vector laid out as a column and repeated along the 16 lanes reads, at (p, a), the vector at p. -/
theorem q_colBcast_apply (x : FVec Ideal S512 .f32) (p : Fin 512) (a : Fin 16) :
    broadcastTo S512x16 (shapeCast S512x1 x Facts₀.shapeCasts_S512_S512x1) Facts₀.broadcasts_S512x1_S512x16 (ix2 p a)
      = x (ix1 p) :=
  (q_broadcastTo_a1_ab_apply _ _ p a).trans (q_shapeCast_a_a1_apply x _ p 0)

/-- A length-16 vector laid out as a row and repeated along the 512 rows reads, at (p, a), the vector at a. -/
theorem q_rowBcast_apply (y : FVec Ideal S16 .f32) (p : Fin 512) (a : Fin 16) :
    broadcastTo S512x16 (shapeCast S1x16 y Facts₀.shapeCasts_S16_S1x16) Facts₀.broadcasts_S1x16_S512x16 (ix2 p a)
      = y (ix1 a) :=
  (broadcastTo_1b_ab_apply _ _ p a).trans (shapeCast_a_1a_apply y _ 0 a)

/-- Entry (p, a) of the logarithm payload, over the encoder payload's row p left as it is. -/
theorem pay6_apply (v0 : Vec Ideal S512x1024 .f32) (v1 : Vec Ideal S1024x512 .f32) (v3 : Vec Ideal S1x512 .f32)
    (v9 : Vec Ideal S512x64 .f32) (v11 : Vec Ideal S1x64 .f32) (v16 : Vec Ideal S16x64 .f32) (p : Fin 512) (a : Fin 16) :
    k0_pay6 (F := Ideal) v0 v1 v3 v9 v11 v16 (ix2 p a)
      = Ideal.log1p (Ideal.div (dist2K (fun k => k0_pay5 (F := Ideal) v0 v1 v3 v9 v11 (ix2 p k)) (mat v16) a) one) := by
  unfold k0_pay6
  generalize k0_pay5 (F := Ideal) v0 v1 v3 v9 v11 = z14
  -- the logarithm, the quotient, the clip, the sum, the difference and the product by 2 act entry by entry
  show Ideal.log1p (Ideal.div (max ((_ - two * _) + _) (Ideal.ofBits .f32 0x00000000#32)) one) = _
  unfold dist2K
  refine congrArg Ideal.log1p (congrArg (Ideal.div · one) ?_)
  refine congrArg₂ max (congrArg₂ (· + ·) (congrArg₂ (· - ·) ?_ (congrArg (two * ·) ?_)) ?_) Ideal.ofBits_zero_f32
  · -- ‖z‖²: the lane sum of the squared block, as a column, repeated along the lanes
    exact (q_colBcast_apply _ p a).trans (q_rowSum64 (mulf z14 z14) p)
  · -- z·c: the product against the transposed centres
    exact q_matmul_apply z14 v16 p a
  · -- ‖c‖²: the lane sum of the squared centres, as a row, repeated along the rows
    exact (q_rowBcast_apply _ p a).trans (q_centreSum64 (mulf v16 v16) a)

/-- Entry (p, a) of the soft-max payload: the once-shifted soft-max of minus the row p of its operand. -/
theorem pay7_apply (v34 : FVec Ideal S512x16 .f32) (p : Fin 512) (a : Fin 16) :
    k0_pay7 (F := Ideal) v34 (ix2 p a) = smaxK (fun b => negOne * v34 (ix2 p b)) a := by
  unfold k0_pay7
  -- the row maximum of the negated block, as a column repeated along the lanes, is the same at every lane b of row p
  have hmax := fun b : Fin 16 =>
    (q_colBcast_apply _ p b).trans
      (q_rowMax16 (mulf (broadcast S512x16 (Scalar.ofBits (F := Ideal) .f32 0xBF800000#32)) v34) p)
  unfold smaxK
  -- the quotient, the exponential, the difference and the product by -1 act entry by entry
  show Ideal.div (Ideal.exp (negOne * v34 (ix2 p a) - _)) _ = _
  refine congrArg₂ Ideal.div (congrArg Ideal.exp (congrArg (negOne * v34 (ix2 p a) - ·) (hmax a))) ?_
  -- the denominator: the lane sum of the exponentials, as a column repeated along the lanes
  refine ((q_colBcast_apply _ p a).trans (q_rowSum16 _ p)).trans (Finset.sum_congr rfl fun b _ => ?_)
  show Ideal.exp (negOne * v34 (ix2 p b) - _) = _
  exact congrArg Ideal.exp (congrArg (negOne * v34 (ix2 p b) - ·) (hmax b))

end Cert.KernelIdeal.Blocks

end
-- ==== Proof.KPayS.lean ====
/-
  The linear head, the decoder and the squared error at one entry of a block: the head is two matrix products — the
  encoded rows against rows 0 … 63 of the weights, the data rows against rows 64 … 1087, each slice of the weights read
  at its offset — plus the bias row; the decoder one product plus its bias row; the squared error the row sum of the
  squared differences between the decoder's row and the data row, kept as a one-column block.
-/
import proofs.«136008_g16879221473979_cont_7to1_943_9_alg».proof.Proof.Gen.KernelIdeal.Skeleton
import proofs.«136008_g16879221473979_cont_7to1_943_9_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Blocks

open Idealize.ShloMosaic Idealize.ShloMosaic.ValueIdx Cert.KernelIdeal Cert.KernelIdeal.Gen Cert.Spec

/-! ### The head's first product: encoded rows [512, 64] against a weight slice [64, 50] -/

/- Where the product reads its operands: at output entry i and contraction coordinate q the left operand is read at
   (row of i, q) and the right operand at (q, column of i). One statement per operand and axis. -/
theorem lhsHeadZ_0 (i : S512x50.Idx) (q : dot_S512x64_S64x50_S512x50_1_0_0_1_n_n.contr.Idx) :
    (dot_S512x64_S64x50_S512x50_1_0_0_1_n_n.lhsIdx i q 0).val = (i 0).val := by
  unfold DotDims.lhsIdx
  rw [dif_neg (show ¬(0 : Fin S512x64.rank) ∈ dot_S512x64_S64x50_S512x50_1_0_0_1_n_n.lhsBatch by decide), dif_pos (show (0 : Fin S512x64.rank) ∈ dot_S512x64_S64x50_S512x50_1_0_0_1_n_n.lhsNonContracting by decide)]
  rfl
theorem lhsHeadZ_1 (i : S512x50.Idx) (q : dot_S512x64_S64x50_S512x50_1_0_0_1_n_n.contr.Idx) :
    (dot_S512x64_S64x50_S512x50_1_0_0_1_n_n.lhsIdx i q 1).val = (q ⟨0, by decide⟩).val :=
  dot_S512x64_S64x50_S512x50_1_0_0_1_n_n.lhsIdx_val_of_single rfl i q
theorem rhsHeadZ_0 (i : S512x50.Idx) (q : dot_S512x64_S64x50_S512x50_1_0_0_1_n_n.contr.Idx) :
    (dot_S512x64_S64x50_S512x50_1_0_0_1_n_n.rhsIdx i q 0).val = (q ⟨0, by decide⟩).val :=
  dot_S512x64_S64x50_S512x50_1_0_0_1_n_n.rhsIdx_val_of_single rfl i q
theorem rhsHeadZ_1 (i : S512x50.Idx) (q : dot_S512x64_S64x50_S512x50_1_0_0_1_n_n.contr.Idx) :
    (dot_S512x64_S64x50_S512x50_1_0_0_1_n_n.rhsIdx i q 1).val = (i 1).val := by
  unfold DotDims.rhsIdx
  rw [dif_neg (show ¬(1 : Fin S64x50.rank) ∈ dot_S512x64_S64x50_S512x50_1_0_0_1_n_n.rhsBatch by decide), dif_pos (show (1 : Fin S64x50.rank) ∈ dot_S512x64_S64x50_S512x50_1_0_0_1_n_n.rhsNonContracting by decide)]
  rfl

/-- Entry (p, c) of the product from a zero accumulator: the sum over the 64 contracted coordinates. -/
theorem matmulHeadZ_apply (a : FVec Ideal S512x64 .f32) (b : FVec Ideal S64x50 .f32) (p : Fin 512) (c : Fin 50) :
    matmul dot_S512x64_S64x50_S512x50_1_0_0_1_n_n none a b (constant (F := Ideal) S512x50 .f32 0x00000000#32) (ix2 p c)
      = ∑ k : Fin 64, a (ix2 p k) * b (ix2 k c) := by
  show FloatOps.matmul dot_S512x64_S64x50_S512x50_1_0_0_1_n_n none a b (constant (F := Ideal) S512x50 .f32 0x00000000#32) (ix2 p c) = _
  rw [Ideal.matmul_constant_zero_apply, ← Equiv.sum_comp (contrEquiv1 dot_S512x64_S64x50_S512x50_1_0_0_1_n_n 64 rfl rfl).symm]
  refine Finset.sum_congr rfl fun k _ => ?_
  have hk := contrEquiv1_symm_val dot_S512x64_S64x50_S512x50_1_0_0_1_n_n 64 rfl rfl k
  have el : dot_S512x64_S64x50_S512x50_1_0_0_1_n_n.lhsIdx (ix2 p c) ((contrEquiv1 dot_S512x64_S64x50_S512x50_1_0_0_1_n_n 64 rfl rfl).symm k) = ix2 p k := funext fun ax => Fin.ext (by
    match ax with
    | ⟨0, _⟩ => exact lhsHeadZ_0 _ _
    | ⟨1, _⟩ => exact (lhsHeadZ_1 _ _).trans hk)
  have er : dot_S512x64_S64x50_S512x50_1_0_0_1_n_n.rhsIdx (ix2 p c) ((contrEquiv1 dot_S512x64_S64x50_S512x50_1_0_0_1_n_n 64 rfl rfl).symm k) = ix2 k c := funext fun ax => Fin.ext (by
    match ax with
    | ⟨0, _⟩ => exact (rhsHeadZ_0 _ _).trans hk
    | ⟨1, _⟩ => exact rhsHeadZ_1 _ _)
  rw [el, er]

/-! ### The head's second product: data rows [512, 1024] against a weight slice [1024, 50] -/

/- Where the product reads its operands: at output entry i and contraction coordinate q the left operand is read at
   (row of i, q) and the right operand at (q, column of i). One statement per operand and axis. -/
theorem lhsHeadX_0 (i : S512x50.Idx) (q : dot_S512x1024_S1024x50_S512x50_1_0_0_1_n_n.contr.Idx) :
    (dot_S512x1024_S1024x50_S512x50_1_0_0_1_n_n.lhsIdx i q 0).val = (i 0).val := by
  unfold DotDims.lhsIdx
  rw [dif_neg (show ¬(0 : Fin S512x1024.rank) ∈ dot_S512x1024_S1024x50_S512x50_1_0_0_1_n_n.lhsBatch by decide), dif_pos (show (0 : Fin S512x1024.rank) ∈ dot_S512x1024_S1024x50_S512x50_1_0_0_1_n_n.lhsNonContracting by decide)]
  rfl
theorem lhsHeadX_1 (i : S512x50.Idx) (q : dot_S512x1024_S1024x50_S512x50_1_0_0_1_n_n.contr.Idx) :
    (dot_S512x1024_S1024x50_S512x50_1_0_0_1_n_n.lhsIdx i q 1).val = (q ⟨0, by decide⟩).val :=
  dot_S512x1024_S1024x50_S512x50_1_0_0_1_n_n.lhsIdx_val_of_single rfl i q
theorem rhsHeadX_0 (i : S512x50.Idx) (q : dot_S512x1024_S1024x50_S512x50_1_0_0_1_n_n.contr.Idx) :
    (dot_S512x1024_S1024x50_S512x50_1_0_0_1_n_n.rhsIdx i q 0).val = (q ⟨0, by decide⟩).val :=
  dot_S512x1024_S1024x50_S512x50_1_0_0_1_n_n.rhsIdx_val_of_single rfl i q
theorem rhsHeadX_1 (i : S512x50.Idx) (q : dot_S512x1024_S1024x50_S512x50_1_0_0_1_n_n.contr.Idx) :
    (dot_S512x1024_S1024x50_S512x50_1_0_0_1_n_n.rhsIdx i q 1).val = (i 1).val := by
  unfold DotDims.rhsIdx
  rw [dif_neg (show ¬(1 : Fin S1024x50.rank) ∈ dot_S512x1024_S1024x50_S512x50_1_0_0_1_n_n.rhsBatch by decide), dif_pos (show (1 : Fin S1024x50.rank) ∈ dot_S512x1024_S1024x50_S512x50_1_0_0_1_n_n.rhsNonContracting by decide)]
  rfl

/-- Entry (p, c) of the product from a zero accumulator: the sum over the 1024 contracted coordinates. -/
theorem matmulHeadX_apply (a : FVec Ideal S512x1024 .f32) (b : FVec Ideal S1024x50 .f32) (p : Fin 512) (c : Fin 50) :
    matmul dot_S512x1024_S1024x50_S512x50_1_0_0_1_n_n none a b (constant (F := Ideal) S512x50 .f32 0x00000000#32) (ix2 p c)
      = ∑ k : Fin 1024, a (ix2 p k) * b (ix2 k c) := by
  show FloatOps.matmul dot_S512x1024_S1024x50_S512x50_1_0_0_1_n_n none a b (constant (F := Ideal) S512x50 .f32 0x00000000#32) (ix2 p c) = _
  rw [Ideal.matmul_constant_zero_apply, ← Equiv.sum_comp (contrEquiv1 dot_S512x1024_S1024x50_S512x50_1_0_0_1_n_n 1024 rfl rfl).symm]
  refine Finset.sum_congr rfl fun k _ => ?_
  have hk := contrEquiv1_symm_val dot_S512x1024_S1024x50_S512x50_1_0_0_1_n_n 1024 rfl rfl k
  have el : dot_S512x1024_S1024x50_S512x50_1_0_0_1_n_n.lhsIdx (ix2 p c) ((contrEquiv1 dot_S512x1024_S1024x50_S512x50_1_0_0_1_n_n 1024 rfl rfl).symm k) = ix2 p k := funext fun ax => Fin.ext (by
    match ax with
    | ⟨0, _⟩ => exact lhsHeadX_0 _ _
    | ⟨1, _⟩ => exact (lhsHeadX_1 _ _).trans hk)
  have er : dot_S512x1024_S1024x50_S512x50_1_0_0_1_n_n.rhsIdx (ix2 p c) ((contrEquiv1 dot_S512x1024_S1024x50_S512x50_1_0_0_1_n_n 1024 rfl rfl).symm k) = ix2 k c := funext fun ax => Fin.ext (by
    match ax with
    | ⟨0, _⟩ => exact (rhsHeadX_0 _ _).trans hk
    | ⟨1, _⟩ => exact rhsHeadX_1 _ _)
  rw [el, er]

/-- Entry (p, t) of the head payload, over any block of encoded rows. -/
theorem pay8_apply (v0 : Vec Ideal S512x1024 .f32) (v14 : FVec Ideal S512x64 .f32) (v47 : Vec Ideal S1088x50 .f32)
    (v53 : Vec Ideal S1x50 .f32) (p : Fin 512) (t : Fin 50) :
    k0_pay8 (F := Ideal) v0 v14 v47 v53 (ix2 p t) = survK (row v14 p) (row v0 p) (mat v47) (vecRow v53) t := by
  unfold k0_pay8
  rw [addf_apply, addf_apply, matmulHeadZ_apply, matmulHeadX_apply, shapeCast_self, broadcastTo_1b_ab_apply]
  unfold survK row mat vecRow
  refine congrArg₂ (· + ·) (congrArg₂ (· + ·) (Finset.sum_congr rfl fun k _ => ?_) (Finset.sum_congr rfl fun i _ => ?_)) rfl
  · -- row k of the slice at offset 0 is row k of the weights
    exact congrArg (v14 (ix2 p k) * ·)
      (slice2_axis0_apply 0 v47 slices_S1088x50_o0_0_S64x50 k t ⟨k.val, by omega⟩ (Nat.zero_add _).symm)
  · -- row i of the slice at offset 64 is row 64 + i of the weights
    exact congrArg (v0 (ix2 p i) * ·)
      (slice2_axis0_apply 64 v47 slices_S1088x50_o64_0_S1024x50 i t ⟨64 + i.val, by omega⟩ rfl)

/-! ### The decoder's product: encoded rows [512, 64] against the weights [64, 1024] -/

/- Where the product reads its operands: at output entry i and contraction coordinate q the left operand is read at
   (row of i, q) and the right operand at (q, column of i). One statement per operand and axis. -/
theorem lhsDec_0 (i : S512x1024.Idx) (q : dot_S512x64_S64x1024_S512x1024_1_0_0_1_n_n.contr.Idx) :
    (dot_S512x64_S64x1024_S512x1024_1_0_0_1_n_n.lhsIdx i q 0).val = (i 0).val := by
  unfold DotDims.lhsIdx
  rw [dif_neg (show ¬(0 : Fin S512x64.rank) ∈ dot_S512x64_S64x1024_S512x1024_1_0_0_1_n_n.lhsBatch by decide), dif_pos (show (0 : Fin S512x64.rank) ∈ dot_S512x64_S64x1024_S512x1024_1_0_0_1_n_n.lhsNonContracting by decide)]
  rfl
theorem lhsDec_1 (i : S512x1024.Idx) (q : dot_S512x64_S64x1024_S512x1024_1_0_0_1_n_n.contr.Idx) :
    (dot_S512x64_S64x1024_S512x1024_1_0_0_1_n_n.lhsIdx i q 1).val = (q ⟨0, by decide⟩).val :=
  dot_S512x64_S64x1024_S512x1024_1_0_0_1_n_n.lhsIdx_val_of_single rfl i q
theorem rhsDec_0 (i : S512x1024.Idx) (q : dot_S512x64_S64x1024_S512x1024_1_0_0_1_n_n.contr.Idx) :
    (dot_S512x64_S64x1024_S512x1024_1_0_0_1_n_n.rhsIdx i q 0).val = (q ⟨0, by decide⟩).val :=
  dot_S512x64_S64x1024_S512x1024_1_0_0_1_n_n.rhsIdx_val_of_single rfl i q
theorem rhsDec_1 (i : S512x1024.Idx) (q : dot_S512x64_S64x1024_S512x1024_1_0_0_1_n_n.contr.Idx) :
    (dot_S512x64_S64x1024_S512x1024_1_0_0_1_n_n.rhsIdx i q 1).val = (i 1).val := by
  unfold DotDims.rhsIdx
  rw [dif_neg (show ¬(1 : Fin S64x1024.rank) ∈ dot_S512x64_S64x1024_S512x1024_1_0_0_1_n_n.rhsBatch by decide), dif_pos (show (1 : Fin S64x1024.rank) ∈ dot_S512x64_S64x1024_S512x1024_1_0_0_1_n_n.rhsNonContracting by decide)]
  rfl

/-- Entry (p, c) of the product from a zero accumulator: the sum over the 64 contracted coordinates. -/
theorem matmulDec_apply (a : FVec Ideal S512x64 .f32) (b : FVec Ideal S64x1024 .f32) (p : Fin 512) (c : Fin 1024) :
    matmul dot_S512x64_S64x1024_S512x1024_1_0_0_1_n_n none a b (constant (F := Ideal) S512x1024 .f32 0x00000000#32) (ix2 p c)
      = ∑ k : Fin 64, a (ix2 p k) * b (ix2 k c) := by
  show FloatOps.matmul dot_S512x64_S64x1024_S512x1024_1_0_0_1_n_n none a b (constant (F := Ideal) S512x1024 .f32 0x00000000#32) (ix2 p c) = _
  rw [Ideal.matmul_constant_zero_apply, ← Equiv.sum_comp (contrEquiv1 dot_S512x64_S64x1024_S512x1024_1_0_0_1_n_n 64 rfl rfl).symm]
  refine Finset.sum_congr rfl fun k _ => ?_
  have hk := contrEquiv1_symm_val dot_S512x64_S64x1024_S512x1024_1_0_0_1_n_n 64 rfl rfl k
  have el : dot_S512x64_S64x1024_S512x1024_1_0_0_1_n_n.lhsIdx (ix2 p c) ((contrEquiv1 dot_S512x64_S64x1024_S512x1024_1_0_0_1_n_n 64 rfl rfl).symm k) = ix2 p k := funext fun ax => Fin.ext (by
    match ax with
    | ⟨0, _⟩ => exact lhsDec_0 _ _
    | ⟨1, _⟩ => exact (lhsDec_1 _ _).trans hk)
  have er : dot_S512x64_S64x1024_S512x1024_1_0_0_1_n_n.rhsIdx (ix2 p c) ((contrEquiv1 dot_S512x64_S64x1024_S512x1024_1_0_0_1_n_n 64 rfl rfl).symm k) = ix2 k c := funext fun ax => Fin.ext (by
    match ax with
    | ⟨0, _⟩ => exact (rhsDec_0 _ _).trans hk
    | ⟨1, _⟩ => exact rhsDec_1 _ _)
  rw [el, er]

/-- Entry (p, d) of the decoder payload, over any block of encoded rows. -/
theorem pay9_apply (v14 : FVec Ideal S512x64 .f32) (v58 : Vec Ideal S64x1024 .f32) (v60 : Vec Ideal S1x1024 .f32)
    (p : Fin 512) (d : Fin 1024) :
    k0_pay9 (F := Ideal) v14 v58 v60 (ix2 p d) = dec (row v14 p) (mat v58) (vecRow v60) d := by
  unfold k0_pay9
  rw [addf_apply, matmulDec_apply, shapeCast_self, broadcastTo_1b_ab_apply]
  rfl

/-! ### The squared error -/

/-- A [512] array cast to a [512, 1] column reads, at (p, u), the operand at p. -/
theorem col_apply {α : Type} (v : S512.Idx → α) (p : Fin 512) (u : Fin 1) :
    shapeCast S512x1 v shapeCasts_S512_S512x1 (ix2 p u) = v (ix1 p) :=
  shapeCast_apply v shapeCasts_S512_S512x1 (ix2 p u) (ix1 p) (by
    have hu : u.val = 0 := by omega
    rw [Shape.rowMajor_val_one, Shape.rowMajor_val_two]
    show p.val = p.val * 1 + u.val
    omega)

/-- The sum along the columns of a [512, 1024] block, at row p: the sum of the row's 1024 entries. -/
theorem rowSum_apply (y : FVec Ideal S512x1024 .f32) (p : Fin 512) :
    multiReduction (F := Ideal) .add [1] S512 y 0x00000000#32 reduces_S512x1024_S512 (.inl rfl) rfl (ix1 p)
      = ∑ d : Fin 1024, y (ix2 p d) := by
  refine (Ideal.multiReduction_add_single y 0x00000000#32 reduces_S512x1024_S512 (.inl rfl) rfl (ix1 p)).trans ?_
  show ∑ d : Fin 1024, y (reduces_S512x1024_S512.lift (ix1 p) d) = _
  exact Finset.sum_congr rfl fun d _ => congrArg y (funext fun ax => Fin.ext (by
    match ax with
    | ⟨0, _⟩ => rfl
    | ⟨1, _⟩ => rfl))

/-- The squared-error column over ANY decoded block xh: entry (p, 0) is the sum over the row of (xh - x)². -/
theorem sqErr_core (xh : FVec Ideal S512x1024 .f32) (v0 : Vec Ideal S512x1024 .f32) (p : Fin 512) (u : Fin 1) :
    shapeCast S512x1
        (multiReduction (F := Ideal) .add [1] S512 (mulf (subf xh v0) (subf xh v0)) 0x00000000#32 reduces_S512x1024_S512
          (.inl rfl) rfl)
        shapeCasts_S512_S512x1 (ix2 p u)
      = sqErr (fun d => xh (ix2 p d)) (row v0 p) := by
  refine (col_apply _ p u).trans ((rowSum_apply _ p).trans ?_)
  unfold sqErr row
  exact Finset.sum_congr rfl fun d _ => rfl

/-- Entry (p, 0) of the squared-error payload, over the decoder payload's row p left as it is. -/
theorem pay10_apply (v0 : Vec Ideal S512x1024 .f32) (v14 : FVec Ideal S512x64 .f32) (v58 : Vec Ideal S64x1024 .f32)
    (v60 : Vec Ideal S1x1024 .f32) (p : Fin 512) (u : Fin 1) :
    k0_pay10 (F := Ideal) v0 v14 v58 v60 (ix2 p u)
      = sqErr (fun d => k0_pay9 (F := Ideal) v14 v58 v60 (ix2 p d)) (row v0 p) := by
  unfold k0_pay10
  exact sqErr_core (k0_pay9 (F := Ideal) v14 v58 v60) v0 p u

end Cert.KernelIdeal.Blocks

end
-- ==== Proof.KOut.lean ====
/-
  What the body leaves in each output buffer, entry by entry, as the row functions of the block's input rows: a single
  store covering the whole buffer from offset zero is its payload, and each load of a whole input buffer is that buffer.
-/
import proofs.«136008_g16879221473979_cont_7to1_943_9_alg».proof.Proof.Gen.KernelIdeal.Frame
import proofs.«136008_g16879221473979_cont_7to1_943_9_alg».proof.Proof.KPay5
import proofs.«136008_g16879221473979_cont_7to1_943_9_alg».proof.Proof.KPayQ
import proofs.«136008_g16879221473979_cont_7to1_943_9_alg».proof.Proof.KPayS

noncomputable section

open scoped BigOperators

namespace Cert.KernelIdeal.Blocks

open Idealize.ShloMosaic Idealize.ShloMosaic.ValueIdx Cert.KernelIdeal Cert.KernelIdeal.Gen Cert.Spec

/-- The offsets of every access of the body: both zero. -/
theorem hz : (![0, 0] : Fin 2 → Nat) = fun _ => 0 := funext fun a => by fin_cases a <;> rfl

variable (x0 : Vec Ideal S512x1024 .f32) (x1 : Vec Ideal S1024x512 .f32) (x2 : Vec Ideal S1x512 .f32)
  (x3 : Vec Ideal S512x64 .f32) (x4 : Vec Ideal S1x64 .f32) (x5 : Vec Ideal S64x1024 .f32) (x6 : Vec Ideal S1x1024 .f32)
  (x7 : Vec Ideal S1088x50 .f32) (x8 : Vec Ideal S1x50 .f32) (x9 : Vec Ideal S16x64 .f32)

/-- The encoding of row p of a block of data rows. -/
def zBlk (x0 : Vec Ideal S512x1024 .f32) (x1 : Vec Ideal S1024x512 .f32) (x2 : Vec Ideal S1x512 .f32)
    (x3 : Vec Ideal S512x64 .f32) (x4 : Vec Ideal S1x64 .f32) (p : Fin 512) : Fin 64 → EReal :=
  enc (row x0 p) (mat x1) (vecRow x2) (mat x3) (vecRow x4)

theorem out10_apply (p : Fin 512) (j : Fin 64) :
    out0_10 (F := Ideal) x0 x1 x2 x3 x4 x5 x6 x7 x8 x9 (ix2 p j) = zBlk x0 x1 x2 x3 x4 p j := by
  unfold out0_10
  rw [View.canon_unit_zero hz]
  simp only [View.ld_unit_zero (S := S512x1024) hz, View.ld_unit_zero (S := S1024x512) hz, View.ld_unit_zero (S := S1x512) hz, View.ld_unit_zero (S := S512x64) hz, View.ld_unit_zero (S := S1x64) hz, View.ld_unit_zero (S := S64x1024) hz, View.ld_unit_zero (S := S1x1024) hz, View.ld_unit_zero (S := S1088x50) hz, View.ld_unit_zero (S := S1x50) hz, View.ld_unit_zero (S := S16x64) hz]
  exact pay5_apply x0 x1 x2 x3 x4 p j

theorem out11_apply (p : Fin 512) (a : Fin 16) :
    out0_11 (F := Ideal) x0 x1 x2 x3 x4 x5 x6 x7 x8 x9 (ix2 p a) = qK (zBlk x0 x1 x2 x3 x4 p) (mat x9) a := by
  unfold out0_11
  rw [View.canon_unit_zero hz]
  simp only [View.ld_unit_zero (S := S512x1024) hz, View.ld_unit_zero (S := S1024x512) hz, View.ld_unit_zero (S := S1x512) hz, View.ld_unit_zero (S := S512x64) hz, View.ld_unit_zero (S := S1x64) hz, View.ld_unit_zero (S := S64x1024) hz, View.ld_unit_zero (S := S1x1024) hz, View.ld_unit_zero (S := S1088x50) hz, View.ld_unit_zero (S := S1x50) hz, View.ld_unit_zero (S := S16x64) hz]
  rw [pay7_apply]
  unfold qK
  refine congrArg (fun l : Fin 16 → EReal => smaxK l a) (funext fun b => ?_)
  rw [pay6_apply]
  unfold logit zBlk
  refine congrArg (fun d : EReal => negOne * Ideal.log1p (Ideal.div d one)) ?_
  exact congrArg (fun z : Fin 64 → EReal => dist2K z (mat x9) b) (funext fun k => pay5_apply x0 x1 x2 x3 x4 p k)

theorem out12_apply (p : Fin 512) (t : Fin 50) :
    out0_12 (F := Ideal) x0 x1 x2 x3 x4 x5 x6 x7 x8 x9 (ix2 p t) = survK (zBlk x0 x1 x2 x3 x4 p) (row x0 p) (mat x7) (vecRow x8) t := by
  unfold out0_12
  rw [View.canon_unit_zero hz]
  simp only [View.ld_unit_zero (S := S512x1024) hz, View.ld_unit_zero (S := S1024x512) hz, View.ld_unit_zero (S := S1x512) hz, View.ld_unit_zero (S := S512x64) hz, View.ld_unit_zero (S := S1x64) hz, View.ld_unit_zero (S := S64x1024) hz, View.ld_unit_zero (S := S1x1024) hz, View.ld_unit_zero (S := S1088x50) hz, View.ld_unit_zero (S := S1x50) hz, View.ld_unit_zero (S := S16x64) hz]
  rw [pay8_apply]
  unfold zBlk
  exact congrArg (fun z : Fin 64 → EReal => survK z (row x0 p) (mat x7) (vecRow x8) t)
    (funext fun k => pay5_apply x0 x1 x2 x3 x4 p k)

theorem out13_apply (p : Fin 512) (d : Fin 1024) :
    out0_13 (F := Ideal) x0 x1 x2 x3 x4 x5 x6 x7 x8 x9 (ix2 p d) = dec (zBlk x0 x1 x2 x3 x4 p) (mat x5) (vecRow x6) d := by
  unfold out0_13
  rw [View.canon_unit_zero hz]
  simp only [View.ld_unit_zero (S := S512x1024) hz, View.ld_unit_zero (S := S1024x512) hz, View.ld_unit_zero (S := S1x512) hz, View.ld_unit_zero (S := S512x64) hz, View.ld_unit_zero (S := S1x64) hz, View.ld_unit_zero (S := S64x1024) hz, View.ld_unit_zero (S := S1x1024) hz, View.ld_unit_zero (S := S1088x50) hz, View.ld_unit_zero (S := S1x50) hz, View.ld_unit_zero (S := S16x64) hz]
  rw [pay9_apply]
  unfold zBlk
  exact congrArg (fun z : Fin 64 → EReal => dec z (mat x5) (vecRow x6) d)
    (funext fun k => pay5_apply x0 x1 x2 x3 x4 p k)

theorem out14_apply (p : Fin 512) (u : Fin 1) :
    out0_14 (F := Ideal) x0 x1 x2 x3 x4 x5 x6 x7 x8 x9 (ix2 p u) = recK (dec (zBlk x0 x1 x2 x3 x4 p) (mat x5) (vecRow x6)) (row x0 p) := by
  unfold out0_14
  rw [View.canon_unit_zero hz]
  simp only [View.ld_unit_zero (S := S512x1024) hz, View.ld_unit_zero (S := S1024x512) hz, View.ld_unit_zero (S := S1x512) hz, View.ld_unit_zero (S := S512x64) hz, View.ld_unit_zero (S := S1x64) hz, View.ld_unit_zero (S := S64x1024) hz, View.ld_unit_zero (S := S1x1024) hz, View.ld_unit_zero (S := S1088x50) hz, View.ld_unit_zero (S := S1x50) hz, View.ld_unit_zero (S := S16x64) hz]
  rw [pay1_apply, pay11_apply, pay10_apply]
  unfold recK zBlk
  refine congrArg (fun xh : Fin 1024 → EReal => sqErr xh (row x0 p) * invCols) (funext fun d => ?_)
  rw [pay9_apply]
  exact congrArg (fun z : Fin 64 → EReal => dec z (mat x5) (vecRow x6) d)
    (funext fun k => pay5_apply x0 x1 x2 x3 x4 p k)

theorem out15_apply (p : Fin 512) (j : Fin 64) : out0_15 (F := Ideal) x0 x1 x2 x3 x4 x5 x6 x7 x8 x9 (ix2 p j) = 0 := by
  unfold out0_15
  rw [View.canon_unit_zero hz]
  exact pay2_apply _

theorem out16_apply (p : Fin 512) (j : Fin 64) : out0_16 (F := Ideal) x0 x1 x2 x3 x4 x5 x6 x7 x8 x9 (ix2 p j) = 0 := by
  unfold out0_16
  rw [View.canon_unit_zero hz]
  exact pay3_apply _

theorem out17_apply (p : Fin 512) (u : Fin 1) : out0_17 (F := Ideal) x0 x1 x2 x3 x4 x5 x6 x7 x8 x9 (ix2 p u) = 0 := by
  unfold out0_17
  rw [View.canon_unit_zero hz]
  exact pay4_apply _

end Cert.KernelIdeal.Blocks

end
-- ==== Proof.KIn.lean ====
/-
  What each input window of the pallas_call stages at grid point `t`, read off the arrays as the region finds them: the data
  window holds rows `512·t … 512·t + 511` of the data matrix; every weight window holds its whole array at every point;
  and the four one-row bias windows hold the host's broadcasts `b[None, :]` of the bias vectors, made by the host lines
  before the call, so their one row is the bias vector itself.
-/
import proofs.«136008_g16879221473979_cont_7to1_943_9_alg».proof.Proof.Gen.KernelIdeal.Frame
import proofs.«136008_g16879221473979_cont_7to1_943_9_alg».proof.Proof.Spec
import Idealize.ShloMosaic.Lib.Pipeline.Value
import Idealize.ShloMosaic.Lib.ValueLayout
import Idealize.ShloMosaic.Lib.StableHlo.Run

set_option maxRecDepth 16384

noncomputable section

open scoped BigOperators

namespace Cert.KernelIdeal.Arrays

open Idealize.ShloMosaic Idealize.ShloMosaic.TcCoe Idealize.ShloMosaic.ValueIdx Idealize.SL.Sem
open Cert.KernelIdeal Cert.KernelIdeal.Gen Cert.Spec

variable (m : (ℓ : Loc nD τ sig) → Buf (Elt Ideal) ℓ)

/-- The ten argument arrays of core `c`, as launched. -/
abbrev aX (c : Dev nD) : Arr2 8192 1024 := m ((c.tc : Thread nD τ).loc main_arg0)
abbrev aW1 (c : Dev nD) : Arr2 1024 512 := m ((c.tc : Thread nD τ).loc main_arg1)
abbrev aB1 (c : Dev nD) : Arr1 512 := m ((c.tc : Thread nD τ).loc main_arg2)
abbrev aW2 (c : Dev nD) : Arr2 512 64 := m ((c.tc : Thread nD τ).loc main_arg3)
abbrev aB2 (c : Dev nD) : Arr1 64 := m ((c.tc : Thread nD τ).loc main_arg4)
abbrev aWd (c : Dev nD) : Arr2 64 1024 := m ((c.tc : Thread nD τ).loc main_arg5)
abbrev aBd (c : Dev nD) : Arr1 1024 := m ((c.tc : Thread nD τ).loc main_arg6)
abbrev aWs (c : Dev nD) : Arr2 1088 50 := m ((c.tc : Thread nD τ).loc main_arg7)
abbrev aBs (c : Dev nD) : Arr1 50 := m ((c.tc : Thread nD τ).loc main_arg8)
abbrev aC (c : Dev nD) : Arr2 16 64 := m ((c.tc : Thread nD τ).loc main_arg9)

/-- The grid has 16 points. -/
theorem N_eq : cfg0.N = 16 := rfl

/-- Row `p` of block `t` is row `512·t + p` of the array. -/
theorem rowIdx_lt (t : Fin cfg0.N) (p : Fin 512) : 512 * t.val + p.val < 8192 := by
  have h : t.val < 16 := t.isLt
  omega

/-- Each input window's block at point `t`, at its literal type. -/
abbrev blk0 (c : Dev nD) (t : Fin cfg0.N) : Vec Ideal S512x1024 .f32 := iblk m c 0 t
abbrev blk1 (c : Dev nD) (t : Fin cfg0.N) : Vec Ideal S1024x512 .f32 := iblk m c 1 t
abbrev blk2 (c : Dev nD) (t : Fin cfg0.N) : Vec Ideal S1x512 .f32 := iblk m c 2 t
abbrev blk3 (c : Dev nD) (t : Fin cfg0.N) : Vec Ideal S512x64 .f32 := iblk m c 3 t
abbrev blk4 (c : Dev nD) (t : Fin cfg0.N) : Vec Ideal S1x64 .f32 := iblk m c 4 t
abbrev blk5 (c : Dev nD) (t : Fin cfg0.N) : Vec Ideal S64x1024 .f32 := iblk m c 5 t
abbrev blk6 (c : Dev nD) (t : Fin cfg0.N) : Vec Ideal S1x1024 .f32 := iblk m c 6 t
abbrev blk7 (c : Dev nD) (t : Fin cfg0.N) : Vec Ideal S1088x50 .f32 := iblk m c 7 t
abbrev blk8 (c : Dev nD) (t : Fin cfg0.N) : Vec Ideal S1x50 .f32 := iblk m c 8 t
abbrev blk9 (c : Dev nD) (t : Fin cfg0.N) : Vec Ideal S16x64 .f32 := iblk m c 9 t

/-- The block index of the data window at point `t` is `(t, 0)`. -/
theorem inIdx0 : ∀ t : Fin cfg0.N, win0_0.index t (0 : Fin 2) = t.val ∧ win0_0.index t (1 : Fin 2) = 0 :=
  (by decide +kernel : ∀ t : Fin grid0.N, _)

theorem row_blk0 (c : Dev nD) (t : Fin cfg0.N) (p : Fin 512) :
    row (blk0 m c t) p = row (aX m c) ⟨512 * t.val + p.val, rowIdx_lt t p⟩ := by
  funext i
  unfold row
  show V m c main_arg0 (((cfg0.win 0).blk t).view.emb (ix2 p i)) = _
  rw [V_main_arg0]
  obtain ⟨e0, e1⟩ := inIdx0 t
  refine congrArg (m ((c.tc : Thread nD τ).loc main_arg0)) (funext fun a => Fin.ext ?_)
  match a with
  | ⟨0, _⟩ => show win0_0.index t (0 : Fin 2) * 512 + 1 * p.val = 512 * t.val + p.val; omega
  | ⟨1, _⟩ => show win0_0.index t (1 : Fin 2) * 1024 + 1 * i.val = i.val; omega

/-- The block index of window 1 is `(0, 0)` at every point. -/
theorem inIdx1 : ∀ t : Fin cfg0.N, win0_1.index t (0 : Fin 2) = 0 ∧ win0_1.index t (1 : Fin 2) = 0 :=
  (by decide +kernel : ∀ t : Fin grid0.N, _)

theorem mat_blk1 (c : Dev nD) (t : Fin cfg0.N) : mat (blk1 m c t) = mat (aW1 m c) := by
  funext i k
  unfold mat
  show V m c main_arg1 (((cfg0.win 1).blk t).view.emb (ix2 i k)) = _
  rw [V_main_arg1]
  obtain ⟨e0, e1⟩ := inIdx1 t
  refine congrArg (m ((c.tc : Thread nD τ).loc main_arg1)) (funext fun a => Fin.ext ?_)
  match a with
  | ⟨0, _⟩ => show win0_1.index t (0 : Fin 2) * 1024 + 1 * i.val = i.val; omega
  | ⟨1, _⟩ => show win0_1.index t (1 : Fin 2) * 512 + 1 * k.val = k.val; omega

/-- The first bias window's array, as the region finds it, is the host's one-row broadcast of the bias vector. -/
theorem inRow_call0_v0 (c : Dev nD) : (V m c main_call0_v0 : S1x512.Idx → EReal)
    = broadcastInDim S1x512 ![1] bcast_S512_S1x512_1 (m ((c.tc : Thread nD τ).loc main_arg2)) := by
  show StableHlo.after hostOps0 (fun b => m (c, b)) (Proc.devRef .tc main_call0_v0) = _
  after_results
  rfl

/-- The block index of window 2 is `(0, 0)` at every point. -/
theorem inIdx2 : ∀ t : Fin cfg0.N, win0_2.index t (0 : Fin 2) = 0 ∧ win0_2.index t (1 : Fin 2) = 0 :=
  (by decide +kernel : ∀ t : Fin grid0.N, _)

theorem vecRow_blk2 (c : Dev nD) (t : Fin cfg0.N) : vecRow (blk2 m c t) = vec (aB1 m c) := by
  funext k
  unfold vecRow vec
  show V m c main_call0_v0 (((cfg0.win 2).blk t).view.emb (ix2 (0 : Fin 1) k)) = _
  rw [inRow_call0_v0]
  obtain ⟨e0, e1⟩ := inIdx2 t
  refine broadcastInDim_apply _ _ _ _ (ix1 k) fun a => ?_
  match a with
  | ⟨0, _⟩ => show k.val = win0_2.index t (1 : Fin 2) * 512 + 1 * k.val; omega

/-- The block index of window 3 is `(0, 0)` at every point. -/
theorem inIdx3 : ∀ t : Fin cfg0.N, win0_3.index t (0 : Fin 2) = 0 ∧ win0_3.index t (1 : Fin 2) = 0 :=
  (by decide +kernel : ∀ t : Fin grid0.N, _)

theorem mat_blk3 (c : Dev nD) (t : Fin cfg0.N) : mat (blk3 m c t) = mat (aW2 m c) := by
  funext i k
  unfold mat
  show V m c main_arg3 (((cfg0.win 3).blk t).view.emb (ix2 i k)) = _
  rw [V_main_arg3]
  obtain ⟨e0, e1⟩ := inIdx3 t
  refine congrArg (m ((c.tc : Thread nD τ).loc main_arg3)) (funext fun a => Fin.ext ?_)
  match a with
  | ⟨0, _⟩ => show win0_3.index t (0 : Fin 2) * 512 + 1 * i.val = i.val; omega
  | ⟨1, _⟩ => show win0_3.index t (1 : Fin 2) * 64 + 1 * k.val = k.val; omega

/-- The second bias window's array, as the region finds it, is the host's one-row broadcast of the bias vector. -/
theorem inRow_call0_v1 (c : Dev nD) : (V m c main_call0_v1 : S1x64.Idx → EReal)
    = broadcastInDim S1x64 ![1] bcast_S64_S1x64_1 (m ((c.tc : Thread nD τ).loc main_arg4)) := by
  show StableHlo.after hostOps0 (fun b => m (c, b)) (Proc.devRef .tc main_call0_v1) = _
  after_results
  rfl

/-- The block index of window 4 is `(0, 0)` at every point. -/
theorem inIdx4 : ∀ t : Fin cfg0.N, win0_4.index t (0 : Fin 2) = 0 ∧ win0_4.index t (1 : Fin 2) = 0 :=
  (by decide +kernel : ∀ t : Fin grid0.N, _)

theorem vecRow_blk4 (c : Dev nD) (t : Fin cfg0.N) : vecRow (blk4 m c t) = vec (aB2 m c) := by
  funext k
  unfold vecRow vec
  show V m c main_call0_v1 (((cfg0.win 4).blk t).view.emb (ix2 (0 : Fin 1) k)) = _
  rw [inRow_call0_v1]
  obtain ⟨e0, e1⟩ := inIdx4 t
  refine broadcastInDim_apply _ _ _ _ (ix1 k) fun a => ?_
  match a with
  | ⟨0, _⟩ => show k.val = win0_4.index t (1 : Fin 2) * 64 + 1 * k.val; omega

/-- The block index of window 5 is `(0, 0)` at every point. -/
theorem inIdx5 : ∀ t : Fin cfg0.N, win0_5.index t (0 : Fin 2) = 0 ∧ win0_5.index t (1 : Fin 2) = 0 :=
  (by decide +kernel : ∀ t : Fin grid0.N, _)

theorem mat_blk5 (c : Dev nD) (t : Fin cfg0.N) : mat (blk5 m c t) = mat (aWd m c) := by
  funext i k
  unfold mat
  show V m c main_arg5 (((cfg0.win 5).blk t).view.emb (ix2 i k)) = _
  rw [V_main_arg5]
  obtain ⟨e0, e1⟩ := inIdx5 t
  refine congrArg (m ((c.tc : Thread nD τ).loc main_arg5)) (funext fun a => Fin.ext ?_)
  match a with
  | ⟨0, _⟩ => show win0_5.index t (0 : Fin 2) * 64 + 1 * i.val = i.val; omega
  | ⟨1, _⟩ => show win0_5.index t (1 : Fin 2) * 1024 + 1 * k.val = k.val; omega

/-- The third bias window's array, as the region finds it, is the host's one-row broadcast of the bias vector. -/
theorem inRow_call0_v2 (c : Dev nD) : (V m c main_call0_v2 : S1x1024.Idx → EReal)
    = broadcastInDim S1x1024 ![1] bcast_S1024_S1x1024_1 (m ((c.tc : Thread nD τ).loc main_arg6)) := by
  show StableHlo.after hostOps0 (fun b => m (c, b)) (Proc.devRef .tc main_call0_v2) = _
  after_results
  rfl

/-- The block index of window 6 is `(0, 0)` at every point. -/
theorem inIdx6 : ∀ t : Fin cfg0.N, win0_6.index t (0 : Fin 2) = 0 ∧ win0_6.index t (1 : Fin 2) = 0 :=
  (by decide +kernel : ∀ t : Fin grid0.N, _)

theorem vecRow_blk6 (c : Dev nD) (t : Fin cfg0.N) : vecRow (blk6 m c t) = vec (aBd m c) := by
  funext k
  unfold vecRow vec
  show V m c main_call0_v2 (((cfg0.win 6).blk t).view.emb (ix2 (0 : Fin 1) k)) = _
  rw [inRow_call0_v2]
  obtain ⟨e0, e1⟩ := inIdx6 t
  refine broadcastInDim_apply _ _ _ _ (ix1 k) fun a => ?_
  match a with
  | ⟨0, _⟩ => show k.val = win0_6.index t (1 : Fin 2) * 1024 + 1 * k.val; omega

/-- The block index of window 7 is `(0, 0)` at every point. -/
theorem inIdx7 : ∀ t : Fin cfg0.N, win0_7.index t (0 : Fin 2) = 0 ∧ win0_7.index t (1 : Fin 2) = 0 :=
  (by decide +kernel : ∀ t : Fin grid0.N, _)

theorem mat_blk7 (c : Dev nD) (t : Fin cfg0.N) : mat (blk7 m c t) = mat (aWs m c) := by
  funext i k
  unfold mat
  show V m c main_arg7 (((cfg0.win 7).blk t).view.emb (ix2 i k)) = _
  rw [V_main_arg7]
  obtain ⟨e0, e1⟩ := inIdx7 t
  refine congrArg (m ((c.tc : Thread nD τ).loc main_arg7)) (funext fun a => Fin.ext ?_)
  match a with
  | ⟨0, _⟩ => show win0_7.index t (0 : Fin 2) * 1088 + 1 * i.val = i.val; omega
  | ⟨1, _⟩ => show win0_7.index t (1 : Fin 2) * 50 + 1 * k.val = k.val; omega

/-- The fourth bias window's array, as the region finds it, is the host's one-row broadcast of the bias vector. -/
theorem inRow_call0_v3 (c : Dev nD) : (V m c main_call0_v3 : S1x50.Idx → EReal)
    = broadcastInDim S1x50 ![1] bcast_S50_S1x50_1 (m ((c.tc : Thread nD τ).loc main_arg8)) := by
  show StableHlo.after hostOps0 (fun b => m (c, b)) (Proc.devRef .tc main_call0_v3) = _
  after_results
  rfl

/-- The block index of window 8 is `(0, 0)` at every point. -/
theorem inIdx8 : ∀ t : Fin cfg0.N, win0_8.index t (0 : Fin 2) = 0 ∧ win0_8.index t (1 : Fin 2) = 0 :=
  (by decide +kernel : ∀ t : Fin grid0.N, _)

theorem vecRow_blk8 (c : Dev nD) (t : Fin cfg0.N) : vecRow (blk8 m c t) = vec (aBs m c) := by
  funext k
  unfold vecRow vec
  show V m c main_call0_v3 (((cfg0.win 8).blk t).view.emb (ix2 (0 : Fin 1) k)) = _
  rw [inRow_call0_v3]
  obtain ⟨e0, e1⟩ := inIdx8 t
  refine broadcastInDim_apply _ _ _ _ (ix1 k) fun a => ?_
  match a with
  | ⟨0, _⟩ => show k.val = win0_8.index t (1 : Fin 2) * 50 + 1 * k.val; omega

/-- The block index of window 9 is `(0, 0)` at every point. -/
theorem inIdx9 : ∀ t : Fin cfg0.N, win0_9.index t (0 : Fin 2) = 0 ∧ win0_9.index t (1 : Fin 2) = 0 :=
  (by decide +kernel : ∀ t : Fin grid0.N, _)

theorem mat_blk9 (c : Dev nD) (t : Fin cfg0.N) : mat (blk9 m c t) = mat (aC m c) := by
  funext i k
  unfold mat
  show V m c main_arg9 (((cfg0.win 9).blk t).view.emb (ix2 i k)) = _
  rw [V_main_arg9]
  obtain ⟨e0, e1⟩ := inIdx9 t
  refine congrArg (m ((c.tc : Thread nD τ).loc main_arg9)) (funext fun a => Fin.ext ?_)
  match a with
  | ⟨0, _⟩ => show win0_9.index t (0 : Fin 2) * 16 + 1 * i.val = i.val; omega
  | ⟨1, _⟩ => show win0_9.index t (1 : Fin 2) * 64 + 1 * k.val = k.val; omega

end Cert.KernelIdeal.Arrays

end
-- ==== Proof.KArr.lean ====
/-
  Each output array of the pallas_call after the run, as one function of the argument arrays. Point `t` of the grid of 16
  stages rows `512·t … 512·t + 511` of the data matrix and of every output, and the whole of each weight array; the four
  one-row bias operands are broadcasts of the bias vectors made by the host lines before the call. What point `t` writes
  back is therefore block `t` of the row-by-row function, the 16 blocks cover the 8192 rows, and the array is that function.
  For each output the argument has the same four steps: the block index at point `t` is `(t, 0)`; so entry `(p, j)` of the
  block is entry `(512·t + p, j)` of the array; the body's result at `(p, j)`, with the staged input rows replaced by the
  array rows they are, is the row-by-row function at `(512·t + p, j)`; and row `r` of the array lies in block `r / 512`.
-/
import proofs.«136008_g16879221473979_cont_7to1_943_9_alg».proof.Proof.Gen.KernelIdeal.Frame
import proofs.«136008_g16879221473979_cont_7to1_943_9_alg».proof.Proof.KOut
import proofs.«136008_g16879221473979_cont_7to1_943_9_alg».proof.Proof.KIn
import Idealize.ShloMosaic.Lib.Pipeline.Value
import Idealize.ShloMosaic.Lib.StableHlo.Run

set_option maxRecDepth 16384

noncomputable section

open scoped BigOperators

namespace Cert.KernelIdeal.Arrays

open Idealize.ShloMosaic Idealize.ShloMosaic.TcCoe Idealize.ShloMosaic.ValueIdx Idealize.SL.Sem
open Cert.KernelIdeal Cert.KernelIdeal.Gen Cert.KernelIdeal.Blocks Cert.Spec

variable (m : (ℓ : Loc nD τ sig) → Buf (Elt Ideal) ℓ)

/-! ## Window 10: the encoding -/

/-- At grid point `t` the block index of this output is `(t, 0)`. -/
theorem blockIndex_enc : ∀ t : Fin cfg0.N, win0_10.index t (0 : Fin 2) = t.val ∧ win0_10.index t (1 : Fin 2) = 0 :=
  (by decide +kernel : ∀ t : Fin grid0.N, _)

/-- Entry `(p, j)` of block `t` sits at row `512·t + p`, column `j` of the array. -/
theorem blockEmb_enc (t : Fin cfg0.N) (p : Fin 512) (j : Fin 64) :
    ((cfg0.win 10).blk t).view.emb (ix2 p j) = ix2 ⟨512 * t.val + p.val, rowIdx_lt t p⟩ j := by
  obtain ⟨e0, e1⟩ := blockIndex_enc t
  funext a; apply Fin.ext
  match a with
  | ⟨0, _⟩ => show win0_10.index t (0 : Fin 2) * 512 + 1 * p.val = 512 * t.val + p.val; omega
  | ⟨1, _⟩ => show win0_10.index t (1 : Fin 2) * 64 + 1 * j.val = j.val; omega

/-- What point `t` writes back is block `t` of the row-by-row function. -/
theorem written_enc (c : Dev nD) (t : Fin cfg0.N) :
    (dats m 0 c).flushed 10 t = ((cfg0.win 10).blk t).view.read (Elt Ideal) (zArr (aX m c) (aW1 m c) (aB1 m c) (aW2 m c) (aB2 m c)) := by
  show (cfg0.win 10).cut (grid0.coords t) ((dats m 0 c).after 10 t) = _
  rw [after0_10]
  refine funext fun (y : S512x64.Idx) => ?_
  obtain ⟨p, j, rfl⟩ : ∃ (p : Fin 512) (j : Fin 64), y = ix2 p j := ⟨y 0, y 1, eq_ix2 y⟩
  refine (out10_apply (blk0 m c t) (blk1 m c t) (blk2 m c t) (blk3 m c t) (blk4 m c t) (blk5 m c t) (blk6 m c t) (blk7 m c t) (blk8 m c t) (blk9 m c t) p j).trans ?_
  unfold zBlk
  rw [row_blk0, mat_blk1, vecRow_blk2, mat_blk3, vecRow_blk4]
  show _ = (zArr (aX m c) (aW1 m c) (aB1 m c) (aW2 m c) (aB2 m c) : Arr2 8192 64) (((cfg0.win 10).blk t).view.emb (ix2 p j))
  rw [blockEmb_enc]
  rfl

/-- An index lies in block `t` iff each coordinate lies in the block's range on its axis. -/
theorem inBlock_enc (t : Fin cfg0.N) (i : S8192x64.Idx) :
    i ∈ ((cfg0.win 10).blk t).view.set ↔ ∀ a : Fin 2, win0_10.index t a * S512x64.size a ≤ (i a).val ∧ (i a).val < win0_10.index t a * S512x64.size a + S512x64.size a := by
  show i ∈ ((View.whole main_v0_0).slice (win0_10.rect t)).set ↔ _
  rw [View.set_slice_whole, Rect.mem_set_unit]
  exact Iff.rfl

/-- Row `r` lies in the block of point `r / 512`, so the 16 blocks cover the array. -/
theorem covered_enc (i : S8192x64.Idx) : ∃ t : Fin cfg0.N, (cfg0.win 10).flush t = true ∧ i ∈ ((cfg0.win 10).blk t).view.set := by
  have hi0 : (i 0).val < 8192 := (i 0).isLt
  have hi1 : (i 1).val < 64 := (i 1).isLt
  refine ⟨⟨(i 0).val / 512, by rw [N_eq]; omega⟩, flush0_10 _, ?_⟩
  rw [inBlock_enc]
  obtain ⟨e0, e1⟩ := blockIndex_enc ⟨(i 0).val / 512, by rw [N_eq]; omega⟩
  intro a
  match a with
  | ⟨0, _⟩ =>
    show win0_10.index _ (0 : Fin 2) * 512 ≤ (i 0).val ∧ (i 0).val < win0_10.index _ (0 : Fin 2) * 512 + 512
    rw [e0]
    show (i 0).val / 512 * 512 ≤ _ ∧ _ < (i 0).val / 512 * 512 + 512
    omega
  | ⟨1, _⟩ =>
    show win0_10.index _ (1 : Fin 2) * 64 ≤ (i 1).val ∧ (i 1).val < win0_10.index _ (1 : Fin 2) * 64 + 64
    rw [e1]
    omega

theorem final10 (c : Dev nD) : (dats m 0 c).arrAt 10 cfg0.N = zArr (aX m c) (aW1 m c) (aB1 m c) (aW2 m c) (aB2 m c) :=
  (dats m 0 c).arrAt_eq_of_cover 10 (zArr (aX m c) (aW1 m c) (aB1 m c) (aW2 m c) (aB2 m c)) (fun t _ => written_enc m c t) covered_enc

/-! ## Window 11: the soft assignment -/

/-- At grid point `t` the block index of this output is `(t, 0)`. -/
theorem blockIndex_assign : ∀ t : Fin cfg0.N, win0_11.index t (0 : Fin 2) = t.val ∧ win0_11.index t (1 : Fin 2) = 0 :=
  (by decide +kernel : ∀ t : Fin grid0.N, _)

/-- Entry `(p, j)` of block `t` sits at row `512·t + p`, column `j` of the array. -/
theorem blockEmb_assign (t : Fin cfg0.N) (p : Fin 512) (j : Fin 16) :
    ((cfg0.win 11).blk t).view.emb (ix2 p j) = ix2 ⟨512 * t.val + p.val, rowIdx_lt t p⟩ j := by
  obtain ⟨e0, e1⟩ := blockIndex_assign t
  funext a; apply Fin.ext
  match a with
  | ⟨0, _⟩ => show win0_11.index t (0 : Fin 2) * 512 + 1 * p.val = 512 * t.val + p.val; omega
  | ⟨1, _⟩ => show win0_11.index t (1 : Fin 2) * 16 + 1 * j.val = j.val; omega

/-- What point `t` writes back is block `t` of the row-by-row function. -/
theorem written_assign (c : Dev nD) (t : Fin cfg0.N) :
    (dats m 0 c).flushed 11 t = ((cfg0.win 11).blk t).view.read (Elt Ideal) (qArrK (aX m c) (aW1 m c) (aB1 m c) (aW2 m c) (aB2 m c) (aC m c)) := by
  show (cfg0.win 11).cut (grid0.coords t) ((dats m 0 c).after 11 t) = _
  rw [after0_11]
  refine funext fun (y : S512x16.Idx) => ?_
  obtain ⟨p, j, rfl⟩ : ∃ (p : Fin 512) (j : Fin 16), y = ix2 p j := ⟨y 0, y 1, eq_ix2 y⟩
  refine (out11_apply (blk0 m c t) (blk1 m c t) (blk2 m c t) (blk3 m c t) (blk4 m c t) (blk5 m c t) (blk6 m c t) (blk7 m c t) (blk8 m c t) (blk9 m c t) p j).trans ?_
  unfold zBlk
  rw [row_blk0, mat_blk1, vecRow_blk2, mat_blk3, vecRow_blk4, mat_blk9]
  show _ = (qArrK (aX m c) (aW1 m c) (aB1 m c) (aW2 m c) (aB2 m c) (aC m c) : Arr2 8192 16) (((cfg0.win 11).blk t).view.emb (ix2 p j))
  rw [blockEmb_assign]
  rfl

/-- An index lies in block `t` iff each coordinate lies in the block's range on its axis. -/
theorem inBlock_assign (t : Fin cfg0.N) (i : S8192x16.Idx) :
    i ∈ ((cfg0.win 11).blk t).view.set ↔ ∀ a : Fin 2, win0_11.index t a * S512x16.size a ≤ (i a).val ∧ (i a).val < win0_11.index t a * S512x16.size a + S512x16.size a := by
  show i ∈ ((View.whole main_v0_6).slice (win0_11.rect t)).set ↔ _
  rw [View.set_slice_whole, Rect.mem_set_unit]
  exact Iff.rfl

/-- Row `r` lies in the block of point `r / 512`, so the 16 blocks cover the array. -/
theorem covered_assign (i : S8192x16.Idx) : ∃ t : Fin cfg0.N, (cfg0.win 11).flush t = true ∧ i ∈ ((cfg0.win 11).blk t).view.set := by
  have hi0 : (i 0).val < 8192 := (i 0).isLt
  have hi1 : (i 1).val < 16 := (i 1).isLt
  refine ⟨⟨(i 0).val / 512, by rw [N_eq]; omega⟩, flush0_11 _, ?_⟩
  rw [inBlock_assign]
  obtain ⟨e0, e1⟩ := blockIndex_assign ⟨(i 0).val / 512, by rw [N_eq]; omega⟩
  intro a
  match a with
  | ⟨0, _⟩ =>
    show win0_11.index _ (0 : Fin 2) * 512 ≤ (i 0).val ∧ (i 0).val < win0_11.index _ (0 : Fin 2) * 512 + 512
    rw [e0]
    show (i 0).val / 512 * 512 ≤ _ ∧ _ < (i 0).val / 512 * 512 + 512
    omega
  | ⟨1, _⟩ =>
    show win0_11.index _ (1 : Fin 2) * 16 ≤ (i 1).val ∧ (i 1).val < win0_11.index _ (1 : Fin 2) * 16 + 16
    rw [e1]
    omega

theorem final11 (c : Dev nD) : (dats m 0 c).arrAt 11 cfg0.N = qArrK (aX m c) (aW1 m c) (aB1 m c) (aW2 m c) (aB2 m c) (aC m c) :=
  (dats m 0 c).arrAt_eq_of_cover 11 (qArrK (aX m c) (aW1 m c) (aB1 m c) (aW2 m c) (aB2 m c) (aC m c)) (fun t _ => written_assign m c t) covered_assign

/-! ## Window 12: the linear head -/

/-- At grid point `t` the block index of this output is `(t, 0)`. -/
theorem blockIndex_head : ∀ t : Fin cfg0.N, win0_12.index t (0 : Fin 2) = t.val ∧ win0_12.index t (1 : Fin 2) = 0 :=
  (by decide +kernel : ∀ t : Fin grid0.N, _)

/-- Entry `(p, j)` of block `t` sits at row `512·t + p`, column `j` of the array. -/
theorem blockEmb_head (t : Fin cfg0.N) (p : Fin 512) (j : Fin 50) :
    ((cfg0.win 12).blk t).view.emb (ix2 p j) = ix2 ⟨512 * t.val + p.val, rowIdx_lt t p⟩ j := by
  obtain ⟨e0, e1⟩ := blockIndex_head t
  funext a; apply Fin.ext
  match a with
  | ⟨0, _⟩ => show win0_12.index t (0 : Fin 2) * 512 + 1 * p.val = 512 * t.val + p.val; omega
  | ⟨1, _⟩ => show win0_12.index t (1 : Fin 2) * 50 + 1 * j.val = j.val; omega

/-- What point `t` writes back is block `t` of the row-by-row function. -/
theorem written_head (c : Dev nD) (t : Fin cfg0.N) :
    (dats m 0 c).flushed 12 t = ((cfg0.win 12).blk t).view.read (Elt Ideal) (survArrK (aX m c) (aW1 m c) (aB1 m c) (aW2 m c) (aB2 m c) (aWs m c) (aBs m c)) := by
  show (cfg0.win 12).cut (grid0.coords t) ((dats m 0 c).after 12 t) = _
  rw [after0_12]
  refine funext fun (y : S512x50.Idx) => ?_
  obtain ⟨p, j, rfl⟩ : ∃ (p : Fin 512) (j : Fin 50), y = ix2 p j := ⟨y 0, y 1, eq_ix2 y⟩
  refine (out12_apply (blk0 m c t) (blk1 m c t) (blk2 m c t) (blk3 m c t) (blk4 m c t) (blk5 m c t) (blk6 m c t) (blk7 m c t) (blk8 m c t) (blk9 m c t) p j).trans ?_
  unfold zBlk
  rw [row_blk0, mat_blk1, vecRow_blk2, mat_blk3, vecRow_blk4, mat_blk7, vecRow_blk8]
  show _ = (survArrK (aX m c) (aW1 m c) (aB1 m c) (aW2 m c) (aB2 m c) (aWs m c) (aBs m c) : Arr2 8192 50) (((cfg0.win 12).blk t).view.emb (ix2 p j))
  rw [blockEmb_head]
  rfl

/-- An index lies in block `t` iff each coordinate lies in the block's range on its axis. -/
theorem inBlock_head (t : Fin cfg0.N) (i : S8192x50.Idx) :
    i ∈ ((cfg0.win 12).blk t).view.set ↔ ∀ a : Fin 2, win0_12.index t a * S512x50.size a ≤ (i a).val ∧ (i a).val < win0_12.index t a * S512x50.size a + S512x50.size a := by
  show i ∈ ((View.whole main_v0_7).slice (win0_12.rect t)).set ↔ _
  rw [View.set_slice_whole, Rect.mem_set_unit]
  exact Iff.rfl

/-- Row `r` lies in the block of point `r / 512`, so the 16 blocks cover the array. -/
theorem covered_head (i : S8192x50.Idx) : ∃ t : Fin cfg0.N, (cfg0.win 12).flush t = true ∧ i ∈ ((cfg0.win 12).blk t).view.set := by
  have hi0 : (i 0).val < 8192 := (i 0).isLt
  have hi1 : (i 1).val < 50 := (i 1).isLt
  refine ⟨⟨(i 0).val / 512, by rw [N_eq]; omega⟩, flush0_12 _, ?_⟩
  rw [inBlock_head]
  obtain ⟨e0, e1⟩ := blockIndex_head ⟨(i 0).val / 512, by rw [N_eq]; omega⟩
  intro a
  match a with
  | ⟨0, _⟩ =>
    show win0_12.index _ (0 : Fin 2) * 512 ≤ (i 0).val ∧ (i 0).val < win0_12.index _ (0 : Fin 2) * 512 + 512
    rw [e0]
    show (i 0).val / 512 * 512 ≤ _ ∧ _ < (i 0).val / 512 * 512 + 512
    omega
  | ⟨1, _⟩ =>
    show win0_12.index _ (1 : Fin 2) * 50 ≤ (i 1).val ∧ (i 1).val < win0_12.index _ (1 : Fin 2) * 50 + 50
    rw [e1]
    omega

theorem final12 (c : Dev nD) : (dats m 0 c).arrAt 12 cfg0.N = survArrK (aX m c) (aW1 m c) (aB1 m c) (aW2 m c) (aB2 m c) (aWs m c) (aBs m c) :=
  (dats m 0 c).arrAt_eq_of_cover 12 (survArrK (aX m c) (aW1 m c) (aB1 m c) (aW2 m c) (aB2 m c) (aWs m c) (aBs m c)) (fun t _ => written_head m c t) covered_head

/-! ## Window 13: the decoding -/

/-- At grid point `t` the block index of this output is `(t, 0)`. -/
theorem blockIndex_dec : ∀ t : Fin cfg0.N, win0_13.index t (0 : Fin 2) = t.val ∧ win0_13.index t (1 : Fin 2) = 0 :=
  (by decide +kernel : ∀ t : Fin grid0.N, _)

/-- Entry `(p, j)` of block `t` sits at row `512·t + p`, column `j` of the array. -/
theorem blockEmb_dec (t : Fin cfg0.N) (p : Fin 512) (j : Fin 1024) :
    ((cfg0.win 13).blk t).view.emb (ix2 p j) = ix2 ⟨512 * t.val + p.val, rowIdx_lt t p⟩ j := by
  obtain ⟨e0, e1⟩ := blockIndex_dec t
  funext a; apply Fin.ext
  match a with
  | ⟨0, _⟩ => show win0_13.index t (0 : Fin 2) * 512 + 1 * p.val = 512 * t.val + p.val; omega
  | ⟨1, _⟩ => show win0_13.index t (1 : Fin 2) * 1024 + 1 * j.val = j.val; omega

/-- What point `t` writes back is block `t` of the row-by-row function. -/
theorem written_dec (c : Dev nD) (t : Fin cfg0.N) :
    (dats m 0 c).flushed 13 t = ((cfg0.win 13).blk t).view.read (Elt Ideal) (xhatArr (aX m c) (aW1 m c) (aB1 m c) (aW2 m c) (aB2 m c) (aWd m c) (aBd m c)) := by
  show (cfg0.win 13).cut (grid0.coords t) ((dats m 0 c).after 13 t) = _
  rw [after0_13]
  refine funext fun (y : S512x1024.Idx) => ?_
  obtain ⟨p, j, rfl⟩ : ∃ (p : Fin 512) (j : Fin 1024), y = ix2 p j := ⟨y 0, y 1, eq_ix2 y⟩
  refine (out13_apply (blk0 m c t) (blk1 m c t) (blk2 m c t) (blk3 m c t) (blk4 m c t) (blk5 m c t) (blk6 m c t) (blk7 m c t) (blk8 m c t) (blk9 m c t) p j).trans ?_
  unfold zBlk
  rw [row_blk0, mat_blk1, vecRow_blk2, mat_blk3, vecRow_blk4, mat_blk5, vecRow_blk6]
  show _ = (xhatArr (aX m c) (aW1 m c) (aB1 m c) (aW2 m c) (aB2 m c) (aWd m c) (aBd m c) : Arr2 8192 1024) (((cfg0.win 13).blk t).view.emb (ix2 p j))
  rw [blockEmb_dec]
  rfl

/-- An index lies in block `t` iff each coordinate lies in the block's range on its axis. -/
theorem inBlock_dec (t : Fin cfg0.N) (i : S8192x1024.Idx) :
    i ∈ ((cfg0.win 13).blk t).view.set ↔ ∀ a : Fin 2, win0_13.index t a * S512x1024.size a ≤ (i a).val ∧ (i a).val < win0_13.index t a * S512x1024.size a + S512x1024.size a := by
  show i ∈ ((View.whole main_v0_4).slice (win0_13.rect t)).set ↔ _
  rw [View.set_slice_whole, Rect.mem_set_unit]
  exact Iff.rfl

/-- Row `r` lies in the block of point `r / 512`, so the 16 blocks cover the array. -/
theorem covered_dec (i : S8192x1024.Idx) : ∃ t : Fin cfg0.N, (cfg0.win 13).flush t = true ∧ i ∈ ((cfg0.win 13).blk t).view.set := by
  have hi0 : (i 0).val < 8192 := (i 0).isLt
  have hi1 : (i 1).val < 1024 := (i 1).isLt
  refine ⟨⟨(i 0).val / 512, by rw [N_eq]; omega⟩, flush0_13 _, ?_⟩
  rw [inBlock_dec]
  obtain ⟨e0, e1⟩ := blockIndex_dec ⟨(i 0).val / 512, by rw [N_eq]; omega⟩
  intro a
  match a with
  | ⟨0, _⟩ =>
    show win0_13.index _ (0 : Fin 2) * 512 ≤ (i 0).val ∧ (i 0).val < win0_13.index _ (0 : Fin 2) * 512 + 512
    rw [e0]
    show (i 0).val / 512 * 512 ≤ _ ∧ _ < (i 0).val / 512 * 512 + 512
    omega
  | ⟨1, _⟩ =>
    show win0_13.index _ (1 : Fin 2) * 1024 ≤ (i 1).val ∧ (i 1).val < win0_13.index _ (1 : Fin 2) * 1024 + 1024
    rw [e1]
    omega

theorem final13 (c : Dev nD) : (dats m 0 c).arrAt 13 cfg0.N = xhatArr (aX m c) (aW1 m c) (aB1 m c) (aW2 m c) (aB2 m c) (aWd m c) (aBd m c) :=
  (dats m 0 c).arrAt_eq_of_cover 13 (xhatArr (aX m c) (aW1 m c) (aB1 m c) (aW2 m c) (aB2 m c) (aWd m c) (aBd m c)) (fun t _ => written_dec m c t) covered_dec

/-! ## Window 14: the per-row error -/

/-- At grid point `t` the block index of this output is `(t, 0)`. -/
theorem blockIndex_err : ∀ t : Fin cfg0.N, win0_14.index t (0 : Fin 2) = t.val ∧ win0_14.index t (1 : Fin 2) = 0 :=
  (by decide +kernel : ∀ t : Fin grid0.N, _)

/-- Entry `(p, j)` of block `t` sits at row `512·t + p`, column `j` of the array. -/
theorem blockEmb_err (t : Fin cfg0.N) (p : Fin 512) (j : Fin 1) :
    ((cfg0.win 14).blk t).view.emb (ix2 p j) = ix2 ⟨512 * t.val + p.val, rowIdx_lt t p⟩ j := by
  obtain ⟨e0, e1⟩ := blockIndex_err t
  funext a; apply Fin.ext
  match a with
  | ⟨0, _⟩ => show win0_14.index t (0 : Fin 2) * 512 + 1 * p.val = 512 * t.val + p.val; omega
  | ⟨1, _⟩ => show win0_14.index t (1 : Fin 2) * 1 + 1 * j.val = j.val; omega

/-- What point `t` writes back is block `t` of the row-by-row function. -/
theorem written_err (c : Dev nD) (t : Fin cfg0.N) :
    (dats m 0 c).flushed 14 t = ((cfg0.win 14).blk t).view.read (Elt Ideal) (fun i => recArrK (aX m c) (aW1 m c) (aB1 m c) (aW2 m c) (aB2 m c) (aWd m c) (aBd m c) (ix1 (i 0))) := by
  show (cfg0.win 14).cut (grid0.coords t) ((dats m 0 c).after 14 t) = _
  rw [after0_14]
  refine funext fun (y : S512x1.Idx) => ?_
  obtain ⟨p, j, rfl⟩ : ∃ (p : Fin 512) (j : Fin 1), y = ix2 p j := ⟨y 0, y 1, eq_ix2 y⟩
  refine (out14_apply (blk0 m c t) (blk1 m c t) (blk2 m c t) (blk3 m c t) (blk4 m c t) (blk5 m c t) (blk6 m c t) (blk7 m c t) (blk8 m c t) (blk9 m c t) p j).trans ?_
  unfold zBlk
  rw [row_blk0, mat_blk1, vecRow_blk2, mat_blk3, vecRow_blk4, mat_blk5, vecRow_blk6]
  show _ = ((fun i => recArrK (aX m c) (aW1 m c) (aB1 m c) (aW2 m c) (aB2 m c) (aWd m c) (aBd m c) (ix1 (i 0))) : Arr2 8192 1) (((cfg0.win 14).blk t).view.emb (ix2 p j))
  rw [blockEmb_err]
  rfl

/-- An index lies in block `t` iff each coordinate lies in the block's range on its axis. -/
theorem inBlock_err (t : Fin cfg0.N) (i : S8192x1.Idx) :
    i ∈ ((cfg0.win 14).blk t).view.set ↔ ∀ a : Fin 2, win0_14.index t a * S512x1.size a ≤ (i a).val ∧ (i a).val < win0_14.index t a * S512x1.size a + S512x1.size a := by
  show i ∈ ((View.whole main_call0_v4_4).slice (win0_14.rect t)).set ↔ _
  rw [View.set_slice_whole, Rect.mem_set_unit]
  exact Iff.rfl

/-- Row `r` lies in the block of point `r / 512`, so the 16 blocks cover the array. -/
theorem covered_err (i : S8192x1.Idx) : ∃ t : Fin cfg0.N, (cfg0.win 14).flush t = true ∧ i ∈ ((cfg0.win 14).blk t).view.set := by
  have hi0 : (i 0).val < 8192 := (i 0).isLt
  have hi1 : (i 1).val < 1 := (i 1).isLt
  refine ⟨⟨(i 0).val / 512, by rw [N_eq]; omega⟩, flush0_14 _, ?_⟩
  rw [inBlock_err]
  obtain ⟨e0, e1⟩ := blockIndex_err ⟨(i 0).val / 512, by rw [N_eq]; omega⟩
  intro a
  match a with
  | ⟨0, _⟩ =>
    show win0_14.index _ (0 : Fin 2) * 512 ≤ (i 0).val ∧ (i 0).val < win0_14.index _ (0 : Fin 2) * 512 + 512
    rw [e0]
    show (i 0).val / 512 * 512 ≤ _ ∧ _ < (i 0).val / 512 * 512 + 512
    omega
  | ⟨1, _⟩ =>
    show win0_14.index _ (1 : Fin 2) * 1 ≤ (i 1).val ∧ (i 1).val < win0_14.index _ (1 : Fin 2) * 1 + 1
    rw [e1]
    omega

/-- The per-row error, still as a one-column matrix. -/
theorem final14 (c : Dev nD) :
    (dats m 0 c).arrAt 14 cfg0.N = fun i => recArrK (aX m c) (aW1 m c) (aB1 m c) (aW2 m c) (aB2 m c) (aWd m c) (aBd m c) (ix1 (i 0)) :=
  (dats m 0 c).arrAt_eq_of_cover 14 (fun i => recArrK (aX m c) (aW1 m c) (aB1 m c) (aW2 m c) (aB2 m c) (aWd m c) (aBd m c) (ix1 (i 0))) (fun t _ => written_err m c t) covered_err

/-! ## Window 15: the first all-zero output -/

/-- At grid point `t` the block index of this output is `(t, 0)`. -/
theorem blockIndex_zeroA : ∀ t : Fin cfg0.N, win0_15.index t (0 : Fin 2) = t.val ∧ win0_15.index t (1 : Fin 2) = 0 :=
  (by decide +kernel : ∀ t : Fin grid0.N, _)

/-- Entry `(p, j)` of block `t` sits at row `512·t + p`, column `j` of the array. -/
theorem blockEmb_zeroA (t : Fin cfg0.N) (p : Fin 512) (j : Fin 64) :
    ((cfg0.win 15).blk t).view.emb (ix2 p j) = ix2 ⟨512 * t.val + p.val, rowIdx_lt t p⟩ j := by
  obtain ⟨e0, e1⟩ := blockIndex_zeroA t
  funext a; apply Fin.ext
  match a with
  | ⟨0, _⟩ => show win0_15.index t (0 : Fin 2) * 512 + 1 * p.val = 512 * t.val + p.val; omega
  | ⟨1, _⟩ => show win0_15.index t (1 : Fin 2) * 64 + 1 * j.val = j.val; omega

/-- What point `t` writes back is block `t` of the row-by-row function. -/
theorem written_zeroA (c : Dev nD) (t : Fin cfg0.N) :
    (dats m 0 c).flushed 15 t = ((cfg0.win 15).blk t).view.read (Elt Ideal) (zeros2 8192 64) := by
  show (cfg0.win 15).cut (grid0.coords t) ((dats m 0 c).after 15 t) = _
  rw [after0_15]
  refine funext fun (y : S512x64.Idx) => ?_
  obtain ⟨p, j, rfl⟩ : ∃ (p : Fin 512) (j : Fin 64), y = ix2 p j := ⟨y 0, y 1, eq_ix2 y⟩
  refine (out15_apply (blk0 m c t) (blk1 m c t) (blk2 m c t) (blk3 m c t) (blk4 m c t) (blk5 m c t) (blk6 m c t) (blk7 m c t) (blk8 m c t) (blk9 m c t) p j).trans ?_
  show _ = (zeros2 8192 64 : Arr2 8192 64) (((cfg0.win 15).blk t).view.emb (ix2 p j))
  rfl

/-- An index lies in block `t` iff each coordinate lies in the block's range on its axis. -/
theorem inBlock_zeroA (t : Fin cfg0.N) (i : S8192x64.Idx) :
    i ∈ ((cfg0.win 15).blk t).view.set ↔ ∀ a : Fin 2, win0_15.index t a * S512x64.size a ≤ (i a).val ∧ (i a).val < win0_15.index t a * S512x64.size a + S512x64.size a := by
  show i ∈ ((View.whole main_v0_1).slice (win0_15.rect t)).set ↔ _
  rw [View.set_slice_whole, Rect.mem_set_unit]
  exact Iff.rfl

/-- Row `r` lies in the block of point `r / 512`, so the 16 blocks cover the array. -/
theorem covered_zeroA (i : S8192x64.Idx) : ∃ t : Fin cfg0.N, (cfg0.win 15).flush t = true ∧ i ∈ ((cfg0.win 15).blk t).view.set := by
  have hi0 : (i 0).val < 8192 := (i 0).isLt
  have hi1 : (i 1).val < 64 := (i 1).isLt
  refine ⟨⟨(i 0).val / 512, by rw [N_eq]; omega⟩, flush0_15 _, ?_⟩
  rw [inBlock_zeroA]
  obtain ⟨e0, e1⟩ := blockIndex_zeroA ⟨(i 0).val / 512, by rw [N_eq]; omega⟩
  intro a
  match a with
  | ⟨0, _⟩ =>
    show win0_15.index _ (0 : Fin 2) * 512 ≤ (i 0).val ∧ (i 0).val < win0_15.index _ (0 : Fin 2) * 512 + 512
    rw [e0]
    show (i 0).val / 512 * 512 ≤ _ ∧ _ < (i 0).val / 512 * 512 + 512
    omega
  | ⟨1, _⟩ =>
    show win0_15.index _ (1 : Fin 2) * 64 ≤ (i 1).val ∧ (i 1).val < win0_15.index _ (1 : Fin 2) * 64 + 64
    rw [e1]
    omega

theorem final15 (c : Dev nD) : (dats m 0 c).arrAt 15 cfg0.N = zeros2 8192 64 :=
  (dats m 0 c).arrAt_eq_of_cover 15 (zeros2 8192 64) (fun t _ => written_zeroA m c t) covered_zeroA

/-! ## Window 16: the second all-zero output -/

/-- At grid point `t` the block index of this output is `(t, 0)`. -/
theorem blockIndex_zeroB : ∀ t : Fin cfg0.N, win0_16.index t (0 : Fin 2) = t.val ∧ win0_16.index t (1 : Fin 2) = 0 :=
  (by decide +kernel : ∀ t : Fin grid0.N, _)

/-- Entry `(p, j)` of block `t` sits at row `512·t + p`, column `j` of the array. -/
theorem blockEmb_zeroB (t : Fin cfg0.N) (p : Fin 512) (j : Fin 64) :
    ((cfg0.win 16).blk t).view.emb (ix2 p j) = ix2 ⟨512 * t.val + p.val, rowIdx_lt t p⟩ j := by
  obtain ⟨e0, e1⟩ := blockIndex_zeroB t
  funext a; apply Fin.ext
  match a with
  | ⟨0, _⟩ => show win0_16.index t (0 : Fin 2) * 512 + 1 * p.val = 512 * t.val + p.val; omega
  | ⟨1, _⟩ => show win0_16.index t (1 : Fin 2) * 64 + 1 * j.val = j.val; omega

/-- What point `t` writes back is block `t` of the row-by-row function. -/
theorem written_zeroB (c : Dev nD) (t : Fin cfg0.N) :
    (dats m 0 c).flushed 16 t = ((cfg0.win 16).blk t).view.read (Elt Ideal) (zeros2 8192 64) := by
  show (cfg0.win 16).cut (grid0.coords t) ((dats m 0 c).after 16 t) = _
  rw [after0_16]
  refine funext fun (y : S512x64.Idx) => ?_
  obtain ⟨p, j, rfl⟩ : ∃ (p : Fin 512) (j : Fin 64), y = ix2 p j := ⟨y 0, y 1, eq_ix2 y⟩
  refine (out16_apply (blk0 m c t) (blk1 m c t) (blk2 m c t) (blk3 m c t) (blk4 m c t) (blk5 m c t) (blk6 m c t) (blk7 m c t) (blk8 m c t) (blk9 m c t) p j).trans ?_
  show _ = (zeros2 8192 64 : Arr2 8192 64) (((cfg0.win 16).blk t).view.emb (ix2 p j))
  rfl

/-- An index lies in block `t` iff each coordinate lies in the block's range on its axis. -/
theorem inBlock_zeroB (t : Fin cfg0.N) (i : S8192x64.Idx) :
    i ∈ ((cfg0.win 16).blk t).view.set ↔ ∀ a : Fin 2, win0_16.index t a * S512x64.size a ≤ (i a).val ∧ (i a).val < win0_16.index t a * S512x64.size a + S512x64.size a := by
  show i ∈ ((View.whole main_v0_2).slice (win0_16.rect t)).set ↔ _
  rw [View.set_slice_whole, Rect.mem_set_unit]
  exact Iff.rfl

/-- Row `r` lies in the block of point `r / 512`, so the 16 blocks cover the array. -/
theorem covered_zeroB (i : S8192x64.Idx) : ∃ t : Fin cfg0.N, (cfg0.win 16).flush t = true ∧ i ∈ ((cfg0.win 16).blk t).view.set := by
  have hi0 : (i 0).val < 8192 := (i 0).isLt
  have hi1 : (i 1).val < 64 := (i 1).isLt
  refine ⟨⟨(i 0).val / 512, by rw [N_eq]; omega⟩, flush0_16 _, ?_⟩
  rw [inBlock_zeroB]
  obtain ⟨e0, e1⟩ := blockIndex_zeroB ⟨(i 0).val / 512, by rw [N_eq]; omega⟩
  intro a
  match a with
  | ⟨0, _⟩ =>
    show win0_16.index _ (0 : Fin 2) * 512 ≤ (i 0).val ∧ (i 0).val < win0_16.index _ (0 : Fin 2) * 512 + 512
    rw [e0]
    show (i 0).val / 512 * 512 ≤ _ ∧ _ < (i 0).val / 512 * 512 + 512
    omega
  | ⟨1, _⟩ =>
    show win0_16.index _ (1 : Fin 2) * 64 ≤ (i 1).val ∧ (i 1).val < win0_16.index _ (1 : Fin 2) * 64 + 64
    rw [e1]
    omega

theorem final16 (c : Dev nD) : (dats m 0 c).arrAt 16 cfg0.N = zeros2 8192 64 :=
  (dats m 0 c).arrAt_eq_of_cover 16 (zeros2 8192 64) (fun t _ => written_zeroB m c t) covered_zeroB

/-! ## Window 17: the all-zero column -/

/-- At grid point `t` the block index of this output is `(t, 0)`. -/
theorem blockIndex_zeroC : ∀ t : Fin cfg0.N, win0_17.index t (0 : Fin 2) = t.val ∧ win0_17.index t (1 : Fin 2) = 0 :=
  (by decide +kernel : ∀ t : Fin grid0.N, _)

/-- Entry `(p, j)` of block `t` sits at row `512·t + p`, column `j` of the array. -/
theorem blockEmb_zeroC (t : Fin cfg0.N) (p : Fin 512) (j : Fin 1) :
    ((cfg0.win 17).blk t).view.emb (ix2 p j) = ix2 ⟨512 * t.val + p.val, rowIdx_lt t p⟩ j := by
  obtain ⟨e0, e1⟩ := blockIndex_zeroC t
  funext a; apply Fin.ext
  match a with
  | ⟨0, _⟩ => show win0_17.index t (0 : Fin 2) * 512 + 1 * p.val = 512 * t.val + p.val; omega
  | ⟨1, _⟩ => show win0_17.index t (1 : Fin 2) * 1 + 1 * j.val = j.val; omega

/-- What point `t` writes back is block `t` of the row-by-row function. -/
theorem written_zeroC (c : Dev nD) (t : Fin cfg0.N) :
    (dats m 0 c).flushed 17 t = ((cfg0.win 17).blk t).view.read (Elt Ideal) (zeros2 8192 1) := by
  show (cfg0.win 17).cut (grid0.coords t) ((dats m 0 c).after 17 t) = _
  rw [after0_17]
  refine funext fun (y : S512x1.Idx) => ?_
  obtain ⟨p, j, rfl⟩ : ∃ (p : Fin 512) (j : Fin 1), y = ix2 p j := ⟨y 0, y 1, eq_ix2 y⟩
  refine (out17_apply (blk0 m c t) (blk1 m c t) (blk2 m c t) (blk3 m c t) (blk4 m c t) (blk5 m c t) (blk6 m c t) (blk7 m c t) (blk8 m c t) (blk9 m c t) p j).trans ?_
  show _ = (zeros2 8192 1 : Arr2 8192 1) (((cfg0.win 17).blk t).view.emb (ix2 p j))
  rfl

/-- An index lies in block `t` iff each coordinate lies in the block's range on its axis. -/
theorem inBlock_zeroC (t : Fin cfg0.N) (i : S8192x1.Idx) :
    i ∈ ((cfg0.win 17).blk t).view.set ↔ ∀ a : Fin 2, win0_17.index t a * S512x1.size a ≤ (i a).val ∧ (i a).val < win0_17.index t a * S512x1.size a + S512x1.size a := by
  show i ∈ ((View.whole main_call0_v4_7).slice (win0_17.rect t)).set ↔ _
  rw [View.set_slice_whole, Rect.mem_set_unit]
  exact Iff.rfl

/-- Row `r` lies in the block of point `r / 512`, so the 16 blocks cover the array. -/
theorem covered_zeroC (i : S8192x1.Idx) : ∃ t : Fin cfg0.N, (cfg0.win 17).flush t = true ∧ i ∈ ((cfg0.win 17).blk t).view.set := by
  have hi0 : (i 0).val < 8192 := (i 0).isLt
  have hi1 : (i 1).val < 1 := (i 1).isLt
  refine ⟨⟨(i 0).val / 512, by rw [N_eq]; omega⟩, flush0_17 _, ?_⟩
  rw [inBlock_zeroC]
  obtain ⟨e0, e1⟩ := blockIndex_zeroC ⟨(i 0).val / 512, by rw [N_eq]; omega⟩
  intro a
  match a with
  | ⟨0, _⟩ =>
    show win0_17.index _ (0 : Fin 2) * 512 ≤ (i 0).val ∧ (i 0).val < win0_17.index _ (0 : Fin 2) * 512 + 512
    rw [e0]
    show (i 0).val / 512 * 512 ≤ _ ∧ _ < (i 0).val / 512 * 512 + 512
    omega
  | ⟨1, _⟩ =>
    show win0_17.index _ (1 : Fin 2) * 1 ≤ (i 1).val ∧ (i 1).val < win0_17.index _ (1 : Fin 2) * 1 + 1
    rw [e1]
    omega

theorem final17 (c : Dev nD) : (dats m 0 c).arrAt 17 cfg0.N = zeros2 8192 1 :=
  (dats m 0 c).arrAt_eq_of_cover 17 (zeros2 8192 1) (fun t _ => written_zeroC m c t) covered_zeroC

end Cert.KernelIdeal.Arrays

end
-- ==== Proof.KRun.lean ====
/-
  The idealized kernel's run with every result named: the pallas_call's arrays are the row-by-row functions of the
  arguments, the two one-column results are flattened by the host lines after the call, and the arguments end as launched.
-/
import proofs.«136008_g16879221473979_cont_7to1_943_9_alg».proof.Proof.Gen.KernelIdeal.Frame
import proofs.«136008_g16879221473979_cont_7to1_943_9_alg».proof.Proof.KArr
import Idealize.ShloMosaic.Lib.Pipeline.Value
import Idealize.ShloMosaic.Lib.StableHlo.Run

set_option maxRecDepth 16384

noncomputable section

open scoped BigOperators

namespace Cert.KernelIdeal.RunValue

open Idealize.ShloMosaic Idealize.ShloMosaic.TcCoe Idealize.ShloMosaic.ValueIdx Idealize.SL.Sem
open Cert.KernelIdeal Cert.KernelIdeal.Gen Cert.KernelIdeal.Arrays Cert.Spec

variable (m : (ℓ : Loc nD τ sig) → Buf (Elt Ideal) ℓ) (ρ : Dev nD → PrngReg)

/-! ## What a run of the frame leaves

The frame's run ends with every array of the pipeline at what the sixteen write-backs left and every other unscoped
buffer at what the two host lines after the call make of those arrays. -/

/-- The post of the frame's run. -/
abbrev Post (r : PUnit × MemSt nD τ sig (Elt Ideal)) : Prop :=
  Pipeline.FramePost cfgs (dats m) 0 (Pipeline.afterTail₀ cfgs (dats m) 0 (V0 m) [hostOps1]) r

/-! ## The six results that are arrays of the pipeline -/

theorem post_v0_0 (r : PUnit × MemSt nD τ sig (Elt Ideal)) (h : Post m r) (c : Dev nD) :
    r.2.mem ((c.tc : Thread nD τ).loc main_v0_0) = zArr (aX m c) (aW1 m c) (aB1 m c) (aW2 m c) (aB2 m c) :=
  ((h c).1 10).trans (final10 m c)

theorem post_v0_6 (r : PUnit × MemSt nD τ sig (Elt Ideal)) (h : Post m r) (c : Dev nD) :
    r.2.mem ((c.tc : Thread nD τ).loc main_v0_6) = qArrK (aX m c) (aW1 m c) (aB1 m c) (aW2 m c) (aB2 m c) (aC m c) :=
  ((h c).1 11).trans (final11 m c)

theorem post_v0_7 (r : PUnit × MemSt nD τ sig (Elt Ideal)) (h : Post m r) (c : Dev nD) :
    r.2.mem ((c.tc : Thread nD τ).loc main_v0_7) = survArrK (aX m c) (aW1 m c) (aB1 m c) (aW2 m c) (aB2 m c) (aWs m c) (aBs m c) :=
  ((h c).1 12).trans (final12 m c)

theorem post_v0_4 (r : PUnit × MemSt nD τ sig (Elt Ideal)) (h : Post m r) (c : Dev nD) :
    r.2.mem ((c.tc : Thread nD τ).loc main_v0_4) = xhatArr (aX m c) (aW1 m c) (aB1 m c) (aW2 m c) (aB2 m c) (aWd m c) (aBd m c) :=
  ((h c).1 13).trans (final13 m c)

theorem post_v0_1 (r : PUnit × MemSt nD τ sig (Elt Ideal)) (h : Post m r) (c : Dev nD) :
    r.2.mem ((c.tc : Thread nD τ).loc main_v0_1) = zeros2 8192 64 :=
  ((h c).1 15).trans (final15 m c)

theorem post_v0_2 (r : PUnit × MemSt nD τ sig (Elt Ideal)) (h : Post m r) (c : Dev nD) :
    r.2.mem ((c.tc : Thread nD τ).loc main_v0_2) = zeros2 8192 64 :=
  ((h c).1 16).trans (final16 m c)

/-! ## The two results the host flattens

A one-column matrix `[n, 1]` and the vector `[n]` list the same `n` numbers in the same order: entry `r` of the
vector is entry `(r, 0)` of the matrix. -/

/-- A one-column matrix flattened to a vector reads its coordinate `r` at row `r`, column `0`. -/
theorem shapeCast_col_apply {n : Nat} {α : Type} (x : (⟨2, ![n, 1]⟩ : Shape).Idx → α)
    (h : (⟨2, ![n, 1]⟩ : Shape).ShapeCasts ⟨1, ![n]⟩) (r : Fin n) :
    shapeCast ⟨1, ![n]⟩ x h (ix1 r) = x (ix2 r 0) := by
  refine shapeCast_apply x h (ix1 r) (ix2 r 0) ?_
  rw [Shape.rowMajor_val_one, Shape.rowMajor_val_two]
  show r.val * 1 + 0 = r.val
  omega

/-- The per-row error as a vector: the flattening of the pipeline's one-column array of it. -/
theorem tail_v0_5 (c : Dev nD) :
    Pipeline.afterTail₀ cfgs (dats m) 0 (V0 m) [hostOps1] c main_v0_5
      = recArrK (aX m c) (aW1 m c) (aB1 m c) (aW2 m c) (aB2 m c) (aWd m c) (aBd m c) := by
  have e : Pipeline.withArrays (cfgs 0).spec c (V0 m c) (fun w => (dats m 0 c).arrAt w (cfgs 0).N)
      (Proc.devRef .tc main_call0_v4_4)
        = fun i => recArrK (aX m c) (aW1 m c) (aB1 m c) (aW2 m c) (aB2 m c) (aWd m c) (aBd m c) (ix1 (i 0)) :=
    (Pipeline.withArrays_arr spec0 launch0.win.arr_inj c _ _ 14).trans (final14 m c)
  unfold Pipeline.afterTail₀
  show StableHlo.after hostOps1 _ (Proc.devRef .tc main_v0_5) = _
  after_results
  funext i
  rw [eq_ix1 i]
  show shapeCast S8192 (Pipeline.withArrays (cfgs 0).spec c (V0 m c) (fun w => (dats m 0 c).arrAt w (cfgs 0).N)
      (Proc.devRef .tc main_call0_v4_4)) shapeCasts_S8192x1_S8192 (ix1 (i 0)) = _
  rw [e]
  exact shapeCast_col_apply _ _ (i 0)

/-- The flattening of the all-zero one-column array is the all-zero vector. -/
theorem tail_v0_3 (c : Dev nD) :
    Pipeline.afterTail₀ cfgs (dats m) 0 (V0 m) [hostOps1] c main_v0_3 = zeros1 8192 := by
  have e : Pipeline.withArrays (cfgs 0).spec c (V0 m c) (fun w => (dats m 0 c).arrAt w (cfgs 0).N)
      (Proc.devRef .tc main_call0_v4_7) = zeros2 8192 1 :=
    (Pipeline.withArrays_arr spec0 launch0.win.arr_inj c _ _ 17).trans (final17 m c)
  unfold Pipeline.afterTail₀
  show StableHlo.after hostOps1 _ (Proc.devRef .tc main_v0_3) = _
  after_results
  funext i
  show shapeCast S8192 (Pipeline.withArrays (cfgs 0).spec c (V0 m c) (fun w => (dats m 0 c).arrAt w (cfgs 0).N)
      (Proc.devRef .tc main_call0_v4_7)) shapeCasts_S8192x1_S8192 i = _
  rw [e]
  rfl

theorem post_v0_5 (r : PUnit × MemSt nD τ sig (Elt Ideal)) (h : Post m r) (c : Dev nD) :
    r.2.mem ((c.tc : Thread nD τ).loc main_v0_5) = recArrK (aX m c) (aW1 m c) (aB1 m c) (aW2 m c) (aB2 m c) (aWd m c) (aBd m c) :=
  ((h c).2 main_v0_5 (Pipeline.mem_restRefs_of main_v0_5 (by decide) (by decide))).trans (tail_v0_5 m c)

theorem post_v0_3 (r : PUnit × MemSt nD τ sig (Elt Ideal)) (h : Post m r) (c : Dev nD) :
    r.2.mem ((c.tc : Thread nD τ).loc main_v0_3) = zeros1 8192 :=
  ((h c).2 main_v0_3 (Pipeline.mem_restRefs_of main_v0_3 (by decide) (by decide))).trans (tail_v0_3 m c)

/-! ## The arguments end as launched

Six argument arrays are staged by input windows, which the pipeline only reads; the four bias vectors are staged by no
window (the call reads their one-row broadcasts) and no host line writes them. -/

theorem post_arg0 (r : PUnit × MemSt nD τ sig (Elt Ideal)) (h : Post m r) (c : Dev nD) :
    r.2.mem ((c.tc : Thread nD τ).loc main_arg0) = m ((c.tc : Thread nD τ).loc main_arg0) :=
  ((h c).1 0).trans (((dats m 0 c).arrAt_in 0 rfl _).trans ((A_eq m c 0).trans (V_main_arg0 m c)))

theorem post_arg1 (r : PUnit × MemSt nD τ sig (Elt Ideal)) (h : Post m r) (c : Dev nD) :
    r.2.mem ((c.tc : Thread nD τ).loc main_arg1) = m ((c.tc : Thread nD τ).loc main_arg1) :=
  ((h c).1 1).trans (((dats m 0 c).arrAt_in 1 rfl _).trans ((A_eq m c 1).trans (V_main_arg1 m c)))

theorem post_arg2 (r : PUnit × MemSt nD τ sig (Elt Ideal)) (h : Post m r) (c : Dev nD) :
    r.2.mem ((c.tc : Thread nD τ).loc main_arg2) = m ((c.tc : Thread nD τ).loc main_arg2) :=
  ((h c).2 main_arg2 (Pipeline.mem_restRefs_of main_arg2 (by decide) (by decide))).trans (W_main_arg2 m (dats m) c)

theorem post_arg3 (r : PUnit × MemSt nD τ sig (Elt Ideal)) (h : Post m r) (c : Dev nD) :
    r.2.mem ((c.tc : Thread nD τ).loc main_arg3) = m ((c.tc : Thread nD τ).loc main_arg3) :=
  ((h c).1 3).trans (((dats m 0 c).arrAt_in 3 rfl _).trans ((A_eq m c 3).trans (V_main_arg3 m c)))

theorem post_arg4 (r : PUnit × MemSt nD τ sig (Elt Ideal)) (h : Post m r) (c : Dev nD) :
    r.2.mem ((c.tc : Thread nD τ).loc main_arg4) = m ((c.tc : Thread nD τ).loc main_arg4) :=
  ((h c).2 main_arg4 (Pipeline.mem_restRefs_of main_arg4 (by decide) (by decide))).trans (W_main_arg4 m (dats m) c)

theorem post_arg5 (r : PUnit × MemSt nD τ sig (Elt Ideal)) (h : Post m r) (c : Dev nD) :
    r.2.mem ((c.tc : Thread nD τ).loc main_arg5) = m ((c.tc : Thread nD τ).loc main_arg5) :=
  ((h c).1 5).trans (((dats m 0 c).arrAt_in 5 rfl _).trans ((A_eq m c 5).trans (V_main_arg5 m c)))

theorem post_arg6 (r : PUnit × MemSt nD τ sig (Elt Ideal)) (h : Post m r) (c : Dev nD) :
    r.2.mem ((c.tc : Thread nD τ).loc main_arg6) = m ((c.tc : Thread nD τ).loc main_arg6) :=
  ((h c).2 main_arg6 (Pipeline.mem_restRefs_of main_arg6 (by decide) (by decide))).trans (W_main_arg6 m (dats m) c)

theorem post_arg7 (r : PUnit × MemSt nD τ sig (Elt Ideal)) (h : Post m r) (c : Dev nD) :
    r.2.mem ((c.tc : Thread nD τ).loc main_arg7) = m ((c.tc : Thread nD τ).loc main_arg7) :=
  ((h c).1 7).trans (((dats m 0 c).arrAt_in 7 rfl _).trans ((A_eq m c 7).trans (V_main_arg7 m c)))

theorem post_arg8 (r : PUnit × MemSt nD τ sig (Elt Ideal)) (h : Post m r) (c : Dev nD) :
    r.2.mem ((c.tc : Thread nD τ).loc main_arg8) = m ((c.tc : Thread nD τ).loc main_arg8) :=
  ((h c).2 main_arg8 (Pipeline.mem_restRefs_of main_arg8 (by decide) (by decide))).trans (W_main_arg8 m (dats m) c)

theorem post_arg9 (r : PUnit × MemSt nD τ sig (Elt Ideal)) (h : Post m r) (c : Dev nD) :
    r.2.mem ((c.tc : Thread nD τ).loc main_arg9) = m ((c.tc : Thread nD τ).loc main_arg9) :=
  ((h c).1 9).trans (((dats m 0 c).arrAt_in 9 rfl _).trans ((A_eq m c 9).trans (V_main_arg9 m c)))

/-! ## The run -/

theorem run : θ_run (defs (F := Ideal)) (onTc (τ := τ) (main (F := Ideal))) ⟨m, fun _ => 0, ρ⟩ fun r => ∀ c : Dev nD,
      r.2.mem ((c.tc : Thread nD τ).loc main_v0_0) = zArr (aX m c) (aW1 m c) (aB1 m c) (aW2 m c) (aB2 m c)
      ∧ r.2.mem ((c.tc : Thread nD τ).loc main_v0_1) = zeros2 8192 64
      ∧ r.2.mem ((c.tc : Thread nD τ).loc main_v0_2) = zeros2 8192 64
      ∧ r.2.mem ((c.tc : Thread nD τ).loc main_v0_3) = zeros1 8192
      ∧ r.2.mem ((c.tc : Thread nD τ).loc main_v0_4) = xhatArr (aX m c) (aW1 m c) (aB1 m c) (aW2 m c) (aB2 m c) (aWd m c) (aBd m c)
      ∧ r.2.mem ((c.tc : Thread nD τ).loc main_v0_5) = recArrK (aX m c) (aW1 m c) (aB1 m c) (aW2 m c) (aB2 m c) (aWd m c) (aBd m c)
      ∧ r.2.mem ((c.tc : Thread nD τ).loc main_v0_6) = qArrK (aX m c) (aW1 m c) (aB1 m c) (aW2 m c) (aB2 m c) (aC m c)
      ∧ r.2.mem ((c.tc : Thread nD τ).loc main_v0_7) = survArrK (aX m c) (aW1 m c) (aB1 m c) (aW2 m c) (aB2 m c) (aWs m c) (aBs m c)
      ∧ r.2.mem ((c.tc : Thread nD τ).loc main_arg9) = m ((c.tc : Thread nD τ).loc main_arg9)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun r h c =>
    ⟨post_v0_0 m r h c, post_v0_1 m r h c, post_v0_2 m r h c, post_v0_3 m r h c, post_v0_4 m r h c, post_v0_5 m r h c,
      post_v0_6 m r h c, post_v0_7 m r h c, post_arg9 m r h c, post_arg0 m r h c, post_arg1 m r h c, post_arg2 m r h c,
      post_arg3 m r h c, post_arg4 m r h c, post_arg5 m r h c, post_arg6 m r h c, post_arg7 m r h c, post_arg8 m r h c,
      post_arg9 m r h c⟩) (run_main m ρ)

end Cert.KernelIdeal.RunValue

end
-- ==== Proof.RefZ.lean ====
/-
  The reference's encoder, decoder, mean squared error and zero results, each stage read at an index: the encoding of
  row r is the two host matrix products read as sums over the contracted axis with the biases broadcast and the relu a
  maximum with zero; the decoding one more product and bias; the error the host's sum over a row of the squared
  differences divided by 1024; the remaining three results are broadcasts of the zero constant.
-/
import proofs.«136008_g16879221473979_cont_7to1_943_9_alg».proof.Proof.Gen.ReferenceIdeal.Read
import proofs.«136008_g16879221473979_cont_7to1_943_9_alg».proof.Proof.Spec
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost

noncomputable section

open scoped BigOperators

namespace Cert.ReferenceIdeal.RefValue

open Idealize.ShloMosaic Idealize.ShloMosaic.ValueIdx Cert.ReferenceIdeal Cert.ReferenceIdeal.Gen Cert.ReferenceIdeal.Read Cert.Spec

/-- The hidden layer of the reference at row `r`, unit `k`: the first matrix product read as a sum over the 1024
    contracted columns, plus the broadcast bias, joined with the broadcast zero. -/
theorem v4_at (x0 : (⟨S8192x1024, .f32⟩ : BufTy).Contents (Elt Ideal)) (x1 : (⟨S1024x512, .f32⟩ : BufTy).Contents (Elt Ideal)) (x2 : (⟨S512, .f32⟩ : BufTy).Contents (Elt Ideal)) (r : Fin 8192) (k : Fin 512) :
    val_main_v4 x0 x1 x2 (ix2 r k) = hid (row x0 r) (mat x1) (vec x2) k := by
  rw [val_main_v4_apply, val_main_v3_apply, val_main_v0_apply, val_main_v2_apply, val_main_v1_apply,
    val_main_call0_v0_apply, val_main_call0_cst_apply]
  have hb : idx_main_v1 (idx_main_v2 (ix2 r k)) = ix1 k :=
    funext fun a => Fin.ext (by match a with | ⟨0, _⟩ => rfl)
  rw [hb, Ideal.maximumf_def, Ideal.addf_def, Ideal.ofBits_def, Ideal.ofBits_zero_f32]
  unfold hid
  refine congrArg₂ max (congrArg₂ (· + ·) (Finset.sum_congr rfl fun i _ => ?_) rfl) rfl
  have hl : lidx_main_v0 (ix2 r k) i = ix2 r i :=
    funext fun a => Fin.ext (by match a with | ⟨0, _⟩ => rfl | ⟨1, _⟩ => rfl)
  have hr : ridx_main_v0 (ix2 r k) i = ix2 i k :=
    funext fun a => Fin.ext (by match a with | ⟨0, _⟩ => rfl | ⟨1, _⟩ => rfl)
  rw [hl, hr]
  rfl

/-- The reference's encoding at row `r`, coordinate `j`: the second matrix product read as a sum over the 512 hidden
    units, plus the broadcast bias. -/
theorem v8_at (x0 : (⟨S8192x1024, .f32⟩ : BufTy).Contents (Elt Ideal)) (x1 : (⟨S1024x512, .f32⟩ : BufTy).Contents (Elt Ideal)) (x2 : (⟨S512, .f32⟩ : BufTy).Contents (Elt Ideal))
    (x3 : (⟨S512x64, .f32⟩ : BufTy).Contents (Elt Ideal)) (x4 : (⟨S64, .f32⟩ : BufTy).Contents (Elt Ideal)) (r : Fin 8192) (j : Fin 64) :
    val_main_v8 x0 x1 x2 x3 x4 (ix2 r j) = zRow x0 x1 x2 x3 x4 r j := by
  rw [val_main_v8_apply, val_main_v5_apply, val_main_v7_apply, val_main_v6_apply]
  have hb : idx_main_v6 (idx_main_v7 (ix2 r j)) = ix1 j :=
    funext fun a => Fin.ext (by match a with | ⟨0, _⟩ => rfl)
  rw [hb, Ideal.addf_def]
  unfold zRow enc
  refine congrArg₂ (· + ·) (Finset.sum_congr rfl fun k _ => ?_) rfl
  have hl : lidx_main_v5 (ix2 r j) k = ix2 r k :=
    funext fun a => Fin.ext (by match a with | ⟨0, _⟩ => rfl | ⟨1, _⟩ => rfl)
  have hr : ridx_main_v5 (ix2 r j) k = ix2 k j :=
    funext fun a => Fin.ext (by match a with | ⟨0, _⟩ => rfl | ⟨1, _⟩ => rfl)
  rw [hl, hr, v4_at]
  rfl

theorem v8_eq (x0 : (⟨S8192x1024, .f32⟩ : BufTy).Contents (Elt Ideal)) (x1 : (⟨S1024x512, .f32⟩ : BufTy).Contents (Elt Ideal)) (x2 : (⟨S512, .f32⟩ : BufTy).Contents (Elt Ideal))
    (x3 : (⟨S512x64, .f32⟩ : BufTy).Contents (Elt Ideal)) (x4 : (⟨S64, .f32⟩ : BufTy).Contents (Elt Ideal)) :
    val_main_v8 x0 x1 x2 x3 x4 = zArr x0 x1 x2 x3 x4 := by
  funext i
  obtain ⟨r, j, rfl⟩ : ∃ (r : Fin 8192) (j : Fin 64), i = ix2 r j := ⟨i 0, i 1, eq_ix2 i⟩
  exact v8_at x0 x1 x2 x3 x4 r j

/-- The broadcast of the zero constant over a matrix is the zero matrix. -/
theorem v9_eq : val_main_v9 (F := Ideal) = zeros2 8192 64 := by
  funext i
  rw [val_main_v9_apply, val_main_cst_apply, Ideal.ofBits_def]
  exact Ideal.ofBits_zero_f32

theorem v10_eq : val_main_v10 (F := Ideal) = zeros2 8192 64 := by
  funext i
  rw [val_main_v10_apply, val_main_cst_0_apply, Ideal.ofBits_def]
  exact Ideal.ofBits_zero_f32

theorem v52_eq : val_main_v52 (F := Ideal) = zeros1 8192 := by
  funext i
  rw [val_main_v52_apply, val_main_cst_10_apply, Ideal.ofBits_def]
  exact Ideal.ofBits_zero_f32

/-- The reference's decoding at row `r`, column `d`: the third matrix product read as a sum over the 64 coordinates
    of the encoding, plus the broadcast bias. -/
theorem v46_at (x0 : (⟨S8192x1024, .f32⟩ : BufTy).Contents (Elt Ideal)) (x1 : (⟨S1024x512, .f32⟩ : BufTy).Contents (Elt Ideal)) (x2 : (⟨S512, .f32⟩ : BufTy).Contents (Elt Ideal))
    (x3 : (⟨S512x64, .f32⟩ : BufTy).Contents (Elt Ideal)) (x4 : (⟨S64, .f32⟩ : BufTy).Contents (Elt Ideal))
    (x5 : (⟨S64x1024, .f32⟩ : BufTy).Contents (Elt Ideal)) (x6 : (⟨S1024, .f32⟩ : BufTy).Contents (Elt Ideal)) (r : Fin 8192) (d : Fin 1024) :
    val_main_v46 x0 x1 x2 x3 x4 x5 x6 (ix2 r d) = xhatRow x0 x1 x2 x3 x4 x5 x6 r d := by
  rw [val_main_v46_apply, val_main_v43_apply, val_main_v45_apply, val_main_v44_apply]
  have hb : idx_main_v44 (idx_main_v45 (ix2 r d)) = ix1 d :=
    funext fun a => Fin.ext (by match a with | ⟨0, _⟩ => rfl)
  rw [hb, Ideal.addf_def]
  unfold xhatRow dec
  refine congrArg₂ (· + ·) (Finset.sum_congr rfl fun k _ => ?_) rfl
  have hl : lidx_main_v43 (ix2 r d) k = ix2 r k :=
    funext fun a => Fin.ext (by match a with | ⟨0, _⟩ => rfl | ⟨1, _⟩ => rfl)
  have hr : ridx_main_v43 (ix2 r d) k = ix2 k d :=
    funext fun a => Fin.ext (by match a with | ⟨0, _⟩ => rfl | ⟨1, _⟩ => rfl)
  rw [hl, hr, v8_at]
  rfl

theorem v46_eq (x0 : (⟨S8192x1024, .f32⟩ : BufTy).Contents (Elt Ideal)) (x1 : (⟨S1024x512, .f32⟩ : BufTy).Contents (Elt Ideal)) (x2 : (⟨S512, .f32⟩ : BufTy).Contents (Elt Ideal))
    (x3 : (⟨S512x64, .f32⟩ : BufTy).Contents (Elt Ideal)) (x4 : (⟨S64, .f32⟩ : BufTy).Contents (Elt Ideal))
    (x5 : (⟨S64x1024, .f32⟩ : BufTy).Contents (Elt Ideal)) (x6 : (⟨S1024, .f32⟩ : BufTy).Contents (Elt Ideal)) :
    val_main_v46 x0 x1 x2 x3 x4 x5 x6 = xhatArr x0 x1 x2 x3 x4 x5 x6 := by
  funext i
  obtain ⟨r, d, rfl⟩ : ∃ (r : Fin 8192) (d : Fin 1024), i = ix2 r d := ⟨i 0, i 1, eq_ix2 i⟩
  exact v46_at x0 x1 x2 x3 x4 x5 x6 r d

/-- The reference's mean squared error of row `r`: the zero initial value plus the sum over the 1024 columns of the
    squared differences, divided by the word of 1024. -/
theorem v51_at (x0 : (⟨S8192x1024, .f32⟩ : BufTy).Contents (Elt Ideal)) (x1 : (⟨S1024x512, .f32⟩ : BufTy).Contents (Elt Ideal)) (x2 : (⟨S512, .f32⟩ : BufTy).Contents (Elt Ideal))
    (x3 : (⟨S512x64, .f32⟩ : BufTy).Contents (Elt Ideal)) (x4 : (⟨S64, .f32⟩ : BufTy).Contents (Elt Ideal))
    (x5 : (⟨S64x1024, .f32⟩ : BufTy).Contents (Elt Ideal)) (x6 : (⟨S1024, .f32⟩ : BufTy).Contents (Elt Ideal)) (r : Fin 8192) :
    val_main_v51 x0 x1 x2 x3 x4 x5 x6 (ix1 r)
      = recR (xhatRow x0 x1 x2 x3 x4 x5 x6 r) (row x0 r) := by
  rw [val_main_v51_apply, val_main_v49_apply, val_main_v50_apply, val_main_cst_9_apply, val_main_cst_8_apply,
    Ideal.hostDivf_def, Ideal.ofBits_def, Ideal.ofBits_def, Ideal.ofBits_zero_f32, zero_add]
  unfold recR sqErr
  refine congrArg₂ Ideal.div (Finset.sum_congr rfl fun k _ => ?_) rfl
  have hi : idx_main_v49 (ix1 r) k = ix2 r k :=
    funext fun a => Fin.ext (by match a with | ⟨0, _⟩ => rfl | ⟨1, _⟩ => rfl)
  rw [hi, val_main_v48_apply, val_main_v47_apply, v46_at, Ideal.mulf_def, Ideal.subf_def]
  rfl

theorem v51_eq (x0 : (⟨S8192x1024, .f32⟩ : BufTy).Contents (Elt Ideal)) (x1 : (⟨S1024x512, .f32⟩ : BufTy).Contents (Elt Ideal)) (x2 : (⟨S512, .f32⟩ : BufTy).Contents (Elt Ideal))
    (x3 : (⟨S512x64, .f32⟩ : BufTy).Contents (Elt Ideal)) (x4 : (⟨S64, .f32⟩ : BufTy).Contents (Elt Ideal))
    (x5 : (⟨S64x1024, .f32⟩ : BufTy).Contents (Elt Ideal)) (x6 : (⟨S1024, .f32⟩ : BufTy).Contents (Elt Ideal)) :
    val_main_v51 x0 x1 x2 x3 x4 x5 x6 = recArrR x0 x1 x2 x3 x4 x5 x6 := by
  funext i
  obtain ⟨r, rfl⟩ : ∃ r : Fin 8192, i = ix1 r := ⟨i 0, eq_ix1 i⟩
  exact v51_at x0 x1 x2 x3 x4 x5 x6 r

end Cert.ReferenceIdeal.RefValue

end
-- ==== Proof.RefQ.lean ====
/-
  The reference's soft assignment read at an index: the squared distance of row r's encoding to centre a is the host's
  sum over the last axis of the squared differences of the two broadcasts; its logit is minus the logarithm of one plus
  it; the soft-max subtracts the row maximum (a host maximum-reduce from -∞, read as a fold), then subtracts the shifted
  row's own maximum joined with -∞, exponentiates, and divides by the row sum.
-/
import proofs.«136008_g16879221473979_cont_7to1_943_9_alg».proof.Proof.Gen.ReferenceIdeal.Read
import proofs.«136008_g16879221473979_cont_7to1_943_9_alg».proof.Proof.Spec
import proofs.«136008_g16879221473979_cont_7to1_943_9_alg».proof.Proof.RefZ
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost

noncomputable section

open scoped BigOperators

namespace Cert.ReferenceIdeal.RefValue

open Idealize.ShloMosaic Idealize.ShloMosaic.ValueIdx Cert.ReferenceIdeal Cert.ReferenceIdeal.Gen Cert.ReferenceIdeal.Read Cert.Spec

/-- The encoding array at row `r`, column `k`. -/
theorem refQ_z_at (x0 : (⟨S8192x1024, .f32⟩ : BufTy).Contents (Elt Ideal)) (x1 : (⟨S1024x512, .f32⟩ : BufTy).Contents (Elt Ideal)) (x2 : (⟨S512, .f32⟩ : BufTy).Contents (Elt Ideal))
    (x3 : (⟨S512x64, .f32⟩ : BufTy).Contents (Elt Ideal)) (x4 : (⟨S64, .f32⟩ : BufTy).Contents (Elt Ideal)) (r : Fin 8192) (k : Fin 64) :
    val_main_v8 x0 x1 x2 x3 x4 (ix2 r k) = zRow x0 x1 x2 x3 x4 r k := by
  rw [v8_eq]; rfl

/-- The squared distance: the host's sum over the last axis of the squared differences, from the zero initial value. -/
theorem v17_at (x0 : (⟨S8192x1024, .f32⟩ : BufTy).Contents (Elt Ideal)) (x1 : (⟨S1024x512, .f32⟩ : BufTy).Contents (Elt Ideal)) (x2 : (⟨S512, .f32⟩ : BufTy).Contents (Elt Ideal))
    (x3 : (⟨S512x64, .f32⟩ : BufTy).Contents (Elt Ideal)) (x4 : (⟨S64, .f32⟩ : BufTy).Contents (Elt Ideal))
    (x9 : (⟨S16x64, .f32⟩ : BufTy).Contents (Elt Ideal)) (r : Fin 8192) (a : Fin 16) :
    val_main_v17 x0 x1 x2 x3 x4 x9 (ix2 r a) = dist2R (zRow x0 x1 x2 x3 x4 r) (mat x9) a := by
  rw [val_main_v17_apply, val_main_cst_1_apply, Ideal.ofBits_def, Ideal.ofBits_zero_f32, zero_add]
  unfold dist2R
  refine Finset.sum_congr rfl fun k _ => ?_
  have e1 : idx_main_v11 (idx_main_v13 (idx_main_v17 (ix2 r a) k)) = ix2 r k :=
    funext fun c => Fin.ext (by match c with | ⟨0, _⟩ => rfl | ⟨1, _⟩ => rfl)
  have e2 : idx_main_v12 (idx_main_v14 (idx_main_v17 (ix2 r a) k)) = ix2 a k :=
    funext fun c => Fin.ext (by match c with | ⟨0, _⟩ => rfl | ⟨1, _⟩ => rfl)
  rw [val_main_v16_apply, val_main_v15_apply, val_main_v13_apply, val_main_v11_apply, val_main_v14_apply,
    val_main_v12_apply, e1, e2, refQ_z_at]
  rfl

/-- The logit: the distance divided by one, the logarithm of one plus it, times minus one. -/
theorem v22_at (x0 : (⟨S8192x1024, .f32⟩ : BufTy).Contents (Elt Ideal)) (x1 : (⟨S1024x512, .f32⟩ : BufTy).Contents (Elt Ideal)) (x2 : (⟨S512, .f32⟩ : BufTy).Contents (Elt Ideal))
    (x3 : (⟨S512x64, .f32⟩ : BufTy).Contents (Elt Ideal)) (x4 : (⟨S64, .f32⟩ : BufTy).Contents (Elt Ideal))
    (x9 : (⟨S16x64, .f32⟩ : BufTy).Contents (Elt Ideal)) (r : Fin 8192) (a : Fin 16) :
    val_main_v22 x0 x1 x2 x3 x4 x9 (ix2 r a) = logit (dist2R (zRow x0 x1 x2 x3 x4 r) (mat x9) a) := by
  rw [val_main_v22_apply, val_main_v21_apply, val_main_cst_3_apply, val_main_v20_apply, val_main_v19_apply,
    val_main_v18_apply, val_main_cst_2_apply, v17_at]
  rfl

/-- The host's maximum-reduce of a [8192,16] array over its second axis, from an initial value that is -∞: at row `r`
    the fold of `max` from -∞ over the 16 entries of the row. -/
theorem refQ_hostMax_row (y : S8192x16.Idx → EReal) (init : S_.Idx → EReal)
    (hinit : init (Shape.Idx.first h_S_) = negInf) (r : Fin 8192) :
    Host.reduce (FloatOps.maximumf (F := Ideal) (φ := .f32)) y init reducesTo_S8192x16_S8192_d1 h_S_ (ix1 r)
      = rowMax fun b => y (ix2 r b) := by
  rw [Host.reduce_eq_fold_single _ y init reducesTo_S8192x16_S8192_d1 (by decide) h_S_ (ix1 r), hinit]
  unfold rowMax
  show (Finset.univ : Finset (Fin 16)).fold max negInf _ = _
  refine congrArg (Finset.fold max negInf · Finset.univ) (funext fun b => ?_)
  exact congrArg y (funext fun c => Fin.ext (by match c with | ⟨0, _⟩ => rfl | ⟨1, _⟩ => rfl))

/-- The row maximum of the logits. -/
theorem v23_at (x0 : (⟨S8192x1024, .f32⟩ : BufTy).Contents (Elt Ideal)) (x1 : (⟨S1024x512, .f32⟩ : BufTy).Contents (Elt Ideal)) (x2 : (⟨S512, .f32⟩ : BufTy).Contents (Elt Ideal))
    (x3 : (⟨S512x64, .f32⟩ : BufTy).Contents (Elt Ideal)) (x4 : (⟨S64, .f32⟩ : BufTy).Contents (Elt Ideal))
    (x9 : (⟨S16x64, .f32⟩ : BufTy).Contents (Elt Ideal)) (r : Fin 8192) :
    val_main_v23 x0 x1 x2 x3 x4 x9 (ix1 r)
      = rowMax fun b => logit (dist2R (zRow x0 x1 x2 x3 x4 r) (mat x9) b) := by
  unfold val_main_v23
  rw [refQ_hostMax_row _ _ rfl r]
  exact congrArg rowMax (funext fun b => v22_at x0 x1 x2 x3 x4 x9 r b)

/-- The logits with their row maximum subtracted. -/
theorem v26_at (x0 : (⟨S8192x1024, .f32⟩ : BufTy).Contents (Elt Ideal)) (x1 : (⟨S1024x512, .f32⟩ : BufTy).Contents (Elt Ideal)) (x2 : (⟨S512, .f32⟩ : BufTy).Contents (Elt Ideal))
    (x3 : (⟨S512x64, .f32⟩ : BufTy).Contents (Elt Ideal)) (x4 : (⟨S64, .f32⟩ : BufTy).Contents (Elt Ideal))
    (x9 : (⟨S16x64, .f32⟩ : BufTy).Contents (Elt Ideal)) (r : Fin 8192) (a : Fin 16) :
    val_main_v26 x0 x1 x2 x3 x4 x9 (ix2 r a) = (logit (dist2R (zRow x0 x1 x2 x3 x4 r) (mat x9) a) - rowMax (fun b => logit (dist2R (zRow x0 x1 x2 x3 x4 r) (mat x9) b))) := by
  have e : idx_main_v24 (idx_main_v25 (ix2 r a)) = ix1 r :=
    funext fun c => Fin.ext (by match c with | ⟨0, _⟩ => rfl)
  rw [val_main_v26_apply, val_main_v25_apply, val_main_v24_apply, e, v22_at, v23_at]
  rfl

/-- The row maximum of the shifted logits. -/
theorem v27_at (x0 : (⟨S8192x1024, .f32⟩ : BufTy).Contents (Elt Ideal)) (x1 : (⟨S1024x512, .f32⟩ : BufTy).Contents (Elt Ideal)) (x2 : (⟨S512, .f32⟩ : BufTy).Contents (Elt Ideal))
    (x3 : (⟨S512x64, .f32⟩ : BufTy).Contents (Elt Ideal)) (x4 : (⟨S64, .f32⟩ : BufTy).Contents (Elt Ideal))
    (x9 : (⟨S16x64, .f32⟩ : BufTy).Contents (Elt Ideal)) (r : Fin 8192) :
    val_main_v27 x0 x1 x2 x3 x4 x9 (ix1 r) = rowMax fun b => (logit (dist2R (zRow x0 x1 x2 x3 x4 r) (mat x9) b) - rowMax (fun b => logit (dist2R (zRow x0 x1 x2 x3 x4 r) (mat x9) b))) := by
  unfold val_main_v27
  rw [refQ_hostMax_row _ _ rfl r]
  exact congrArg rowMax (funext fun b => v26_at x0 x1 x2 x3 x4 x9 r b)

/-- That maximum joined with -∞. -/
theorem v29_at (x0 : (⟨S8192x1024, .f32⟩ : BufTy).Contents (Elt Ideal)) (x1 : (⟨S1024x512, .f32⟩ : BufTy).Contents (Elt Ideal)) (x2 : (⟨S512, .f32⟩ : BufTy).Contents (Elt Ideal))
    (x3 : (⟨S512x64, .f32⟩ : BufTy).Contents (Elt Ideal)) (x4 : (⟨S64, .f32⟩ : BufTy).Contents (Elt Ideal))
    (x9 : (⟨S16x64, .f32⟩ : BufTy).Contents (Elt Ideal)) (r : Fin 8192) :
    val_main_v29 x0 x1 x2 x3 x4 x9 (ix1 r) = max negInf (rowMax fun b => (logit (dist2R (zRow x0 x1 x2 x3 x4 r) (mat x9) b) - rowMax (fun b => logit (dist2R (zRow x0 x1 x2 x3 x4 r) (mat x9) b)))) := by
  rw [val_main_v29_apply, val_main_v28_apply, val_main_cst_6_apply, v27_at]
  rfl

/-- The exponential of the twice-shifted logit. -/
theorem v33_at (x0 : (⟨S8192x1024, .f32⟩ : BufTy).Contents (Elt Ideal)) (x1 : (⟨S1024x512, .f32⟩ : BufTy).Contents (Elt Ideal)) (x2 : (⟨S512, .f32⟩ : BufTy).Contents (Elt Ideal))
    (x3 : (⟨S512x64, .f32⟩ : BufTy).Contents (Elt Ideal)) (x4 : (⟨S64, .f32⟩ : BufTy).Contents (Elt Ideal))
    (x9 : (⟨S16x64, .f32⟩ : BufTy).Contents (Elt Ideal)) (r : Fin 8192) (a : Fin 16) :
    val_main_v33 x0 x1 x2 x3 x4 x9 (ix2 r a) = Ideal.exp ((logit (dist2R (zRow x0 x1 x2 x3 x4 r) (mat x9) a) - rowMax (fun b => logit (dist2R (zRow x0 x1 x2 x3 x4 r) (mat x9) b))) - max negInf (rowMax fun b => (logit (dist2R (zRow x0 x1 x2 x3 x4 r) (mat x9) b) - rowMax (fun b => logit (dist2R (zRow x0 x1 x2 x3 x4 r) (mat x9) b))))) := by
  have e : idx_main_v30 (idx_main_v31 (ix2 r a)) = ix1 r :=
    funext fun c => Fin.ext (by match c with | ⟨0, _⟩ => rfl)
  rw [val_main_v33_apply, val_main_v32_apply, val_main_v31_apply, val_main_v30_apply, e, v26_at, v29_at]
  rfl

/-- The row sum of the exponentials: the host's sum over the second axis, from the zero initial value. -/
theorem v34_at (x0 : (⟨S8192x1024, .f32⟩ : BufTy).Contents (Elt Ideal)) (x1 : (⟨S1024x512, .f32⟩ : BufTy).Contents (Elt Ideal)) (x2 : (⟨S512, .f32⟩ : BufTy).Contents (Elt Ideal))
    (x3 : (⟨S512x64, .f32⟩ : BufTy).Contents (Elt Ideal)) (x4 : (⟨S64, .f32⟩ : BufTy).Contents (Elt Ideal))
    (x9 : (⟨S16x64, .f32⟩ : BufTy).Contents (Elt Ideal)) (r : Fin 8192) :
    val_main_v34 x0 x1 x2 x3 x4 x9 (ix1 r) = ∑ c : Fin 16, Ideal.exp ((logit (dist2R (zRow x0 x1 x2 x3 x4 r) (mat x9) c) - rowMax (fun b => logit (dist2R (zRow x0 x1 x2 x3 x4 r) (mat x9) b))) - max negInf (rowMax fun b => (logit (dist2R (zRow x0 x1 x2 x3 x4 r) (mat x9) b) - rowMax (fun b => logit (dist2R (zRow x0 x1 x2 x3 x4 r) (mat x9) b))))) := by
  rw [val_main_v34_apply, val_main_cst_7_apply, Ideal.ofBits_def, Ideal.ofBits_zero_f32, zero_add]
  refine Finset.sum_congr rfl fun c _ => ?_
  have e : idx_main_v34 (ix1 r) c = ix2 r c :=
    funext fun d => Fin.ext (by match d with | ⟨0, _⟩ => rfl | ⟨1, _⟩ => rfl)
  rw [e, v33_at]

theorem v37_eq (x0 : (⟨S8192x1024, .f32⟩ : BufTy).Contents (Elt Ideal)) (x1 : (⟨S1024x512, .f32⟩ : BufTy).Contents (Elt Ideal)) (x2 : (⟨S512, .f32⟩ : BufTy).Contents (Elt Ideal))
    (x3 : (⟨S512x64, .f32⟩ : BufTy).Contents (Elt Ideal)) (x4 : (⟨S64, .f32⟩ : BufTy).Contents (Elt Ideal))
    (x9 : (⟨S16x64, .f32⟩ : BufTy).Contents (Elt Ideal)) :
    val_main_v37 x0 x1 x2 x3 x4 x9 = qArrR x0 x1 x2 x3 x4 x9 := by
  funext i
  obtain ⟨r, a, rfl⟩ : ∃ (r : Fin 8192) (a : Fin 16), i = ix2 r a := ⟨i 0, i 1, eq_ix2 i⟩
  have e : idx_main_v35 (idx_main_v36 (ix2 r a)) = ix1 r :=
    funext fun c => Fin.ext (by match c with | ⟨0, _⟩ => rfl)
  rw [val_main_v37_apply, val_main_v36_apply, val_main_v35_apply, e, v33_at, v34_at]
  rfl

end Cert.ReferenceIdeal.RefValue

end
-- ==== Proof.RefS.lean ====
/-
  The reference's linear head read at an index: the host matrix product of the concatenation [z, x] along the feature
  axis with the head's weights, a sum over the 1088 joined coordinates whose k-th factor is z's coordinate k below 64 and
  x's coordinate k - 64 from 64 on, plus the broadcast bias.
-/
import proofs.«136008_g16879221473979_cont_7to1_943_9_alg».proof.Proof.Gen.ReferenceIdeal.Read
import proofs.«136008_g16879221473979_cont_7to1_943_9_alg».proof.Proof.Spec
import proofs.«136008_g16879221473979_cont_7to1_943_9_alg».proof.Proof.RefZ
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost

noncomputable section

open scoped BigOperators

namespace Cert.ReferenceIdeal.RefValue

open Idealize.ShloMosaic Idealize.ShloMosaic.ValueIdx Cert.ReferenceIdeal Cert.ReferenceIdeal.Gen Cert.ReferenceIdeal.Read Cert.Spec

/-- The joined array [z, x] at row r, column k: z's coordinate k below the joint at 64, x's coordinate k - 64 from there on. -/
theorem v38_at (x0 : (⟨S8192x1024, .f32⟩ : BufTy).Contents (Elt Ideal)) (x1 : (⟨S1024x512, .f32⟩ : BufTy).Contents (Elt Ideal)) (x2 : (⟨S512, .f32⟩ : BufTy).Contents (Elt Ideal))
    (x3 : (⟨S512x64, .f32⟩ : BufTy).Contents (Elt Ideal)) (x4 : (⟨S64, .f32⟩ : BufTy).Contents (Elt Ideal))
    (r : Fin 8192) (k : Fin 1088) :
    val_main_v38 x0 x1 x2 x3 x4 (ix2 r k) = cat (zRow x0 x1 x2 x3 x4 r) (row x0 r) k := by
  unfold val_main_v38 cat
  by_cases h : k.val < 64
  · rw [dif_pos h]
    refine (concatenate_pair_apply_left (t := S8192x1088) (s₁ := S8192x64) (s₂ := S8192x1024) (1 : Fin 2) _ _ concatenates_S8192x64_S8192x1024_S8192x1088_d1 (ix2 r k) rfl
      (ix2 r (⟨k.val, h⟩ : Fin 64)) (fun b => by
        match b with
        | ⟨0, _⟩ => rfl
        | ⟨1, _⟩ => rfl)).trans ?_
    rw [v8_eq]
    rfl
  · rw [dif_neg h]
    refine (concatenate_pair_apply_right (t := S8192x1088) (s₁ := S8192x64) (s₂ := S8192x1024) (1 : Fin 2) _ _ concatenates_S8192x64_S8192x1024_S8192x1088_d1 (ix2 r k) rfl rfl
      (ix2 r (⟨k.val - 64, by omega⟩ : Fin 1024)) (fun b hb => by
        match b with
        | ⟨0, _⟩ => rfl
        | ⟨1, _⟩ => exact absurd rfl hb) ?_).trans ?_
    · show (k.val - 64) + 64 = k.val
      omega
    · rfl

/-- The linear head at row r, output t: the sum over the 1088 joined coordinates of [z, x] at (r, k) times the weight at
    (k, t), plus the bias at t. -/
theorem v42_eq (x0 : (⟨S8192x1024, .f32⟩ : BufTy).Contents (Elt Ideal)) (x1 : (⟨S1024x512, .f32⟩ : BufTy).Contents (Elt Ideal)) (x2 : (⟨S512, .f32⟩ : BufTy).Contents (Elt Ideal))
    (x3 : (⟨S512x64, .f32⟩ : BufTy).Contents (Elt Ideal)) (x4 : (⟨S64, .f32⟩ : BufTy).Contents (Elt Ideal))
    (x7 : (⟨S1088x50, .f32⟩ : BufTy).Contents (Elt Ideal)) (x8 : (⟨S50, .f32⟩ : BufTy).Contents (Elt Ideal)) :
    val_main_v42 x0 x1 x2 x3 x4 x7 x8 = survArrR x0 x1 x2 x3 x4 x7 x8 := by
  funext i
  obtain ⟨r, t, rfl⟩ : ∃ r t, i = ix2 r t := ⟨i 0, i 1, eq_ix2 i⟩
  rw [val_main_v42_apply, val_main_v39_apply, val_main_v41_apply, val_main_v40_apply, Ideal.addf_def]
  unfold survArrR survR
  have el : ∀ k : Fin 1088, lidx_main_v39 (ix2 r t) k = ix2 r k := fun k =>
    funext fun a => Fin.ext (by match a with | ⟨0, _⟩ => rfl | ⟨1, _⟩ => rfl)
  have er : ∀ k : Fin 1088, ridx_main_v39 (ix2 r t) k = ix2 k t := fun k =>
    funext fun a => Fin.ext (by match a with | ⟨0, _⟩ => rfl | ⟨1, _⟩ => rfl)
  have eb : idx_main_v40 (idx_main_v41 (ix2 r t)) = ix1 t :=
    funext fun a => Fin.ext (by match a with | ⟨0, _⟩ => rfl)
  rw [eb]
  refine congrArg₂ (· + ·) (Finset.sum_congr rfl fun k _ => ?_) rfl
  rw [el, er, v38_at]
  rfl

end Cert.ReferenceIdeal.RefValue

end
-- ==== Proof.lean ====
/-
  The claim. A fused forward pass — encoder `z = relu(x·W1 + b1)·W2 + b2`, a Student-t soft assignment of `z` to 16 centres,
  a linear head on `[z, x]`, a decoder `z·Wd + bd` and the per-row mean squared reconstruction error, with three all-zero
  results — computed by one pallas_call over 16 blocks of 512 rows, against the same forward pass in plain jnp.

  On the extended reals both programs compute, row by row, the functions of Proof/Spec.lean. Three results differ in
  form. The kernel expands the squared distance as `‖z‖² - 2 z·c + ‖c‖²` and clips it at zero where the reference sums
  squared differences: equal for real entries, by distributivity, and the clip is the identity on a sum of squares. The
  reference's soft-max subtracts the row maximum from a row that has already had it subtracted: the second maximum is zero.
  (Both need the inputs finite, which is the precondition.) The kernel splits the head's product over the concatenation
  at the joint, and multiplies by `2⁻¹⁰` where the reference divides by `1024`: equal on all extended reals.
  The three frames: the two kernels' are the generated ones, the reference's is its run with the results dropped.
-/
import proofs.«136008_g16879221473979_cont_7to1_943_9_alg».proof.Defs
import proofs.«136008_g16879221473979_cont_7to1_943_9_alg».proof.Proof.Gen.Kernel
import proofs.«136008_g16879221473979_cont_7to1_943_9_alg».proof.Proof.Gen.Kernel.Skeleton
import proofs.«136008_g16879221473979_cont_7to1_943_9_alg».proof.Proof.Gen.Kernel.Launch
import proofs.«136008_g16879221473979_cont_7to1_943_9_alg».proof.Proof.Gen.Kernel.Points
import proofs.«136008_g16879221473979_cont_7to1_943_9_alg».proof.Proof.Gen.Kernel.Frame
import proofs.«136008_g16879221473979_cont_7to1_943_9_alg».proof.Proof.Gen.KernelIdeal
import proofs.«136008_g16879221473979_cont_7to1_943_9_alg».proof.Proof.Gen.KernelIdeal.Skeleton
import proofs.«136008_g16879221473979_cont_7to1_943_9_alg».proof.Proof.Gen.KernelIdeal.Launch
import proofs.«136008_g16879221473979_cont_7to1_943_9_alg».proof.Proof.Gen.KernelIdeal.Points
import proofs.«136008_g16879221473979_cont_7to1_943_9_alg».proof.Proof.Gen.KernelIdeal.Frame
import proofs.«136008_g16879221473979_cont_7to1_943_9_alg».proof.Proof.Gen.ReferenceIdeal
import proofs.«136008_g16879221473979_cont_7to1_943_9_alg».proof.Proof.Gen.Pre_finite_inputs
import proofs.«136008_g16879221473979_cont_7to1_943_9_alg».proof.Proof.Gen.ReferenceIdeal.Run
import proofs.«136008_g16879221473979_cont_7to1_943_9_alg».proof.Proof.Gen.ReferenceIdeal.Read
import proofs.«136008_g16879221473979_cont_7to1_943_9_alg».proof.Proof.SpecLaws
import proofs.«136008_g16879221473979_cont_7to1_943_9_alg».proof.Proof.Finite
import proofs.«136008_g16879221473979_cont_7to1_943_9_alg».proof.Proof.KRun
import proofs.«136008_g16879221473979_cont_7to1_943_9_alg».proof.Proof.RefZ
import proofs.«136008_g16879221473979_cont_7to1_943_9_alg».proof.Proof.RefQ
import proofs.«136008_g16879221473979_cont_7to1_943_9_alg».proof.Proof.RefS
import Idealize.ShloMosaic.Adequacy
import Idealize.ShloMosaic.Init

noncomputable section

namespace Cert.Proof

open Idealize.ShloMosaic Idealize.SL.Sem Cert.Spec

/-- The reference's frame: its run, the results dropped. -/
theorem frame_ri [Cert.ReferenceIdeal.Facts] [Cert.Pre_finite_inputs.Facts] : Cert.frame_ReferenceIdeal := fun m ρ _ =>
  (θ_run Cert.ReferenceIdeal.defs _ _).mono (fun _ h c => (h c).2.2.2.2.2.2.2.2.2)
    (Cert.ReferenceIdeal.Value.run (F := Ideal) m ρ)

/-- From memories that agree on the arguments both idealized programs end with the same nine results: the kernel's are
    the row-by-row functions of its arguments, the reference's stages are the same functions of its own, and where the
    two forms differ they agree on real entries, which the precondition gives. -/
theorem algebraic [Cert.KernelIdeal.Facts] [Cert.ReferenceIdeal.Facts] [Cert.Pre_finite_inputs.Facts] :
    Cert.algebraic_KernelIdeal_ReferenceIdeal := by
  intro m ρ m' ρ' hpre hagree
  refine ⟨_, _, _, _, _, _, _, _, _, Cert.KernelIdeal.RunValue.run m ρ, ?_⟩
  refine (θ_run Cert.ReferenceIdeal.defs _ _).mono (fun r h c => ?_)
    (Cert.ReferenceIdeal.Value.run (F := Ideal) m' ρ')
  obtain ⟨e0, e1, e2, e3, e4, e5, e6, e7, e8, e9⟩ := hagree c
  obtain ⟨g0, g1, g2, g3, g4, -, -, -, -, g9⟩ := Cert.Finite.real_of_pre _ _ _ _ _ _ _ _ _ _ (hpre c)
  obtain ⟨h8, h9, h10, h52, h46, h51, h37, h42, hc, hrest⟩ := h c
  refine ⟨?_, ?_, ?_, ?_, ?_, ?_, ?_, ?_, hc.trans e9, hrest⟩
  · rw [h8, e0, e1, e2, e3, e4]
    exact (Cert.ReferenceIdeal.Read.val_main_v8_eq _ _ _ _ _).trans (Cert.ReferenceIdeal.RefValue.v8_eq _ _ _ _ _)
  · rw [h9]
    exact Cert.ReferenceIdeal.Read.val_main_v9_eq.trans Cert.ReferenceIdeal.RefValue.v9_eq
  · rw [h10]
    exact Cert.ReferenceIdeal.Read.val_main_v10_eq.trans Cert.ReferenceIdeal.RefValue.v10_eq
  · rw [h52]
    exact Cert.ReferenceIdeal.Read.val_main_v52_eq.trans Cert.ReferenceIdeal.RefValue.v52_eq
  · rw [h46, e0, e1, e2, e3, e4, e5, e6]
    exact (Cert.ReferenceIdeal.Read.val_main_v46_eq _ _ _ _ _ _ _).trans
      (Cert.ReferenceIdeal.RefValue.v46_eq _ _ _ _ _ _ _)
  · rw [h51, e0, e1, e2, e3, e4, e5, e6]
    exact ((Cert.ReferenceIdeal.Read.val_main_v51_eq _ _ _ _ _ _ _).trans
      (Cert.ReferenceIdeal.RefValue.v51_eq _ _ _ _ _ _ _)).trans (recArrK_eq_recArrR _ _ _ _ _ _ _).symm
  · rw [h37, Cert.ReferenceIdeal.Read.val_main_v37_eq, e0, e1, e2, e3, e4, e9]
    exact (Cert.ReferenceIdeal.RefValue.v37_eq _ _ _ _ _ _).trans (qArrK_eq_qArrR g0 g1 g2 g3 g4 g9).symm
  · rw [h42, e0, e1, e2, e3, e4, e7, e8]
    exact ((Cert.ReferenceIdeal.Read.val_main_v42_eq _ _ _ _ _ _ _).trans
      (Cert.ReferenceIdeal.RefValue.v42_eq _ _ _ _ _ _ _)).trans (survArrK_eq_survArrR _ _ _ _ _ _ _).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_ri, trivial, algebraic⟩

end Cert.Proof

end
